-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v166)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v166) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x10 : Shape := ⟨2, ![16384, 10]⟩
abbrev S10 : Shape := ⟨1, ![10]⟩
abbrev S10x100000x16 : Shape := ⟨3, ![10, 100000, 16]⟩
abbrev S100000x1 : Shape := ⟨2, ![100000, 1]⟩
abbrev S1 : Shape := ⟨1, ![1]⟩
abbrev S_ : Shape := ⟨0, ![]⟩

class Facts : Prop where
  bcast_S_S10x100000x16 : S_.BroadcastsInDim S10x100000x16 (![] : Fin 0 → Fin S10x100000x16.rank)
  reducesTo_S10x100000x16_S_d0_1_2 : S10x100000x16.ReducesTo [0, 1, 2] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S1 : S_.BroadcastsInDim S1 (![] : Fin 0 → Fin S1.rank)
  reducesTo_S1_S_d0 : S1.ReducesTo [0] S_
  bcast_S_S16384x10 : S_.BroadcastsInDim S16384x10 (![] : Fin 0 → Fin S16384x10.rank)
  reducesTo_S16384x10_S_d0_1 : S16384x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg0 : IVec S16384x10 32) (main_arg1 : IVec S10 32) (main_v13 : IVec S_ 1) (main_v15 : IVec S16384x10 1) (main_c_5 : IVec S_ 1) : IVec S_ 1 :=
  let main_v16 : IVec S_ 1 := (fun x v => Host.reduce IntOp.andi x v reducesTo_S16384x10_S_d0_1 h_S_) main_v15 main_c_5
  let main_v17 : IVec S_ 1 := andi main_v13 main_v16
  let main_c_6 : IVec S_ 32 := constantI S_ 32 10000#32
  let main_v18 : IVec S16384x10 32 := broadcastInDim S16384x10 ![] bcast_S_S16384x10 main_c_6
  let main_v19 : IVec S16384x10 1 := cmpi .slt main_arg0 main_v18
  let main_c_7 : IVec S_ 1 := constantI S_ 1 1#1
  let main_v20 : IVec S_ 1 := (fun x v => Host.reduce IntOp.andi x v reducesTo_S16384x10_S_d0_1 h_S_) main_v19 main_c_7
  let main_v21 : IVec S_ 1 := andi main_v17 main_v20
  let main_c_8 : IVec S_ 32 := constantI S_ 32 0#32
  let main_v22 : IVec S10 32 := broadcastInDim S10 ![] bcast_S_S10 main_c_8
  let main_v23 : IVec S10 1 := cmpi .sge main_arg1 main_v22
  let main_c_9 : IVec S_ 1 := constantI S_ 1 1#1
  let main_v24 : IVec S_ 1 := (fun x v => Host.reduce IntOp.andi x v reducesTo_S10_S_d0 h_S_) main_v23 main_c_9
  let main_v25 : IVec S_ 1 := andi main_v21 main_v24
  let main_c_10 : IVec S_ 32 := constantI S_ 32 90000#32
  let main_v26 : IVec S10 32 := broadcastInDim S10 ![] bcast_S_S10 main_c_10
  let main_v27 : IVec S10 1 := cmpi .sle main_arg1 main_v26
  let main_c_11 : IVec S_ 1 := constantI S_ 1 1#1
  let main_v28 : IVec S_ 1 := (fun x v => Host.reduce IntOp.andi x v reducesTo_S10_S_d0 h_S_) main_v27 main_c_11
  let main_v29 : IVec S_ 1 := andi main_v25 main_v28
  main_v29

def fn {F : FTy → Type} [FloatOps F] (main_arg0 : IVec S16384x10 32) (main_arg1 : IVec S10 32) (main_arg2 : FVec F S10x100000x16 .f32) (main_arg3 : FVec F S100000x1 .f32) (main_arg4 : FVec F S1 .f32) : IVec S_ 1 :=
  let main_v0 : FVec F S10x100000x16 .f32 := Host.absf main_arg2
  let main_cst : FVec F S_ .f32 := constant S_ .f32 0x7F800000#32
  let main_v1 : FVec F S10x100000x16 .f32 := broadcastInDim S10x100000x16 ![] bcast_S_S10x100000x16 main_cst
  let main_v2 : IVec S10x100000x16 1 := cmpf .olt main_v0 main_v1
  let main_c : IVec S_ 1 := constantI S_ 1 1#1
  let main_v3 : IVec S_ 1 := (fun x v => Host.reduce IntOp.andi x v reducesTo_S10x100000x16_S_d0_1_2 h_S_) main_v2 main_c
  let main_v4 : FVec F S100000x1 .f32 := Host.absf main_arg3
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S1 .f32 := Host.absf main_arg4
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_c_4 : IVec S_ 32 := constantI S_ 32 0#32
  let main_v14 : IVec S16384x10 32 := broadcastInDim S16384x10 ![] bcast_S_S16384x10 main_c_4
  let main_v15 : IVec S16384x10 1 := cmpi .sge main_arg0 main_v14
  let main_c_5 : IVec S_ 1 := constantI S_ 1 1#1
  fn_part1 (F := F) main_arg0 main_arg1 main_v13 main_v15 main_c_5
-- ==== Kernel.lean ====
abbrev S16384x10 : Shape := ⟨2, ![16384, 10]⟩
abbrev S10 : Shape := ⟨1, ![10]⟩
abbrev S10x100000x16 : Shape := ⟨3, ![10, 100000, 16]⟩
abbrev S100000x1 : Shape := ⟨2, ![100000, 1]⟩
abbrev S1 : Shape := ⟨1, ![1]⟩
abbrev S_ : Shape := ⟨0, ![]⟩
abbrev S10x10000x16 : Shape := ⟨3, ![10, 10000, 16]⟩
abbrev S10x16x10000 : Shape := ⟨3, ![10, 16, 10000]⟩
abbrev S160x10000 : Shape := ⟨2, ![160, 10000]⟩
abbrev S10000x1 : Shape := ⟨2, ![10000, 1]⟩
abbrev S1x10000 : Shape := ⟨2, ![1, 10000]⟩
abbrev S161x10000 : Shape := ⟨2, ![161, 10000]⟩
abbrev S161x10240 : Shape := ⟨2, ![161, 10240]⟩
abbrev S1x161x10240 : Shape := ⟨3, ![1, 161, 10240]⟩
abbrev S10x161x10240 : Shape := ⟨3, ![10, 161, 10240]⟩
abbrev S16384 : Shape := ⟨1, ![16384]⟩
abbrev S256x10 : Shape := ⟨2, ![256, 10]⟩
abbrev S256 : Shape := ⟨1, ![256]⟩
abbrev S256x161 : Shape := ⟨2, ![256, 161]⟩
abbrev S256x2048 : Shape := ⟨2, ![256, 2048]⟩
abbrev S256x1 : Shape := ⟨2, ![256, 1]⟩
abbrev S1x161x2048 : Shape := ⟨3, ![1, 161, 2048]⟩
abbrev S161x2048 : Shape := ⟨2, ![161, 2048]⟩
abbrev S256x16 : Shape := ⟨2, ![256, 16]⟩

abbrev nBuf : Space → Nat
  | .hbm => 262
  | .vmem => 5
  | .smem => 0
  | _ => 0

abbrev hbmTy0_0 (i : Nat) : BufTy := match i % 128 with
  | 0 => ⟨S16384x10, .i32⟩
  | 1 => ⟨S10, .i32⟩
  | 2 => ⟨S10x100000x16, .f32⟩
  | 3 => ⟨S100000x1, .f32⟩
  | 4 => ⟨S1, .f32⟩
  | 5 => ⟨S10x100000x16, .bf16⟩
  | 6 => ⟨S100000x1, .bf16⟩
  | 7 => ⟨S1, .i32⟩
  | 8 => ⟨S_, .i32⟩
  | 9 => ⟨S_, .i32⟩
  | 10 => ⟨S_, .i1⟩
  | 11 => ⟨S_, .i32⟩
  | 12 => ⟨S_, .i32⟩
  | 13 => ⟨S_, .i32⟩
  | 14 => ⟨S_, .i32⟩
  | 15 => ⟨S_, .i32⟩
  | 16 => ⟨S10x10000x16, .bf16⟩
  | 17 => ⟨S10x16x10000, .bf16⟩
  | 18 => ⟨S160x10000, .bf16⟩
  | 19 => ⟨S_, .i32⟩
  | 20 => ⟨S_, .i1⟩
  | 21 => ⟨S_, .i32⟩
  | 22 => ⟨S_, .i32⟩
  | 23 => ⟨S_, .i32⟩
  | 24 => ⟨S_, .i32⟩
  | 25 => ⟨S10000x1, .bf16⟩
  | 26 => ⟨S1x10000, .bf16⟩
  | 27 => ⟨S161x10000, .bf16⟩
  | 28 => ⟨S_, .i32⟩
  | 29 => ⟨S_, .bf16⟩
  | 30 => ⟨S161x10240, .bf16⟩
  | 31 => ⟨S1, .i32⟩
  | 32 => ⟨S_, .i32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S10x10000x16, .bf16⟩
  | 41 => ⟨S10x16x10000, .bf16⟩
  | 42 => ⟨S160x10000, .bf16⟩
  | 43 => ⟨S_, .i32⟩
  | 44 => ⟨S_, .i1⟩
  | 45 => ⟨S_, .i32⟩
  | 46 => ⟨S_, .i32⟩
  | 47 => ⟨S_, .i32⟩
  | 48 => ⟨S_, .i32⟩
  | 49 => ⟨S10000x1, .bf16⟩
  | 50 => ⟨S1x10000, .bf16⟩
  | 51 => ⟨S161x10000, .bf16⟩
  | 52 => ⟨S_, .i32⟩
  | 53 => ⟨S_, .bf16⟩
  | 54 => ⟨S161x10240, .bf16⟩
  | 55 => ⟨S1, .i32⟩
  | 56 => ⟨S_, .i32⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S_, .i32⟩
  | 64 => ⟨S10x10000x16, .bf16⟩
  | 65 => ⟨S10x16x10000, .bf16⟩
  | 66 => ⟨S160x10000, .bf16⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S10000x1, .bf16⟩
  | 74 => ⟨S1x10000, .bf16⟩
  | 75 => ⟨S161x10000, .bf16⟩
  | 76 => ⟨S_, .i32⟩
  | 77 => ⟨S_, .bf16⟩
  | 78 => ⟨S161x10240, .bf16⟩
  | 79 => ⟨S1, .i32⟩
  | 80 => ⟨S_, .i32⟩
  | 81 => ⟨S_, .i32⟩
  | 82 => ⟨S_, .i1⟩
  | 83 => ⟨S_, .i32⟩
  | 84 => ⟨S_, .i32⟩
  | 85 => ⟨S_, .i32⟩
  | 86 => ⟨S_, .i32⟩
  | 87 => ⟨S_, .i32⟩
  | 88 => ⟨S10x10000x16, .bf16⟩
  | 89 => ⟨S10x16x10000, .bf16⟩
  | 90 => ⟨S160x10000, .bf16⟩
  | 91 => ⟨S_, .i32⟩
  | 92 => ⟨S_, .i1⟩
  | 93 => ⟨S_, .i32⟩
  | 94 => ⟨S_, .i32⟩
  | 95 => ⟨S_, .i32⟩
  | 96 => ⟨S_, .i32⟩
  | 97 => ⟨S10000x1, .bf16⟩
  | 98 => ⟨S1x10000, .bf16⟩
  | 99 => ⟨S161x10000, .bf16⟩
  | 100 => ⟨S_, .i32⟩
  | 101 => ⟨S_, .bf16⟩
  | 102 => ⟨S161x10240, .bf16⟩
  | 103 => ⟨S1, .i32⟩
  | 104 => ⟨S_, .i32⟩
  | 105 => ⟨S_, .i32⟩
  | 106 => ⟨S_, .i1⟩
  | 107 => ⟨S_, .i32⟩
  | 108 => ⟨S_, .i32⟩
  | 109 => ⟨S_, .i32⟩
  | 110 => ⟨S_, .i32⟩
  | 111 => ⟨S_, .i32⟩
  | 112 => ⟨S10x10000x16, .bf16⟩
  | 113 => ⟨S10x16x10000, .bf16⟩
  | 114 => ⟨S160x10000, .bf16⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S10000x1, .bf16⟩
  | 122 => ⟨S1x10000, .bf16⟩
  | 123 => ⟨S161x10000, .bf16⟩
  | 124 => ⟨S_, .i32⟩
  | 125 => ⟨S_, .bf16⟩
  | 126 => ⟨S161x10240, .bf16⟩
  | 127 => ⟨S1, .i32⟩
  | _ => ⟨S16384x10, .i32⟩

abbrev hbmTy0_1 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S_, .i32⟩
  | 6 => ⟨S_, .i32⟩
  | 7 => ⟨S_, .i32⟩
  | 8 => ⟨S10x10000x16, .bf16⟩
  | 9 => ⟨S10x16x10000, .bf16⟩
  | 10 => ⟨S160x10000, .bf16⟩
  | 11 => ⟨S_, .i32⟩
  | 12 => ⟨S_, .i1⟩
  | 13 => ⟨S_, .i32⟩
  | 14 => ⟨S_, .i32⟩
  | 15 => ⟨S_, .i32⟩
  | 16 => ⟨S_, .i32⟩
  | 17 => ⟨S10000x1, .bf16⟩
  | 18 => ⟨S1x10000, .bf16⟩
  | 19 => ⟨S161x10000, .bf16⟩
  | 20 => ⟨S_, .i32⟩
  | 21 => ⟨S_, .bf16⟩
  | 22 => ⟨S161x10240, .bf16⟩
  | 23 => ⟨S1, .i32⟩
  | 24 => ⟨S_, .i32⟩
  | 25 => ⟨S_, .i32⟩
  | 26 => ⟨S_, .i1⟩
  | 27 => ⟨S_, .i32⟩
  | 28 => ⟨S_, .i32⟩
  | 29 => ⟨S_, .i32⟩
  | 30 => ⟨S_, .i32⟩
  | 31 => ⟨S_, .i32⟩
  | 32 => ⟨S10x10000x16, .bf16⟩
  | 33 => ⟨S10x16x10000, .bf16⟩
  | 34 => ⟨S160x10000, .bf16⟩
  | 35 => ⟨S_, .i32⟩
  | 36 => ⟨S_, .i1⟩
  | 37 => ⟨S_, .i32⟩
  | 38 => ⟨S_, .i32⟩
  | 39 => ⟨S_, .i32⟩
  | 40 => ⟨S_, .i32⟩
  | 41 => ⟨S10000x1, .bf16⟩
  | 42 => ⟨S1x10000, .bf16⟩
  | 43 => ⟨S161x10000, .bf16⟩
  | 44 => ⟨S_, .i32⟩
  | 45 => ⟨S_, .bf16⟩
  | 46 => ⟨S161x10240, .bf16⟩
  | 47 => ⟨S1, .i32⟩
  | 48 => ⟨S_, .i32⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S_, .i32⟩
  | 56 => ⟨S10x10000x16, .bf16⟩
  | 57 => ⟨S10x16x10000, .bf16⟩
  | 58 => ⟨S160x10000, .bf16⟩
  | 59 => ⟨S_, .i32⟩
  | 60 => ⟨S_, .i1⟩
  | 61 => ⟨S_, .i32⟩
  | 62 => ⟨S_, .i32⟩
  | 63 => ⟨S_, .i32⟩
  | 64 => ⟨S_, .i32⟩
  | 65 => ⟨S10000x1, .bf16⟩
  | 66 => ⟨S1x10000, .bf16⟩
  | 67 => ⟨S161x10000, .bf16⟩
  | 68 => ⟨S_, .i32⟩
  | 69 => ⟨S_, .bf16⟩
  | 70 => ⟨S161x10240, .bf16⟩
  | 71 => ⟨S1, .i32⟩
  | 72 => ⟨S_, .i32⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S_, .i32⟩
  | 80 => ⟨S10x10000x16, .bf16⟩
  | 81 => ⟨S10x16x10000, .bf16⟩
  | 82 => ⟨S160x10000, .bf16⟩
  | 83 => ⟨S_, .i32⟩
  | 84 => ⟨S_, .i1⟩
  | 85 => ⟨S_, .i32⟩
  | 86 => ⟨S_, .i32⟩
  | 87 => ⟨S_, .i32⟩
  | 88 => ⟨S_, .i32⟩
  | 89 => ⟨S10000x1, .bf16⟩
  | 90 => ⟨S1x10000, .bf16⟩
  | 91 => ⟨S161x10000, .bf16⟩
  | 92 => ⟨S_, .i32⟩
  | 93 => ⟨S_, .bf16⟩
  | 94 => ⟨S161x10240, .bf16⟩
  | 95 => ⟨S1, .i32⟩
  | 96 => ⟨S_, .i32⟩
  | 97 => ⟨S_, .i32⟩
  | 98 => ⟨S_, .i1⟩
  | 99 => ⟨S_, .i32⟩
  | 100 => ⟨S_, .i32⟩
  | 101 => ⟨S_, .i32⟩
  | 102 => ⟨S_, .i32⟩
  | 103 => ⟨S_, .i32⟩
  | 104 => ⟨S10x10000x16, .bf16⟩
  | 105 => ⟨S10x16x10000, .bf16⟩
  | 106 => ⟨S160x10000, .bf16⟩
  | 107 => ⟨S_, .i32⟩
  | 108 => ⟨S_, .i1⟩
  | 109 => ⟨S_, .i32⟩
  | 110 => ⟨S_, .i32⟩
  | 111 => ⟨S_, .i32⟩
  | 112 => ⟨S_, .i32⟩
  | 113 => ⟨S10000x1, .bf16⟩
  | 114 => ⟨S1x10000, .bf16⟩
  | 115 => ⟨S161x10000, .bf16⟩
  | 116 => ⟨S_, .i32⟩
  | 117 => ⟨S_, .bf16⟩
  | 118 => ⟨S161x10240, .bf16⟩
  | 119 => ⟨S1x161x10240, .bf16⟩
  | 120 => ⟨S1x161x10240, .bf16⟩
  | 121 => ⟨S1x161x10240, .bf16⟩
  | 122 => ⟨S1x161x10240, .bf16⟩
  | 123 => ⟨S1x161x10240, .bf16⟩
  | 124 => ⟨S1x161x10240, .bf16⟩
  | 125 => ⟨S1x161x10240, .bf16⟩
  | 126 => ⟨S1x161x10240, .bf16⟩
  | 127 => ⟨S1x161x10240, .bf16⟩
  | _ => ⟨S16384x10, .i32⟩

abbrev hbmTy0_2 (i : Nat) : BufTy := match i % 128 with
  | 0 => ⟨S1x161x10240, .bf16⟩
  | 1 => ⟨S10x161x10240, .bf16⟩
  | 2 => ⟨S16384, .f32⟩
  | 3 => ⟨S_, .f32⟩
  | 4 => ⟨S16384, .f32⟩
  | 5 => ⟨S16384, .f32⟩
  | _ => ⟨S16384x10, .i32⟩

abbrev hbmTy (i : Nat) : BufTy := match i / 128 with
  | 0 => hbmTy0_0 i
  | 1 => hbmTy0_1 i
  | 2 => hbmTy0_2 i
  | _ => ⟨S16384x10, .i32⟩

abbrev bufTy : (tb : Table) → Fin (tcTables nBuf tb) → BufTy
  | .hbm, ⟨i, _⟩ => hbmTy i
  | .local _ .vmem, ⟨0, _⟩ => ⟨S256x10, .i32⟩
  | .local _ .vmem, ⟨1, _⟩ => ⟨S256x10, .i32⟩
  | .local _ .vmem, ⟨2, _⟩ => ⟨S10x161x10240, .bf16⟩
  | .local _ .vmem, ⟨3, _⟩ => ⟨S256, .f32⟩
  | .local _ .vmem, ⟨4, _⟩ => ⟨S256, .f32⟩
  | _, _ => ⟨S16384x10, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_3 : Ref sig .tc := ⟨.hbm, 19, rfl⟩
abbrev main_v10 : Ref sig .tc := ⟨.hbm, 20, rfl⟩
abbrev main_c_4 : Ref sig .tc := ⟨.hbm, 21, rfl⟩
abbrev main_v11 : Ref sig .tc := ⟨.hbm, 22, rfl⟩
abbrev main_v12 : Ref sig .tc := ⟨.hbm, 23, rfl⟩
abbrev main_c_5 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_6 : Ref sig .tc := ⟨.hbm, 28, rfl⟩
abbrev main_call0_v0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_7 : Ref sig .tc := ⟨.hbm, 33, rfl⟩
abbrev main_v19 : Ref sig .tc := ⟨.hbm, 34, rfl⟩
abbrev main_c_8 : Ref sig .tc := ⟨.hbm, 35, rfl⟩
abbrev main_v20 : Ref sig .tc := ⟨.hbm, 36, rfl⟩
abbrev main_v21 : Ref sig .tc := ⟨.hbm, 37, rfl⟩
abbrev main_c_9 : Ref sig .tc := ⟨.hbm, 38, rfl⟩
abbrev main_c_10 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_11 : Ref sig .tc := ⟨.hbm, 43, rfl⟩
abbrev main_v25 : Ref sig .tc := ⟨.hbm, 44, rfl⟩
abbrev main_c_12 : Ref sig .tc := ⟨.hbm, 45, rfl⟩
abbrev main_v26 : Ref sig .tc := ⟨.hbm, 46, rfl⟩
abbrev main_v27 : Ref sig .tc := ⟨.hbm, 47, rfl⟩
abbrev main_c_13 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_14 : Ref sig .tc := ⟨.hbm, 52, rfl⟩
abbrev main_call1_v0 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_15 : Ref sig .tc := ⟨.hbm, 57, rfl⟩
abbrev main_v34 : Ref sig .tc := ⟨.hbm, 58, rfl⟩
abbrev main_c_16 : Ref sig .tc := ⟨.hbm, 59, rfl⟩
abbrev main_v35 : Ref sig .tc := ⟨.hbm, 60, rfl⟩
abbrev main_v36 : Ref sig .tc := ⟨.hbm, 61, rfl⟩
abbrev main_c_17 : Ref sig .tc := ⟨.hbm, 62, rfl⟩
abbrev main_c_18 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_c_19 : Ref sig .tc := ⟨.hbm, 67, rfl⟩
abbrev main_v40 : Ref sig .tc := ⟨.hbm, 68, rfl⟩
abbrev main_c_20 : Ref sig .tc := ⟨.hbm, 69, rfl⟩
abbrev main_v41 : Ref sig .tc := ⟨.hbm, 70, rfl⟩
abbrev main_v42 : Ref sig .tc := ⟨.hbm, 71, rfl⟩
abbrev main_c_21 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_c_22 : Ref sig .tc := ⟨.hbm, 76, rfl⟩
abbrev main_call2_v0 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_c_23 : Ref sig .tc := ⟨.hbm, 81, rfl⟩
abbrev main_v49 : Ref sig .tc := ⟨.hbm, 82, rfl⟩
abbrev main_c_24 : Ref sig .tc := ⟨.hbm, 83, rfl⟩
abbrev main_v50 : Ref sig .tc := ⟨.hbm, 84, rfl⟩
abbrev main_v51 : Ref sig .tc := ⟨.hbm, 85, rfl⟩
abbrev main_c_25 : Ref sig .tc := ⟨.hbm, 86, rfl⟩
abbrev main_c_26 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_c_27 : Ref sig .tc := ⟨.hbm, 91, rfl⟩
abbrev main_v55 : Ref sig .tc := ⟨.hbm, 92, rfl⟩
abbrev main_c_28 : Ref sig .tc := ⟨.hbm, 93, rfl⟩
abbrev main_v56 : Ref sig .tc := ⟨.hbm, 94, rfl⟩
abbrev main_v57 : Ref sig .tc := ⟨.hbm, 95, rfl⟩
abbrev main_c_29 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_c_30 : Ref sig .tc := ⟨.hbm, 100, rfl⟩
abbrev main_call3_v0 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_c_31 : Ref sig .tc := ⟨.hbm, 105, rfl⟩
abbrev main_v64 : Ref sig .tc := ⟨.hbm, 106, rfl⟩
abbrev main_c_32 : Ref sig .tc := ⟨.hbm, 107, rfl⟩
abbrev main_v65 : Ref sig .tc := ⟨.hbm, 108, rfl⟩
abbrev main_v66 : Ref sig .tc := ⟨.hbm, 109, rfl⟩
abbrev main_c_33 : Ref sig .tc := ⟨.hbm, 110, rfl⟩
abbrev main_c_34 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_c_35 : Ref sig .tc := ⟨.hbm, 115, rfl⟩
abbrev main_v70 : Ref sig .tc := ⟨.hbm, 116, rfl⟩
abbrev main_c_36 : Ref sig .tc := ⟨.hbm, 117, rfl⟩
abbrev main_v71 : Ref sig .tc := ⟨.hbm, 118, rfl⟩
abbrev main_v72 : Ref sig .tc := ⟨.hbm, 119, rfl⟩
abbrev main_c_37 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_c_38 : Ref sig .tc := ⟨.hbm, 124, rfl⟩
abbrev main_call4_v0 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_c_39 : Ref sig .tc := ⟨.hbm, 129, rfl⟩
abbrev main_v79 : Ref sig .tc := ⟨.hbm, 130, rfl⟩
abbrev main_c_40 : Ref sig .tc := ⟨.hbm, 131, rfl⟩
abbrev main_v80 : Ref sig .tc := ⟨.hbm, 132, rfl⟩
abbrev main_v81 : Ref sig .tc := ⟨.hbm, 133, rfl⟩
abbrev main_c_41 : Ref sig .tc := ⟨.hbm, 134, rfl⟩
abbrev main_c_42 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_c_43 : Ref sig .tc := ⟨.hbm, 139, rfl⟩
abbrev main_v85 : Ref sig .tc := ⟨.hbm, 140, rfl⟩
abbrev main_c_44 : Ref sig .tc := ⟨.hbm, 141, rfl⟩
abbrev main_v86 : Ref sig .tc := ⟨.hbm, 142, rfl⟩
abbrev main_v87 : Ref sig .tc := ⟨.hbm, 143, rfl⟩
abbrev main_c_45 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_c_46 : Ref sig .tc := ⟨.hbm, 148, rfl⟩
abbrev main_call5_v0 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_c_47 : Ref sig .tc := ⟨.hbm, 153, rfl⟩
abbrev main_v94 : Ref sig .tc := ⟨.hbm, 154, rfl⟩
abbrev main_c_48 : Ref sig .tc := ⟨.hbm, 155, rfl⟩
abbrev main_v95 : Ref sig .tc := ⟨.hbm, 156, rfl⟩
abbrev main_v96 : Ref sig .tc := ⟨.hbm, 157, rfl⟩
abbrev main_c_49 : Ref sig .tc := ⟨.hbm, 158, rfl⟩
abbrev main_c_50 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_c_51 : Ref sig .tc := ⟨.hbm, 163, rfl⟩
abbrev main_v100 : Ref sig .tc := ⟨.hbm, 164, rfl⟩
abbrev main_c_52 : Ref sig .tc := ⟨.hbm, 165, rfl⟩
abbrev main_v101 : Ref sig .tc := ⟨.hbm, 166, rfl⟩
abbrev main_v102 : Ref sig .tc := ⟨.hbm, 167, rfl⟩
abbrev main_c_53 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_c_54 : Ref sig .tc := ⟨.hbm, 172, rfl⟩
abbrev main_call6_v0 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_c_55 : Ref sig .tc := ⟨.hbm, 177, rfl⟩
abbrev main_v109 : Ref sig .tc := ⟨.hbm, 178, rfl⟩
abbrev main_c_56 : Ref sig .tc := ⟨.hbm, 179, rfl⟩
abbrev main_v110 : Ref sig .tc := ⟨.hbm, 180, rfl⟩
abbrev main_v111 : Ref sig .tc := ⟨.hbm, 181, rfl⟩
abbrev main_c_57 : Ref sig .tc := ⟨.hbm, 182, rfl⟩
abbrev main_c_58 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_c_59 : Ref sig .tc := ⟨.hbm, 187, rfl⟩
abbrev main_v115 : Ref sig .tc := ⟨.hbm, 188, rfl⟩
abbrev main_c_60 : Ref sig .tc := ⟨.hbm, 189, rfl⟩
abbrev main_v116 : Ref sig .tc := ⟨.hbm, 190, rfl⟩
abbrev main_v117 : Ref sig .tc := ⟨.hbm, 191, rfl⟩
abbrev main_c_61 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_c_62 : Ref sig .tc := ⟨.hbm, 196, rfl⟩
abbrev main_call7_v0 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_c_63 : Ref sig .tc := ⟨.hbm, 201, rfl⟩
abbrev main_v124 : Ref sig .tc := ⟨.hbm, 202, rfl⟩
abbrev main_c_64 : Ref sig .tc := ⟨.hbm, 203, rfl⟩
abbrev main_v125 : Ref sig .tc := ⟨.hbm, 204, rfl⟩
abbrev main_v126 : Ref sig .tc := ⟨.hbm, 205, rfl⟩
abbrev main_c_65 : Ref sig .tc := ⟨.hbm, 206, rfl⟩
abbrev main_c_66 : Ref sig .tc := ⟨.hbm, 207, rfl⟩
abbrev main_v127 : Ref sig .tc := ⟨.hbm, 208, rfl⟩
abbrev main_v128 : Ref sig .tc := ⟨.hbm, 209, rfl⟩
abbrev main_v129 : Ref sig .tc := ⟨.hbm, 210, rfl⟩
abbrev main_c_67 : Ref sig .tc := ⟨.hbm, 211, rfl⟩
abbrev main_v130 : Ref sig .tc := ⟨.hbm, 212, rfl⟩
abbrev main_c_68 : Ref sig .tc := ⟨.hbm, 213, rfl⟩
abbrev main_v131 : Ref sig .tc := ⟨.hbm, 214, rfl⟩
abbrev main_v132 : Ref sig .tc := ⟨.hbm, 215, rfl⟩
abbrev main_c_69 : Ref sig .tc := ⟨.hbm, 216, rfl⟩
abbrev main_v133 : Ref sig .tc := ⟨.hbm, 217, rfl⟩
abbrev main_v134 : Ref sig .tc := ⟨.hbm, 218, rfl⟩
abbrev main_v135 : Ref sig .tc := ⟨.hbm, 219, rfl⟩
abbrev main_c_70 : Ref sig .tc := ⟨.hbm, 220, rfl⟩
abbrev main_call8_v0 : Ref sig .tc := ⟨.hbm, 221, rfl⟩
abbrev main_v136 : Ref sig .tc := ⟨.hbm, 222, rfl⟩
abbrev main_v137 : Ref sig .tc := ⟨.hbm, 223, rfl⟩
abbrev main_v138 : Ref sig .tc := ⟨.hbm, 224, rfl⟩
abbrev main_c_71 : Ref sig .tc := ⟨.hbm, 225, rfl⟩
abbrev main_v139 : Ref sig .tc := ⟨.hbm, 226, rfl⟩
abbrev main_c_72 : Ref sig .tc := ⟨.hbm, 227, rfl⟩
abbrev main_v140 : Ref sig .tc := ⟨.hbm, 228, rfl⟩
abbrev main_v141 : Ref sig .tc := ⟨.hbm, 229, rfl⟩
abbrev main_c_73 : Ref sig .tc := ⟨.hbm, 230, rfl⟩
abbrev main_c_74 : Ref sig .tc := ⟨.hbm, 231, rfl⟩
abbrev main_v142 : Ref sig .tc := ⟨.hbm, 232, rfl⟩
abbrev main_v143 : Ref sig .tc := ⟨.hbm, 233, rfl⟩
abbrev main_v144 : Ref sig .tc := ⟨.hbm, 234, rfl⟩
abbrev main_c_75 : Ref sig .tc := ⟨.hbm, 235, rfl⟩
abbrev main_v145 : Ref sig .tc := ⟨.hbm, 236, rfl⟩
abbrev main_c_76 : Ref sig .tc := ⟨.hbm, 237, rfl⟩
abbrev main_v146 : Ref sig .tc := ⟨.hbm, 238, rfl⟩
abbrev main_v147 : Ref sig .tc := ⟨.hbm, 239, rfl⟩
abbrev main_c_77 : Ref sig .tc := ⟨.hbm, 240, rfl⟩
abbrev main_v148 : Ref sig .tc := ⟨.hbm, 241, rfl⟩
abbrev main_v149 : Ref sig .tc := ⟨.hbm, 242, rfl⟩
abbrev main_v150 : Ref sig .tc := ⟨.hbm, 243, rfl⟩
abbrev main_c_78 : Ref sig .tc := ⟨.hbm, 244, rfl⟩
abbrev main_call9_v0 : Ref sig .tc := ⟨.hbm, 245, rfl⟩
abbrev main_v151 : Ref sig .tc := ⟨.hbm, 246, rfl⟩
abbrev main_v152 : Ref sig .tc := ⟨.hbm, 247, rfl⟩
abbrev main_v153 : Ref sig .tc := ⟨.hbm, 248, rfl⟩
abbrev main_v154 : Ref sig .tc := ⟨.hbm, 249, rfl⟩
abbrev main_v155 : Ref sig .tc := ⟨.hbm, 250, rfl⟩
abbrev main_v156 : Ref sig .tc := ⟨.hbm, 251, rfl⟩
abbrev main_v157 : Ref sig .tc := ⟨.hbm, 252, rfl⟩
abbrev main_v158 : Ref sig .tc := ⟨.hbm, 253, rfl⟩
abbrev main_v159 : Ref sig .tc := ⟨.hbm, 254, rfl⟩
abbrev main_v160 : Ref sig .tc := ⟨.hbm, 255, rfl⟩
abbrev main_v161 : Ref sig .tc := ⟨.hbm, 256, rfl⟩
abbrev main_v162 : Ref sig .tc := ⟨.hbm, 257, rfl⟩
abbrev main_v163 : Ref sig .tc := ⟨.hbm, 258, rfl⟩
abbrev main_v164 : Ref sig .tc := ⟨.hbm, 259, rfl⟩
abbrev main_v165 : Ref sig .tc := ⟨.hbm, 260, rfl⟩
abbrev main_v166 : Ref sig .tc := ⟨.hbm, 261, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x10 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x161x10240 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  slices_S10_S1_0 : S10.Slices ![0] S1
  shapeCasts_S1_S_ : S1.ShapeCasts S_
  sliceFits_S10x100000x16_S10x10000x16 : S10x100000x16.Slices (fun _ => 0) S10x10000x16
  h_S_ : 0 < S_.numel
  transposes_S10x10000x16_S10x16x10000_0_2_1 : S10x10000x16.Transposes [0, 2, 1] S10x16x10000
  shapeCasts_S10x16x10000_S160x10000 : S10x16x10000.ShapeCasts S160x10000
  sliceFits_S100000x1_S10000x1 : S100000x1.Slices (fun _ => 0) S10000x1
  transposes_S10000x1_S1x10000_1_0 : S10000x1.Transposes [1, 0] S1x10000
  concatenates_S160x10000_S1x10000_S161x10000_d0 : Shape.Concatenates [S160x10000, S1x10000] S161x10000 0
  pads_S161x10000_S161x10240_000_02400 : S161x10000.Pads (![0, 0] : Fin 2 → Nat) ![0, 240] ![0, 0] S161x10240
  slices_S10_S1_1 : S10.Slices ![1] S1
  slices_S10_S1_2 : S10.Slices ![2] S1
  slices_S10_S1_3 : S10.Slices ![3] S1
  slices_S10_S1_4 : S10.Slices ![4] S1
  slices_S10_S1_5 : S10.Slices ![5] S1
  slices_S10_S1_6 : S10.Slices ![6] S1
  slices_S10_S1_7 : S10.Slices ![7] S1
  slices_S10_S1_8 : S10.Slices ![8] S1
  slices_S10_S1_9 : S10.Slices ![9] S1
  bcast_S161x10240_S1x161x10240_1_2 : S161x10240.BroadcastsInDim S1x161x10240 (![1, 2] : Fin 2 → Fin S1x161x10240.rank)
  concatenates_S1x161x10240_S1x161x10240_S1x161x10240_S1x161x10240_S1x161x10240_S1x161x10240_S1x161x10240_S1x161x10240_S1x161x10240_S1x161x10240_S10x161x10240_d0 : Shape.Concatenates [S1x161x10240, S1x161x10240, S1x161x10240, S1x161x10240, S1x161x10240, S1x161x10240, S1x161x10240, S1x161x10240, S1x161x10240, S1x161x10240] S10x161x10240 0
  inb_S256x10_S256x10_0_0 : ∀ a, (![0, 0] : Fin 2 → Nat) a + S256x10.size a ≤ S256x10.size a
  h_S256x10 : 0 < S256x10.numel
  iota_S256x2048_d1_w32 : S256x2048.Iotas .tc 32 [1]
  slices_S256x10_o0_0_S256x1 : S256x10.Slices ![0, 0] S256x1
  shapeCasts_S256x1_S256 : S256x1.ShapeCasts S256
  shapeCasts_S256_S256x1 : S256.ShapeCasts S256x1
  broadcasts_S256x1_S256x2048 : S256x1.Broadcasts S256x2048
  natLt_1_32 : 1 < 32
  inb_S10x161x10240_S1x161x2048_0_0_0 : ∀ a, (![0, 0, 0] : Fin 3 → Nat) a + S1x161x2048.size a ≤ S10x161x10240.size a
  h_S1x161x2048 : 0 < S1x161x2048.numel
  shapeCasts_S1x161x2048_S161x2048 : S1x161x2048.ShapeCasts S161x2048
  slices_S256x10_o0_1_S256x1 : S256x10.Slices ![0, 1] S256x1
  inb_S10x161x10240_S1x161x2048_1_0_0 : ∀ a, (![1, 0, 0] : Fin 3 → Nat) a + S1x161x2048.size a ≤ S10x161x10240.size a
  slices_S256x10_o0_2_S256x1 : S256x10.Slices ![0, 2] S256x1
  inb_S10x161x10240_S1x161x2048_2_0_0 : ∀ a, (![2, 0, 0] : Fin 3 → Nat) a + S1x161x2048.size a ≤ S10x161x10240.size a
  slices_S256x10_o0_3_S256x1 : S256x10.Slices ![0, 3] S256x1
  inb_S10x161x10240_S1x161x2048_3_0_0 : ∀ a, (![3, 0, 0] : Fin 3 → Nat) a + S1x161x2048.size a ≤ S10x161x10240.size a
  slices_S256x10_o0_4_S256x1 : S256x10.Slices ![0, 4] S256x1
  inb_S10x161x10240_S1x161x2048_4_0_0 : ∀ a, (![4, 0, 0] : Fin 3 → Nat) a + S1x161x2048.size a ≤ S10x161x10240.size a
  slices_S256x10_o0_5_S256x1 : S256x10.Slices ![0, 5] S256x1
  inb_S10x161x10240_S1x161x2048_5_0_0 : ∀ a, (![5, 0, 0] : Fin 3 → Nat) a + S1x161x2048.size a ≤ S10x161x10240.size a
  slices_S256x10_o0_6_S256x1 : S256x10.Slices ![0, 6] S256x1
  inb_S10x161x10240_S1x161x2048_6_0_0 : ∀ a, (![6, 0, 0] : Fin 3 → Nat) a + S1x161x2048.size a ≤ S10x161x10240.size a
  slices_S256x10_o0_7_S256x1 : S256x10.Slices ![0, 7] S256x1
  inb_S10x161x10240_S1x161x2048_7_0_0 : ∀ a, (![7, 0, 0] : Fin 3 → Nat) a + S1x161x2048.size a ≤ S10x161x10240.size a
  slices_S256x10_o0_8_S256x1 : S256x10.Slices ![0, 8] S256x1
  inb_S10x161x10240_S1x161x2048_8_0_0 : ∀ a, (![8, 0, 0] : Fin 3 → Nat) a + S1x161x2048.size a ≤ S10x161x10240.size a
  slices_S256x10_o0_9_S256x1 : S256x10.Slices ![0, 9] S256x1
  inb_S10x161x10240_S1x161x2048_9_0_0 : ∀ a, (![9, 0, 0] : Fin 3 → Nat) a + S1x161x2048.size a ≤ S10x161x10240.size a
  inb_S10x161x10240_S1x161x2048_0_0_2048 : ∀ a, (![0, 0, 2048] : Fin 3 → Nat) a + S1x161x2048.size a ≤ S10x161x10240.size a
  inb_S10x161x10240_S1x161x2048_1_0_2048 : ∀ a, (![1, 0, 2048] : Fin 3 → Nat) a + S1x161x2048.size a ≤ S10x161x10240.size a
  inb_S10x161x10240_S1x161x2048_2_0_2048 : ∀ a, (![2, 0, 2048] : Fin 3 → Nat) a + S1x161x2048.size a ≤ S10x161x10240.size a
  inb_S10x161x10240_S1x161x2048_3_0_2048 : ∀ a, (![3, 0, 2048] : Fin 3 → Nat) a + S1x161x2048.size a ≤ S10x161x10240.size a
  inb_S10x161x10240_S1x161x2048_4_0_2048 : ∀ a, (![4, 0, 2048] : Fin 3 → Nat) a + S1x161x2048.size a ≤ S10x161x10240.size a
  inb_S10x161x10240_S1x161x2048_5_0_2048 : ∀ a, (![5, 0, 2048] : Fin 3 → Nat) a + S1x161x2048.size a ≤ S10x161x10240.size a
  inb_S10x161x10240_S1x161x2048_6_0_2048 : ∀ a, (![6, 0, 2048] : Fin 3 → Nat) a + S1x161x2048.size a ≤ S10x161x10240.size a
  inb_S10x161x10240_S1x161x2048_7_0_2048 : ∀ a, (![7, 0, 2048] : Fin 3 → Nat) a + S1x161x2048.size a ≤ S10x161x10240.size a
  inb_S10x161x10240_S1x161x2048_8_0_2048 : ∀ a, (![8, 0, 2048] : Fin 3 → Nat) a + S1x161x2048.size a ≤ S10x161x10240.size a
  inb_S10x161x10240_S1x161x2048_9_0_2048 : ∀ a, (![9, 0, 2048] : Fin 3 → Nat) a + S1x161x2048.size a ≤ S10x161x10240.size a
  inb_S10x161x10240_S1x161x2048_0_0_4096 : ∀ a, (![0, 0, 4096] : Fin 3 → Nat) a + S1x161x2048.size a ≤ S10x161x10240.size a
  inb_S10x161x10240_S1x161x2048_1_0_4096 : ∀ a, (![1, 0, 4096] : Fin 3 → Nat) a + S1x161x2048.size a ≤ S10x161x10240.size a
  inb_S10x161x10240_S1x161x2048_2_0_4096 : ∀ a, (![2, 0, 4096] : Fin 3 → Nat) a + S1x161x2048.size a ≤ S10x161x10240.size a
  inb_S10x161x10240_S1x161x2048_3_0_4096 : ∀ a, (![3, 0, 4096] : Fin 3 → Nat) a + S1x161x2048.size a ≤ S10x161x10240.size a
  inb_S10x161x10240_S1x161x2048_4_0_4096 : ∀ a, (![4, 0, 4096] : Fin 3 → Nat) a + S1x161x2048.size a ≤ S10x161x10240.size a
  inb_S10x161x10240_S1x161x2048_5_0_4096 : ∀ a, (![5, 0, 4096] : Fin 3 → Nat) a + S1x161x2048.size a ≤ S10x161x10240.size a
  inb_S10x161x10240_S1x161x2048_6_0_4096 : ∀ a, (![6, 0, 4096] : Fin 3 → Nat) a + S1x161x2048.size a ≤ S10x161x10240.size a
  inb_S10x161x10240_S1x161x2048_7_0_4096 : ∀ a, (![7, 0, 4096] : Fin 3 → Nat) a + S1x161x2048.size a ≤ S10x161x10240.size a
  inb_S10x161x10240_S1x161x2048_8_0_4096 : ∀ a, (![8, 0, 4096] : Fin 3 → Nat) a + S1x161x2048.size a ≤ S10x161x10240.size a
  inb_S10x161x10240_S1x161x2048_9_0_4096 : ∀ a, (![9, 0, 4096] : Fin 3 → Nat) a + S1x161x2048.size a ≤ S10x161x10240.size a
  inb_S10x161x10240_S1x161x2048_0_0_6144 : ∀ a, (![0, 0, 6144] : Fin 3 → Nat) a + S1x161x2048.size a ≤ S10x161x10240.size a
  inb_S10x161x10240_S1x161x2048_1_0_6144 : ∀ a, (![1, 0, 6144] : Fin 3 → Nat) a + S1x161x2048.size a ≤ S10x161x10240.size a
  inb_S10x161x10240_S1x161x2048_2_0_6144 : ∀ a, (![2, 0, 6144] : Fin 3 → Nat) a + S1x161x2048.size a ≤ S10x161x10240.size a
  inb_S10x161x10240_S1x161x2048_3_0_6144 : ∀ a, (![3, 0, 6144] : Fin 3 → Nat) a + S1x161x2048.size a ≤ S10x161x10240.size a
  inb_S10x161x10240_S1x161x2048_4_0_6144 : ∀ a, (![4, 0, 6144] : Fin 3 → Nat) a + S1x161x2048.size a ≤ S10x161x10240.size a
  inb_S10x161x10240_S1x161x2048_5_0_6144 : ∀ a, (![5, 0, 6144] : Fin 3 → Nat) a + S1x161x2048.size a ≤ S10x161x10240.size a
  inb_S10x161x10240_S1x161x2048_6_0_6144 : ∀ a, (![6, 0, 6144] : Fin 3 → Nat) a + S1x161x2048.size a ≤ S10x161x10240.size a
  inb_S10x161x10240_S1x161x2048_7_0_6144 : ∀ a, (![7, 0, 6144] : Fin 3 → Nat) a + S1x161x2048.size a ≤ S10x161x10240.size a
  inb_S10x161x10240_S1x161x2048_8_0_6144 : ∀ a, (![8, 0, 6144] : Fin 3 → Nat) a + S1x161x2048.size a ≤ S10x161x10240.size a
  inb_S10x161x10240_S1x161x2048_9_0_6144 : ∀ a, (![9, 0, 6144] : Fin 3 → Nat) a + S1x161x2048.size a ≤ S10x161x10240.size a
  inb_S10x161x10240_S1x161x2048_0_0_8192 : ∀ a, (![0, 0, 8192] : Fin 3 → Nat) a + S1x161x2048.size a ≤ S10x161x10240.size a
  inb_S10x161x10240_S1x161x2048_1_0_8192 : ∀ a, (![1, 0, 8192] : Fin 3 → Nat) a + S1x161x2048.size a ≤ S10x161x10240.size a
  inb_S10x161x10240_S1x161x2048_2_0_8192 : ∀ a, (![2, 0, 8192] : Fin 3 → Nat) a + S1x161x2048.size a ≤ S10x161x10240.size a
  inb_S10x161x10240_S1x161x2048_3_0_8192 : ∀ a, (![3, 0, 8192] : Fin 3 → Nat) a + S1x161x2048.size a ≤ S10x161x10240.size a
  inb_S10x161x10240_S1x161x2048_4_0_8192 : ∀ a, (![4, 0, 8192] : Fin 3 → Nat) a + S1x161x2048.size a ≤ S10x161x10240.size a
  inb_S10x161x10240_S1x161x2048_5_0_8192 : ∀ a, (![5, 0, 8192] : Fin 3 → Nat) a + S1x161x2048.size a ≤ S10x161x10240.size a
  inb_S10x161x10240_S1x161x2048_6_0_8192 : ∀ a, (![6, 0, 8192] : Fin 3 → Nat) a + S1x161x2048.size a ≤ S10x161x10240.size a
  inb_S10x161x10240_S1x161x2048_7_0_8192 : ∀ a, (![7, 0, 8192] : Fin 3 → Nat) a + S1x161x2048.size a ≤ S10x161x10240.size a
  inb_S10x161x10240_S1x161x2048_8_0_8192 : ∀ a, (![8, 0, 8192] : Fin 3 → Nat) a + S1x161x2048.size a ≤ S10x161x10240.size a
  inb_S10x161x10240_S1x161x2048_9_0_8192 : ∀ a, (![9, 0, 8192] : Fin 3 → Nat) a + S1x161x2048.size a ≤ S10x161x10240.size a
  slices_S256x161_o0_160_S256x1 : S256x161.Slices ![0, 160] S256x1
  slices_S256x161_o0_16_S256x16 : S256x161.Slices ![0, 16] S256x16
  slices_S256x161_o0_0_S256x16 : S256x161.Slices ![0, 0] S256x16
  reduces_S256x16_S256 : S256x16.Reduces [1] S256
  slices_S256x161_o0_32_S256x16 : S256x161.Slices ![0, 32] S256x16
  slices_S256x161_o0_48_S256x16 : S256x161.Slices ![0, 48] S256x16
  slices_S256x161_o0_64_S256x16 : S256x161.Slices ![0, 64] S256x16
  slices_S256x161_o0_80_S256x16 : S256x161.Slices ![0, 80] S256x16
  slices_S256x161_o0_96_S256x16 : S256x161.Slices ![0, 96] S256x16
  slices_S256x161_o0_112_S256x16 : S256x161.Slices ![0, 112] S256x16
  slices_S256x161_o0_128_S256x16 : S256x161.Slices ![0, 128] S256x16
  slices_S256x161_o0_144_S256x16 : S256x161.Slices ![0, 144] S256x16
  inb_S256_S256_0 : ∀ a, (![0] : Fin 1 → Nat) a + S256.size a ≤ S256.size a
  h_S256 : 0 < S256.numel
  bcast_S_S16384 : S_.BroadcastsInDim S16384 (![] : Fin 0 → Fin S16384.rank)
  dot_S256x2048_S161x2048_S256x161_1_1_0_0_n_n_wf : DotDims.WF S256x2048 S161x2048 S256x161 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x10.size a ≤ S16384x10.size a
  hwx0_0 : ∀ i : grid0.Coords, EltTy.bits .i32 = 32 ∨ (Rect.block (s := S16384x10) S256x10.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x161x10240.size a ≤ S10x161x10240.size a
  hwx0_1 : ∀ i : grid0.Coords, EltTy.bits .bf16 = 32 ∨ (Rect.block (s := S10x161x10240) S10x161x10240.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S16384.size a
  hwx0_2 : ∀ i : grid0.Coords, EltTy.bits .f32 = 32 ∨ (Rect.block (s := S16384) S256.size (cc0_transform_2 i) (hinb0_2 i)).WholeWords (EltTy.packing .f32)

variable [Facts₀]

def dot_S256x2048_S161x2048_S256x161_1_1_0_0_n_n : DotDims S256x2048 S161x2048 S256x161 where
  lhsContracting := [1]
  rhsContracting := [1]
  lhsNonContracting := [0]
  rhsNonContracting := [0]
  lhsBatch := []
  rhsBatch := []
  wf := dot_S256x2048_S161x2048_S256x161_1_1_0_0_n_n_wf

abbrev win0_0 : Pipeline.Window sig grid0 :=
  Pipeline.Window.ofSpec (Memref.whole main_arg0) S256x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v162) S10x161x10240.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v163) S256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x10 : Shape := ⟨2, ![16384, 10]⟩
abbrev S10 : Shape := ⟨1, ![10]⟩
abbrev S10x100000x16 : Shape := ⟨3, ![10, 100000, 16]⟩
abbrev S100000x1 : Shape := ⟨2, ![100000, 1]⟩
abbrev S1 : Shape := ⟨1, ![1]⟩
abbrev S1x10 : Shape := ⟨2, ![1, 10]⟩
abbrev S_ : Shape := ⟨0, ![]⟩
abbrev S16384x10x1 : Shape := ⟨3, ![16384, 10, 1]⟩
abbrev S10x16384x10x16 : Shape := ⟨4, ![10, 16384, 10, 16]⟩
abbrev S16384x10x10x16 : Shape := ⟨4, ![16384, 10, 10, 16]⟩
abbrev S10x10 : Shape := ⟨2, ![10, 10]⟩
abbrev S1x10x10x1 : Shape := ⟨4, ![1, 10, 10, 1]⟩
abbrev S16384 : Shape := ⟨1, ![16384]⟩
abbrev S16384x10x2 : Shape := ⟨3, ![16384, 10, 2]⟩

abbrev nBuf : Space → Nat
  | .hbm => 59
  | .vmem => 0
  | .smem => 0
  | _ => 0

abbrev bufTy : (tb : Table) → Fin (tcTables nBuf tb) → BufTy
  | .hbm, ⟨0, _⟩ => ⟨S16384x10, .i32⟩
  | .hbm, ⟨1, _⟩ => ⟨S10, .i32⟩
  | .hbm, ⟨2, _⟩ => ⟨S10x100000x16, .f32⟩
  | .hbm, ⟨3, _⟩ => ⟨S100000x1, .f32⟩
  | .hbm, ⟨4, _⟩ => ⟨S1, .f32⟩
  | .hbm, ⟨5, _⟩ => ⟨S1x10, .i32⟩
  | .hbm, ⟨6, _⟩ => ⟨S16384x10, .i32⟩
  | .hbm, ⟨7, _⟩ => ⟨S16384x10, .i32⟩
  | .hbm, ⟨8, _⟩ => ⟨S_, .i32⟩
  | .hbm, ⟨9, _⟩ => ⟨S16384x10, .i32⟩
  | .hbm, ⟨10, _⟩ => ⟨S16384x10, .i1⟩
  | .hbm, ⟨11, _⟩ => ⟨S_, .i32⟩
  | .hbm, ⟨12, _⟩ => ⟨S16384x10, .i32⟩
  | .hbm, ⟨13, _⟩ => ⟨S16384x10, .i32⟩
  | .hbm, ⟨14, _⟩ => ⟨S16384x10, .i32⟩
  | .hbm, ⟨15, _⟩ => ⟨S16384x10x1, .i32⟩
  | .hbm, ⟨16, _⟩ => ⟨S10x16384x10x16, .f32⟩
  | .hbm, ⟨17, _⟩ => ⟨S16384x10x10x16, .f32⟩
  | .hbm, ⟨18, _⟩ => ⟨S16384x10x10x16, .f32⟩
  | .hbm, ⟨19, _⟩ => ⟨S16384x10x10x16, .f32⟩
  | .hbm, ⟨20, _⟩ => ⟨S_, .i1⟩
  | .hbm, ⟨21, _⟩ => ⟨S10x10, .i1⟩
  | .hbm, ⟨22, _⟩ => ⟨S10x10, .i32⟩
  | .hbm, ⟨23, _⟩ => ⟨S_, .i32⟩
  | .hbm, ⟨24, _⟩ => ⟨S10x10, .i32⟩
  | .hbm, ⟨25, _⟩ => ⟨S10x10, .i32⟩
  | .hbm, ⟨26, _⟩ => ⟨S10x10, .i32⟩
  | .hbm, ⟨27, _⟩ => ⟨S10x10, .i1⟩
  | .hbm, ⟨28, _⟩ => ⟨S_, .i1⟩
  | .hbm, ⟨29, _⟩ => ⟨S10x10, .i1⟩
  | .hbm, ⟨30, _⟩ => ⟨S10x10, .i1⟩
  | .hbm, ⟨31, _⟩ => ⟨S1x10x10x1, .i1⟩
  | .hbm, ⟨32, _⟩ => ⟨S_, .f32⟩
  | .hbm, ⟨33, _⟩ => ⟨S_, .f32⟩
  | .hbm, ⟨34, _⟩ => ⟨S16384x10x10x16, .i1⟩
  | .hbm, ⟨35, _⟩ => ⟨S16384x10x10x16, .f32⟩
  | .hbm, ⟨36, _⟩ => ⟨S16384x10x10x16, .f32⟩
  | .hbm, ⟨37, _⟩ => ⟨S_, .f32⟩
  | .hbm, ⟨38, _⟩ => ⟨S16384, .f32⟩
  | .hbm, ⟨39, _⟩ => ⟨S_, .i32⟩
  | .hbm, ⟨40, _⟩ => ⟨S16384x10, .i32⟩
  | .hbm, ⟨41, _⟩ => ⟨S16384x10, .i1⟩
  | .hbm, ⟨42, _⟩ => ⟨S_, .i32⟩
  | .hbm, ⟨43, _⟩ => ⟨S16384x10, .i32⟩
  | .hbm, ⟨44, _⟩ => ⟨S16384x10, .i32⟩
  | .hbm, ⟨45, _⟩ => ⟨S16384x10, .i32⟩
  | .hbm, ⟨46, _⟩ => ⟨S_, .i32⟩
  | .hbm, ⟨47, _⟩ => ⟨S16384x10, .i32⟩
  | .hbm, ⟨48, _⟩ => ⟨S16384x10, .i32⟩
  | .hbm, ⟨49, _⟩ => ⟨S16384x10x1, .i32⟩
  | .hbm, ⟨50, _⟩ => ⟨S16384x10x1, .i32⟩
  | .hbm, ⟨51, _⟩ => ⟨S16384x10x2, .i32⟩
  | .hbm, ⟨52, _⟩ => ⟨S16384x10, .f32⟩
  | .hbm, ⟨53, _⟩ => ⟨S_, .f32⟩
  | .hbm, ⟨54, _⟩ => ⟨S16384, .f32⟩
  | .hbm, ⟨55, _⟩ => ⟨S_, .f32⟩
  | .hbm, ⟨56, _⟩ => ⟨S16384, .f32⟩
  | .hbm, ⟨57, _⟩ => ⟨S16384, .f32⟩
  | .hbm, ⟨58, _⟩ => ⟨S16384, .f32⟩
  | _, _ => ⟨S16384x10, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_0 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_c_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_5 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_6 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩

abbrev nD : Nat := 1
abbrev τ : Topo := Topo.v7x

variable {F : FTy → Type} [FloatOps F]

class Facts₀ : Prop where
  bcast_S10_S1x10_1 : S10.BroadcastsInDim S1x10 (![1] : Fin 1 → Fin S1x10.rank)
  bcast_S1x10_S16384x10_0_1 : S1x10.BroadcastsInDim S16384x10 (![0, 1] : Fin 2 → Fin S16384x10.rank)
  bcast_S_S16384x10 : S_.BroadcastsInDim S16384x10 (![] : Fin 0 → Fin S16384x10.rank)
  bcast_S16384x10_S16384x10x1_0_1 : S16384x10.BroadcastsInDim S16384x10x1 (![0, 1] : Fin 2 → Fin S16384x10x1.rank)
  transposes_S10x16384x10x16_S16384x10x10x16_1_2_0_3 : S10x16384x10x16.Transposes [1, 2, 0, 3] S16384x10x10x16
  transposes_S16384x10x10x16_S16384x10x10x16_0_2_1_3 : S16384x10x10x16.Transposes [0, 2, 1, 3] S16384x10x10x16
  bcast_S_S10x10 : S_.BroadcastsInDim S10x10 (![] : Fin 0 → Fin S10x10.rank)
  bcast_S10x10_S1x10x10x1_1_2 : S10x10.BroadcastsInDim S1x10x10x1 (![1, 2] : Fin 2 → Fin S1x10x10x1.rank)
  bcast_S1x10x10x1_S16384x10x10x16_0_1_2_3 : S1x10x10x1.BroadcastsInDim S16384x10x10x16 (![0, 1, 2, 3] : Fin 4 → Fin S16384x10x10x16.rank)
  bcast_S_S16384x10x10x16 : S_.BroadcastsInDim S16384x10x10x16 (![] : Fin 0 → Fin S16384x10x10x16.rank)
  reducesTo_S16384x10x10x16_S16384_d1_2_3 : S16384x10x10x16.ReducesTo [1, 2, 3] S16384
  h_S_ : 0 < S_.numel
  concatenates_S16384x10x1_S16384x10x1_S16384x10x2_d2 : Shape.Concatenates [S16384x10x1, S16384x10x1] S16384x10x2 2
  reducesTo_S16384x10_S16384_d1 : S16384x10.ReducesTo [1] S16384
  shapeCasts_S1_S_ : S1.ShapeCasts S_
  bcast_S_S16384 : S_.BroadcastsInDim S16384 (![] : Fin 0 → Fin S16384.rank)
  gather_S10x100000x16_S16384x10x1_S10x16384x10x16_03_1_n_n_1_2_10116_wf : GatherDims.WF S10x100000x16 S16384x10x1 S10x16384x10x16 [0, 3] [1] [] [1] [] 2 ![10, 1, 16]
  gather_S100000x1_S16384x10x2_S16384x10_n_01_n_n_01_2_11_wf : GatherDims.WF S100000x1 S16384x10x2 S16384x10 [] [0, 1] [] [0, 1] [] 2 ![1, 1]

variable [Facts₀]

def gather_S10x100000x16_S16384x10x1_S10x16384x10x16_03_1_n_n_1_2_10116 : GatherDims S10x100000x16 S16384x10x1 S10x16384x10x16 where
  offsetDims := [0, 3]
  collapsedSliceDims := [1]
  operandBatchingDims := []
  startIndicesBatchingDims := []
  startIndexMap := [1]
  indexVectorDim := 2
  sliceSizes := ![10, 1, 16]
  wf := gather_S10x100000x16_S16384x10x1_S10x16384x10x16_03_1_n_n_1_2_10116_wf
def gather_S100000x1_S16384x10x2_S16384x10_n_01_n_n_01_2_11 : GatherDims S100000x1 S16384x10x2 S16384x10 where
  offsetDims := []
  collapsedSliceDims := [0, 1]
  operandBatchingDims := []
  startIndicesBatchingDims := []
  startIndexMap := [0, 1]
  indexVectorDim := 2
  sliceSizes := ![1, 1]
  wf := gather_S100000x1_S16384x10x2_S16384x10_n_01_n_n_01_2_11_wf

class Facts : Prop extends Facts₀ where

variable [Facts]
-- ==== Proof.BodyRunBits.lean ====
/- # The kernel body at one grid point

The body reads its block of `x` (256 batch rows by 10 fields) and fifty lane-aligned slices of the
weight slab (field `i`, all 161 rows, lanes `2048 c … 2048 c + 2047`), computes, and stores one vector
of 256 scores over the whole output block. Run on whole staging buffers holding `x0` and `x1`, it
returns them as they were and leaves in the output buffer the pieces `bodyRun … |>.1`: a single
piece over the whole block, whose value is a pure function of `x0` and `x1` (found while the
body is run, so that it is exactly what the program text computes). -/
import proofs.«419980_j22007412425277_3_alg».proof.Proof.Gen.Kernel.Launch
import proofs.«419980_j22007412425277_3_alg».proof.Proof.Gen.Kernel.Skeleton
import proofs.«419980_j22007412425277_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 4000000 in
/-- The pieces the body leaves in the output buffer, with the proof that the body, run on whole buffers
    holding `x0`, `x1` and anything, ends with the inputs as they were and those pieces written. -/
noncomputable def bodyRun (c : Dev nD) (i : grid0.Coords)
    (arg1 : Memref sig .tc .vmem S256x10 .i32) (harg1 : arg1.IsWhole)
    (arg2 : Memref sig .tc .vmem S10x161x10240 .bf16) (harg2 : arg2.IsWhole)
    (arg3 : Memref sig .tc .vmem S256 .f32) (harg3 : arg3.IsWhole)
    (x0 : Vec F S256x10 .i32) (x1 : Vec F S10x161x10240 .bf16) :
    { L : List (View.Piece (Elt F) S256 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__ffm_kernel i arg1 harg1 arg2 harg2 arg3 harg3) K } := by
  refine ⟨?_, fun E K => ?run⟩
  case run =>
    simp only [cc0__ffm_kernel_eq_skeleton]; unfold cc0__ffm_kernel_skel
    unfold owns
    iintro ⟨⟨%f0, %hf0, H0⟩, ⟨%f1, %hf1, H1⟩, ⟨%d2, %f2, -, H2⟩, Hk⟩
    obtain rfl := harg1.eq_unread hf0
    obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Hand

end
-- ==== Proof.FrameHostBits.lean ====
/- # The host program around the kernel's launch

`@main` is 164 host operations that build the weight slab from the arguments, the one launch, and
three host operations that add the bias to the launch's result. None of the host operations writes
an argument array, so the launch finds the arguments as they were given and they end unchanged. -/
import proofs.«419980_j22007412425277_3_alg».proof.Proof.Gen.Kernel.Launch
import proofs.«419980_j22007412425277_3_alg».proof.Proof.Gen.Kernel.Skeleton
import proofs.«419980_j22007412425277_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations before the launch, stretch by stretch (the slab's ten field chains, each followed by its
    zero padding, then the stacking of the ten). -/
abbrev preOps : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]

/-- Core `c`'s buffers when the launch is reached: the memory it was started with, after the host operations before the launch. -/
abbrev V0 (c : Dev nD) : Valuation τ sig (Elt F) := StableHlo.after (List.flatten (preOps (F := F))) (fun b => m (c, b))
/-- The same, read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem preOps_sub : (preOps (F := F)).Forall fun ops => ops.Forall fun op => op.bufs ⊆ StableHlo.tcRefs τ sig := by
  simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub⟩

theorem preOps_fresh : (preOps (F := F)).Forall fun ops => ops.Forall fun op => op.fresh = ∅ := by
  simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh⟩

/-- `@main` is the host operations before the launch, the launch, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1] preOps_sub preOps_fresh main_chain

/-- The operations after the launch touch only the launch's arrays and buffers the launch does not use. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- And none of them writes one of the launch's three arrays (`x`, the slab, the launch's result). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- No host operation before the launch writes reference `b`, when `b` is one of the five arguments. -/
theorem pre_keeps (b : Ref sig .tc) (hb : b = main_arg0 ∨ b = main_arg1 ∨ b = main_arg2 ∨ b = main_arg3 ∨ b = main_arg4) :
    ∀ op ∈ List.flatten (preOps (F := F)), Proc.devRef .tc b ∉ op.writes :=
  List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    rcases hb with rfl | rfl | rfl | rfl | rfl
    all_goals (repeat' apply And.intro) <;> exact StableHlo.devRef_ne_of_ne (by decide))

/-- So the launch finds each argument as it was given. -/
theorem V_arg (c : Dev nD) (b : Ref sig .tc) (hb : b = main_arg0 ∨ b = main_arg1 ∨ b = main_arg2 ∨ b = main_arg3 ∨ b = main_arg4) :
    V m c b = m ((c : Thread nD τ).loc b) :=
  StableHlo.after_of_forall_not_mem (b := Proc.devRef .tc b) _ _ (pre_keeps b hb)

/-- No host operation after the launch writes one of the five arguments either. -/
theorem post_keeps (b : Ref sig .tc) (hb : b = main_arg0 ∨ b = main_arg1 ∨ b = main_arg2 ∨ b = main_arg3 ∨ b = main_arg4) :
    ∀ op ∈ List.flatten ([hostOps1] : List (List (HloOp τ sig (Elt F)))), Proc.devRef .tc b ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    rcases hb with rfl | rfl | rfl | rfl | rfl
    all_goals (repeat' apply And.intro) <;> exact StableHlo.devRef_ne_of_ne (by decide))

end Cert.Kernel.Hand

end
-- ==== Proof.FrameBits.lean ====
/- # The kernel program's run: the launch over its 64 grid points, between the host operations

Grid point `t` stages rows `256 t … 256 t + 255` of `x` (window 0), the whole weight slab (window 1, fetched
once), and writes back rows `256 t … 256 t + 255` of the result (window 2). The body leaves in the output
buffer a pure function of the two input blocks (`outBlock`); nothing is carried from one point to the next.
From this the library's launch theorem gives the run of `@main`, with every array of the launch named. -/
import proofs.«419980_j22007412425277_3_alg».proof.Proof.BodyRunBits
import proofs.«419980_j22007412425277_3_alg».proof.Proof.FrameHostBits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The `x` window's staging buffer holds the point's block of `x` when the body starts (it is fetched at every point). -/
theorem before_x_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The slab window's staging buffer holds the whole slab when the body starts, at every point: fetched at the first,
    left in place by every body, and its block index never moves. -/
theorem before_w_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

/-- One staging buffer of the output window, through which its contents are stated (which one does not matter). -/
abbrev VO : View sig .tc .vmem S256 .f32 := (Memref.whole cc0_stg2_0 : Memref sig .tc .vmem S256 .f32).view

/-- Each window's current staging memref at point `t`, as the launch passes it to the body, and its wholeness. -/
abbrev ms0 (t : Fin cfg0.N) : Memref sig .tc .vmem S256x10 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10x161x10240 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256 .f32 := win0_2.stage (cfg0.slots t 2)
abbrev hs2 (t : Fin cfg0.N) : (ms2 t).IsWhole := hstage0_2 ((cfg0.slots t 2).cast nbuf0_2)

/-- The body's one store covers the whole output block. -/
theorem cover_out (c : Dev nD) (i : grid0.Coords) (arg1 : Memref sig .tc .vmem S256x10 .i32) (harg1 : arg1.IsWhole)
    (arg2 : Memref sig .tc .vmem S10x161x10240 .bf16) (harg2 : arg2.IsWhole) (arg3 : Memref sig .tc .vmem S256 .f32) (harg3 : arg3.IsWhole)
    (x0 : Vec F S256x10 .i32) (x1 : Vec F S10x161x10240 .bf16) (y : S256.Idx) :
    ∃ pc ∈ (bodyRun c i arg1 harg1 arg2 harg2 arg3 harg3 x0 x1).1, y ∈ pc.1.set :=
  View.cover_of_tiledL (bodyRun c i arg1 harg1 arg2 harg2 arg3 harg3 x0 x1).1 S256.size (by sl_kernel_rfl) y

/-- What the body leaves in the output buffer: its stored pieces read back. -/
def outBlock (c : Dev nD) (i : grid0.Coords) (arg1 : Memref sig .tc .vmem S256x10 .i32) (harg1 : arg1.IsWhole)
    (arg2 : Memref sig .tc .vmem S10x161x10240 .bf16) (harg2 : arg2.IsWhole) (arg3 : Memref sig .tc .vmem S256 .f32) (harg3 : arg3.IsWhole)
    (x0 : Vec F S256x10 .i32) (x1 : Vec F S10x161x10240 .bf16) : Vec F S256 .f32 :=
  VO.read (Elt F) (VO.writes (Elt F) VO.junk (bodyRun c i arg1 harg1 arg2 harg2 arg3 harg3 x0 x1).1)

/-- The output buffer after the body at point `t`. -/
def outAt (c : Dev nD) (t : Fin cfg0.N) : Vec F S256 .f32 :=
  outBlock c (grid0.coords t) (ms0 t) (hs0 t) (ms1 t) (hs1 t) (ms2 t) (hs2 t) (iblk m c 0 t) (iblk m c 1 t)

/-! ## The launch's proof data -/

/-- The arrays as the launch finds them; after the body at point `t` the two input buffers hold their blocks and the
    output buffer holds `outAt`; the invariant is the untouched rest; nothing is owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_out (c : Dev nD) (t : Fin cfg0.N) : (dats m 0 c).after 2 t = outAt m c t := by dsimp only [dats]

theorem before_x (c : Dev nD) (t : Fin cfg0.N) (d) : (dats m 0 c).before 0 t d = iblk m c 0 t :=
  before_x_of m (dats m 0 c) (A_eq m c 0) (after_x m c) t d
theorem before_w (c : Dev nD) (t : Fin cfg0.N) (d) : (dats m 0 c).before 1 t d = iblk m c 1 t :=
  before_w_of m (dats m 0 c) (A_eq m c 1) (after_w m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

set_option maxHeartbeats 1600000 in
/-- The body at any point: the input buffers hold their blocks, so the body's run applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w]
  rw [show (dats m 0 c).Φ t.succ = (dats m 0 c).Φ t.castSucc from rfl,
    show (dats m 0 c).owesAt () t.succ = (dats m 0 c).owesAt () t.castSucc from rfl,
    after_x, after_w, after_out]
  unfold outAt outBlock
  iintro ⟨HΦ, Ho, ⟨%d0, H0⟩, ⟨%d1, H1⟩, ⟨%d2, H2⟩⟩
  iapply ((bodyRun c (grid0.coords t) _ _ _ _ _ _ (iblk m c 0 t) (iblk m c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover_out c _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters, every weakly fair execution of `@main` terminates without a fault, and in every
    final state each array of the launch is what the proof data says and every other buffer is as the host operations
    after the launch leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- An argument other than `x` is no array of the launch: after the launch and the host tail it is as it was given. -/
theorem tail_arg (c : Dev nD) (b : Ref sig .tc) (hb : b = main_arg1 ∨ b = main_arg2 ∨ b = main_arg3 ∨ b = main_arg4) :
    Pipeline.afterTail₀ cfgs (dats m) 0 (V0 m) [hostOps1] c b = m ((c : Thread nD τ).loc b) := by
  have hne : ∀ w, Pipeline.arrRef spec0 w ≠ b := by
    rcases hb with rfl | rfl | rfl | rfl
    · exact (by decide : ∀ w, Pipeline.arrRef spec0 w ≠ main_arg1)
    · exact (by decide : ∀ w, Pipeline.arrRef spec0 w ≠ main_arg2)
    · exact (by decide : ∀ w, Pipeline.arrRef spec0 w ≠ main_arg3)
    · exact (by decide : ∀ w, Pipeline.arrRef spec0 w ≠ main_arg4)
  unfold Pipeline.afterTail₀
  rw [StableHlo.after_of_forall_not_mem (b := Proc.devRef .tc b) _ _ (post_keeps b (Or.inr hb)),
    Pipeline.withArrays_of_ne _ c (V0 m c) _ b hne]
  exact V_arg m c b (Or.inr hb)

/-- THE FRAME: every execution terminates without a fault and the five argument arrays end as they were given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans (((dats m 0 c).arrAt_in 0 rfl _).trans ((A_eq m c 0).trans (V_arg m c main_arg0 (Or.inl rfl)))),
     ((h c).2 main_arg1 (Pipeline.mem_restRefs_of main_arg1 (by decide) (by decide))).trans (tail_arg m c main_arg1 (Or.inl rfl)),
     ((h c).2 main_arg2 (Pipeline.mem_restRefs_of main_arg2 (by decide) (by decide))).trans (tail_arg m c main_arg2 (Or.inr (Or.inl rfl))),
     ((h c).2 main_arg3 (Pipeline.mem_restRefs_of main_arg3 (by decide) (by decide))).trans (tail_arg m c main_arg3 (Or.inr (Or.inr (Or.inl rfl)))),
     ((h c).2 main_arg4 (Pipeline.mem_restRefs_of main_arg4 (by decide) (by decide))).trans (tail_arg m c main_arg4 (Or.inr (Or.inr (Or.inr rfl))))⟩)
    (run_main m ρ)

end Cert.Kernel.Hand

end
-- ==== Proof.BodyRunIdeal.lean ====
/- # The kernel body at one grid point

The body reads its block of `x` (256 batch rows by 10 fields) and fifty lane-aligned slices of the
weight slab (field `i`, all 161 rows, lanes `2048 c … 2048 c + 2047`), computes, and stores one vector
of 256 scores over the whole output block. Run on whole staging buffers holding `x0` and `x1`, it
returns them as they were and leaves in the output buffer the pieces `bodyRun … |>.1`: a single
piece over the whole block, whose value is a pure function of `x0` and `x1` (found while the
body is run, so that it is exactly what the program text computes). -/
import proofs.«419980_j22007412425277_3_alg».proof.Proof.Gen.KernelIdeal.Launch
import proofs.«419980_j22007412425277_3_alg».proof.Proof.Gen.KernelIdeal.Skeleton
import proofs.«419980_j22007412425277_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 4000000 in
/-- The pieces the body leaves in the output buffer, with the proof that the body, run on whole buffers
    holding `x0`, `x1` and anything, ends with the inputs as they were and those pieces written. -/
noncomputable def bodyRun (c : Dev nD) (i : grid0.Coords)
    (arg1 : Memref sig .tc .vmem S256x10 .i32) (harg1 : arg1.IsWhole)
    (arg2 : Memref sig .tc .vmem S10x161x10240 .bf16) (harg2 : arg2.IsWhole)
    (arg3 : Memref sig .tc .vmem S256 .f32) (harg3 : arg3.IsWhole)
    (x0 : Vec F S256x10 .i32) (x1 : Vec F S10x161x10240 .bf16) :
    { L : List (View.Piece (Elt F) S256 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__ffm_kernel i arg1 harg1 arg2 harg2 arg3 harg3) K } := by
  refine ⟨?_, fun E K => ?run⟩
  case run =>
    simp only [cc0__ffm_kernel_eq_skeleton]; unfold cc0__ffm_kernel_skel
    unfold owns
    iintro ⟨⟨%f0, %hf0, H0⟩, ⟨%f1, %hf1, H1⟩, ⟨%d2, %f2, -, H2⟩, Hk⟩
    obtain rfl := harg1.eq_unread hf0
    obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Hand

end
-- ==== Proof.FrameHostIdeal.lean ====
/- # The host program around the kernel's launch

`@main` is 164 host operations that build the weight slab from the arguments, the one launch, and
three host operations that add the bias to the launch's result. None of the host operations writes
an argument array, so the launch finds the arguments as they were given and they end unchanged. -/
import proofs.«419980_j22007412425277_3_alg».proof.Proof.Gen.KernelIdeal.Launch
import proofs.«419980_j22007412425277_3_alg».proof.Proof.Gen.KernelIdeal.Skeleton
import proofs.«419980_j22007412425277_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations before the launch, stretch by stretch (the slab's ten field chains, each followed by its
    zero padding, then the stacking of the ten). -/
abbrev preOps : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]

/-- Core `c`'s buffers when the launch is reached: the memory it was started with, after the host operations before the launch. -/
abbrev V0 (c : Dev nD) : Valuation τ sig (Elt F) := StableHlo.after (List.flatten (preOps (F := F))) (fun b => m (c, b))
/-- The same, read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem preOps_sub : (preOps (F := F)).Forall fun ops => ops.Forall fun op => op.bufs ⊆ StableHlo.tcRefs τ sig := by
  simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub⟩

theorem preOps_fresh : (preOps (F := F)).Forall fun ops => ops.Forall fun op => op.fresh = ∅ := by
  simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh⟩

/-- `@main` is the host operations before the launch, the launch, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1] preOps_sub preOps_fresh main_chain

/-- The operations after the launch touch only the launch's arrays and buffers the launch does not use. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- And none of them writes one of the launch's three arrays (`x`, the slab, the launch's result). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- No host operation before the launch writes reference `b`, when `b` is one of the five arguments. -/
theorem pre_keeps (b : Ref sig .tc) (hb : b = main_arg0 ∨ b = main_arg1 ∨ b = main_arg2 ∨ b = main_arg3 ∨ b = main_arg4) :
    ∀ op ∈ List.flatten (preOps (F := F)), Proc.devRef .tc b ∉ op.writes :=
  List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    rcases hb with rfl | rfl | rfl | rfl | rfl
    all_goals (repeat' apply And.intro) <;> exact StableHlo.devRef_ne_of_ne (by decide))

/-- So the launch finds each argument as it was given. -/
theorem V_arg (c : Dev nD) (b : Ref sig .tc) (hb : b = main_arg0 ∨ b = main_arg1 ∨ b = main_arg2 ∨ b = main_arg3 ∨ b = main_arg4) :
    V m c b = m ((c : Thread nD τ).loc b) :=
  StableHlo.after_of_forall_not_mem (b := Proc.devRef .tc b) _ _ (pre_keeps b hb)

/-- No host operation after the launch writes one of the five arguments either. -/
theorem post_keeps (b : Ref sig .tc) (hb : b = main_arg0 ∨ b = main_arg1 ∨ b = main_arg2 ∨ b = main_arg3 ∨ b = main_arg4) :
    ∀ op ∈ List.flatten ([hostOps1] : List (List (HloOp τ sig (Elt F)))), Proc.devRef .tc b ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    rcases hb with rfl | rfl | rfl | rfl | rfl
    all_goals (repeat' apply And.intro) <;> exact StableHlo.devRef_ne_of_ne (by decide))

end Cert.KernelIdeal.Hand

end
-- ==== Proof.FrameIdeal.lean ====
/- # The kernel program's run: the launch over its 64 grid points, between the host operations

Grid point `t` stages rows `256 t … 256 t + 255` of `x` (window 0), the whole weight slab (window 1, fetched
once), and writes back rows `256 t … 256 t + 255` of the result (window 2). The body leaves in the output
buffer a pure function of the two input blocks (`outBlock`); nothing is carried from one point to the next.
From this the library's launch theorem gives the run of `@main`, with every array of the launch named. -/
import proofs.«419980_j22007412425277_3_alg».proof.Proof.BodyRunIdeal
import proofs.«419980_j22007412425277_3_alg».proof.Proof.FrameHostIdeal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The `x` window's staging buffer holds the point's block of `x` when the body starts (it is fetched at every point). -/
theorem before_x_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The slab window's staging buffer holds the whole slab when the body starts, at every point: fetched at the first,
    left in place by every body, and its block index never moves. -/
theorem before_w_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

/-- One staging buffer of the output window, through which its contents are stated (which one does not matter). -/
abbrev VO : View sig .tc .vmem S256 .f32 := (Memref.whole cc0_stg2_0 : Memref sig .tc .vmem S256 .f32).view

/-- Each window's current staging memref at point `t`, as the launch passes it to the body, and its wholeness. -/
abbrev ms0 (t : Fin cfg0.N) : Memref sig .tc .vmem S256x10 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10x161x10240 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256 .f32 := win0_2.stage (cfg0.slots t 2)
abbrev hs2 (t : Fin cfg0.N) : (ms2 t).IsWhole := hstage0_2 ((cfg0.slots t 2).cast nbuf0_2)

/-- The body's one store covers the whole output block. -/
theorem cover_out (c : Dev nD) (i : grid0.Coords) (arg1 : Memref sig .tc .vmem S256x10 .i32) (harg1 : arg1.IsWhole)
    (arg2 : Memref sig .tc .vmem S10x161x10240 .bf16) (harg2 : arg2.IsWhole) (arg3 : Memref sig .tc .vmem S256 .f32) (harg3 : arg3.IsWhole)
    (x0 : Vec F S256x10 .i32) (x1 : Vec F S10x161x10240 .bf16) (y : S256.Idx) :
    ∃ pc ∈ (bodyRun c i arg1 harg1 arg2 harg2 arg3 harg3 x0 x1).1, y ∈ pc.1.set :=
  View.cover_of_tiledL (bodyRun c i arg1 harg1 arg2 harg2 arg3 harg3 x0 x1).1 S256.size (by sl_kernel_rfl) y

/-- What the body leaves in the output buffer: its stored pieces read back. -/
def outBlock (c : Dev nD) (i : grid0.Coords) (arg1 : Memref sig .tc .vmem S256x10 .i32) (harg1 : arg1.IsWhole)
    (arg2 : Memref sig .tc .vmem S10x161x10240 .bf16) (harg2 : arg2.IsWhole) (arg3 : Memref sig .tc .vmem S256 .f32) (harg3 : arg3.IsWhole)
    (x0 : Vec F S256x10 .i32) (x1 : Vec F S10x161x10240 .bf16) : Vec F S256 .f32 :=
  VO.read (Elt F) (VO.writes (Elt F) VO.junk (bodyRun c i arg1 harg1 arg2 harg2 arg3 harg3 x0 x1).1)

/-- The output buffer after the body at point `t`. -/
def outAt (c : Dev nD) (t : Fin cfg0.N) : Vec F S256 .f32 :=
  outBlock c (grid0.coords t) (ms0 t) (hs0 t) (ms1 t) (hs1 t) (ms2 t) (hs2 t) (iblk m c 0 t) (iblk m c 1 t)

/-! ## The launch's proof data -/

/-- The arrays as the launch finds them; after the body at point `t` the two input buffers hold their blocks and the
    output buffer holds `outAt`; the invariant is the untouched rest; nothing is owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_out (c : Dev nD) (t : Fin cfg0.N) : (dats m 0 c).after 2 t = outAt m c t := by dsimp only [dats]

theorem before_x (c : Dev nD) (t : Fin cfg0.N) (d) : (dats m 0 c).before 0 t d = iblk m c 0 t :=
  before_x_of m (dats m 0 c) (A_eq m c 0) (after_x m c) t d
theorem before_w (c : Dev nD) (t : Fin cfg0.N) (d) : (dats m 0 c).before 1 t d = iblk m c 1 t :=
  before_w_of m (dats m 0 c) (A_eq m c 1) (after_w m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

set_option maxHeartbeats 1600000 in
/-- The body at any point: the input buffers hold their blocks, so the body's run applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w]
  rw [show (dats m 0 c).Φ t.succ = (dats m 0 c).Φ t.castSucc from rfl,
    show (dats m 0 c).owesAt () t.succ = (dats m 0 c).owesAt () t.castSucc from rfl,
    after_x, after_w, after_out]
  unfold outAt outBlock
  iintro ⟨HΦ, Ho, ⟨%d0, H0⟩, ⟨%d1, H1⟩, ⟨%d2, H2⟩⟩
  iapply ((bodyRun c (grid0.coords t) _ _ _ _ _ _ (iblk m c 0 t) (iblk m c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover_out c _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters, every weakly fair execution of `@main` terminates without a fault, and in every
    final state each array of the launch is what the proof data says and every other buffer is as the host operations
    after the launch leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- An argument other than `x` is no array of the launch: after the launch and the host tail it is as it was given. -/
theorem tail_arg (c : Dev nD) (b : Ref sig .tc) (hb : b = main_arg1 ∨ b = main_arg2 ∨ b = main_arg3 ∨ b = main_arg4) :
    Pipeline.afterTail₀ cfgs (dats m) 0 (V0 m) [hostOps1] c b = m ((c : Thread nD τ).loc b) := by
  have hne : ∀ w, Pipeline.arrRef spec0 w ≠ b := by
    rcases hb with rfl | rfl | rfl | rfl
    · exact (by decide : ∀ w, Pipeline.arrRef spec0 w ≠ main_arg1)
    · exact (by decide : ∀ w, Pipeline.arrRef spec0 w ≠ main_arg2)
    · exact (by decide : ∀ w, Pipeline.arrRef spec0 w ≠ main_arg3)
    · exact (by decide : ∀ w, Pipeline.arrRef spec0 w ≠ main_arg4)
  unfold Pipeline.afterTail₀
  rw [StableHlo.after_of_forall_not_mem (b := Proc.devRef .tc b) _ _ (post_keeps b (Or.inr hb)),
    Pipeline.withArrays_of_ne _ c (V0 m c) _ b hne]
  exact V_arg m c b (Or.inr hb)

/-- THE FRAME: every execution terminates without a fault and the five argument arrays end as they were given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans (((dats m 0 c).arrAt_in 0 rfl _).trans ((A_eq m c 0).trans (V_arg m c main_arg0 (Or.inl rfl)))),
     ((h c).2 main_arg1 (Pipeline.mem_restRefs_of main_arg1 (by decide) (by decide))).trans (tail_arg m c main_arg1 (Or.inl rfl)),
     ((h c).2 main_arg2 (Pipeline.mem_restRefs_of main_arg2 (by decide) (by decide))).trans (tail_arg m c main_arg2 (Or.inr (Or.inl rfl))),
     ((h c).2 main_arg3 (Pipeline.mem_restRefs_of main_arg3 (by decide) (by decide))).trans (tail_arg m c main_arg3 (Or.inr (Or.inr (Or.inl rfl)))),
     ((h c).2 main_arg4 (Pipeline.mem_restRefs_of main_arg4 (by decide) (by decide))).trans (tail_arg m c main_arg4 (Or.inr (Or.inr (Or.inr rfl))))⟩)
    (run_main m ρ)

end Cert.KernelIdeal.Hand

end
-- ==== Proof.Spec.lean ====
import Idealize.ShloMosaic.PureOps.Ideal
import Idealize.ShloMosaic.Lib.ValueIdx

/-! # What both programs compute

A field-aware factorization machine over `10` categorical fields, each of `10000` values, whose
embedding rows live in one shared vocabulary of `100000` rows. Field `i` of batch row `b` selects the
vocabulary row `x[b,i] + offsets[i]`. The score of a batch row is the sum of the selected linear
weights, plus, over the pairs of fields `i < j`, the inner product (over the `16` embedding
coordinates) of field `i`'s row in table `j` with field `j`'s row in table `i`, plus the bias.
Everything is an extended real; the sums are finite sums in a commutative monoid, so no order or
grouping matters. -/

noncomputable section

namespace Cert.FFM

open Idealize.ShloMosaic Idealize.ShloMosaic.ValueIdx

abbrev SX : Shape := ⟨2, ![16384, 10]⟩
abbrev SO : Shape := ⟨1, ![10]⟩
abbrev SE : Shape := ⟨3, ![10, 100000, 16]⟩
abbrev SL : Shape := ⟨2, ![100000, 1]⟩
abbrev SB : Shape := ⟨1, ![1]⟩
abbrev SR : Shape := ⟨1, ![16384]⟩

/-- Every categorical value is one of its field's `10000` values (as a signed word: `0 ≤ x < 10000`). -/
def XRange (x : SX.Idx → BitVec 32) : Prop := ∀ (b : Fin 16384) (i : Fin 10), (x (ix2 b i)).toNat < 10000

/-- Every field's block of `10000` rows lies inside the vocabulary (as a signed word: `0 ≤ offsets ≤ 90000`). -/
def ORange (off : SO.Idx → BitVec 32) : Prop := ∀ i : Fin 10, (off (ix1 i)).toNat ≤ 90000

/-- The vocabulary row field `i` of batch row `b` selects. -/
def row (x : SX.Idx → BitVec 32) (off : SO.Idx → BitVec 32) (b : Fin 16384) (i : Fin 10) : ℕ :=
  (x (ix2 b i)).toNat + (off (ix1 i)).toNat

/-- A row number as an index of the vocabulary axis (inside the ranges above it is the number itself). -/
def vrow (n : ℕ) : Fin 100000 := ⟨min n 99999, by omega⟩

theorem vrow_val {n : ℕ} (h : n < 100000) : (vrow n).val = n := by
  show min n 99999 = n; omega

/-- Coordinate `d` of row `n` of table `j`. -/
def embAt (emb : SE.Idx → EReal) (j : Fin 10) (n : ℕ) (d : Fin 16) : EReal := emb (ix3 j (vrow n) d)

/-- The linear weight of row `n`. -/
def linAt (lw : SL.Idx → EReal) (n : ℕ) : EReal := lw (ix2 (vrow n) (0 : Fin 1))

/-- The weight slab the kernel is handed: for field `i`, row `n` and lane `v`, the entry of vocabulary row
    `offsets[i] + v` — coordinate `n % 16` of table `n / 16` for the first `160` rows, the linear weight for row
    `160` — over the field's `10000` values, and zero on the `240` lanes that pad the slab to whole chunks. -/
def catW (off : SO.Idx → BitVec 32) (emb : SE.Idx → EReal) (lw : SL.Idx → EReal) (i : Fin 10) (n : Fin 161) (v : Fin 10240) : EReal :=
  if v.val < 10000 then
    if h : n.val < 160 then embAt emb ⟨n.val / 16, by omega⟩ ((off (ix1 i)).toNat + v.val) ⟨n.val % 16, Nat.mod_lt _ (by norm_num)⟩
    else linAt lw ((off (ix1 i)).toNat + v.val)
  else 0

abbrev SW : Shape := ⟨3, ![10, 161, 10240]⟩
abbrev SWL : Shape := ⟨3, ![1, 161, 2048]⟩
abbrev SA : Shape := ⟨2, ![256, 161]⟩
abbrev SXB : Shape := ⟨2, ![256, 10]⟩

/-- A lane number as an index of the slab's lane axis (below `10240` it is the number itself). -/
def lane (n : ℕ) : Fin 10240 := ⟨min n 10239, by omega⟩

theorem lane_val {n : ℕ} (h : n < 10240) : (lane n).val = n := by
  show min n 10239 = n; omega

/-- Slab row `16 j + d`: coordinate `d` of table `j`. -/
def prow (j : Fin 10) (d : Fin 16) : Fin 161 := ⟨16 * j.val + d.val, by omega⟩

/-- Slab row `160`: the linear weight. -/
def lrow : Fin 161 := ⟨160, by omega⟩

/-- What one (field, chunk) product of a one-hot row with a slab slice contributes to accumulator entry `n` of a batch
    row whose categorical value is `xv`: the slice's entry at lane `xv - start` when `xv` lies in the chunk
    `start … start + 2047`, and nothing otherwise. -/
def chunkTerm (wl : SWL.Idx → EReal) (start : ℕ) (xv : ℕ) (n : Fin 161) : EReal :=
  if h : start ≤ xv ∧ xv < start + 2048 then wl (ix3 (0 : Fin 1) n ⟨xv - start, by omega⟩) else 0

/-- The score of one batch row, before the bias, from a weight slab `w` and the row's ten categorical values `xs`:
    the linear rows at the selected lanes, plus over `i < j` the inner product of field `i`'s rows of table `j` with
    field `j`'s rows of table `i`. -/
def slabScore (w : SW.Idx → EReal) (xs : Fin 10 → ℕ) : EReal :=
  (∑ i : Fin 10, w (ix3 i lrow (lane (xs i))))
  + ∑ i : Fin 10, ∑ j : Fin 10,
      if i < j then ∑ d : Fin 16, w (ix3 i (prow j d) (lane (xs i))) * w (ix3 j (prow i d) (lane (xs j))) else 0

/-- The pair term of fields `i`, `j` at batch row `b`: field `i`'s row in table `j` against field `j`'s row in table `i`. -/
def pairTerm (x : SX.Idx → BitVec 32) (off : SO.Idx → BitVec 32) (emb : SE.Idx → EReal) (b : Fin 16384) (i j : Fin 10) : EReal :=
  ∑ d : Fin 16, embAt emb j (row x off b i) d * embAt emb i (row x off b j) d

/-- The linear part of batch row `b`. -/
def linTerm (x : SX.Idx → BitVec 32) (off : SO.Idx → BitVec 32) (lw : SL.Idx → EReal) (b : Fin 16384) : EReal :=
  ∑ i : Fin 10, linAt lw (row x off b i)

/-- The pair part of batch row `b`: the pair terms over `i < j`. -/
def ffmTerm (x : SX.Idx → BitVec 32) (off : SO.Idx → BitVec 32) (emb : SE.Idx → EReal) (b : Fin 16384) : EReal :=
  ∑ i : Fin 10, ∑ j : Fin 10, if i < j then pairTerm x off emb b i j else 0

/-- The score of every batch row. -/
def G (x : SX.Idx → BitVec 32) (off : SO.Idx → BitVec 32) (emb : SE.Idx → EReal) (lw : SL.Idx → EReal)
    (lb : SB.Idx → EReal) : SR.Idx → EReal := fun r =>
  linTerm x off lw (r 0) + ffmTerm x off emb (r 0) + lb (ix1 (0 : Fin 1))

end Cert.FFM

end
-- ==== Proof.ValueIdeal.lean ====
/- # What the kernel program computes

Read at the ideal instance. Grid point `t` writes back rows `256 t … 256 t + 255` of the launch's result, and the
body's value at a row depends only on that row of `x` and on the weight slab; the 64 blocks tile the result, so the
result array is one function of `x` and the slab (`scores`). The host operations after the launch add the bias. -/
import proofs.«419980_j22007412425277_3_alg».proof.Proof.FrameIdeal
import proofs.«419980_j22007412425277_3_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.HandValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.KernelIdeal.Hand
open Idealize.ShloMosaic.ValueIdx

variable (m : (ℓ : Loc nD τ sig) → Buf (Elt Ideal) ℓ) (ρ : Dev nD → PrngReg)

/-- The law of the body: on an `x` block whose values are lane numbers of the slab, the score the body leaves for batch
    row `b` of the block is the slab score of that row's ten values. -/
def BodyLaw : Prop :=
  ∀ (c : Dev nD) (i : grid0.Coords) (arg1 : Memref sig .tc .vmem S256x10 .i32) (harg1 : arg1.IsWhole)
    (arg2 : Memref sig .tc .vmem S10x161x10240 .bf16) (harg2 : arg2.IsWhole) (arg3 : Memref sig .tc .vmem S256 .f32) (harg3 : arg3.IsWhole)
    (x0 : Vec Ideal S256x10 .i32) (x1 : Vec Ideal S10x161x10240 .bf16),
    (∀ (b : Fin 256) (f : Fin 10), (x0 (ix2 b f)).toNat < 10240) →
    ∀ b : Fin 256, outBlock (F := Ideal) c i arg1 harg1 arg2 harg2 arg3 harg3 x0 x1 (ix1 b)
      = Cert.FFM.slabScore x1 (fun f => (x0 (ix2 b f)).toNat)

/-- The launch's result array as one function: the slab score of each batch row. -/
def scores (c : Dev nD) : S16384.Idx → EReal := fun r =>
  Cert.FFM.slabScore (V (F := Ideal) m c main_v162) (fun f => ((V (F := Ideal) m c main_arg0) (ix2 (r 0) f)).toNat)

/-- The printed index maps over the grid: the `x` window and the result window move together, one block of 256 rows per
    point; the slab window never moves. -/
theorem idx_facts : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 1) = t.val :=
  (by decide +kernel : ∀ t : Fin grid0.N, _)

/-- What point `t` writes back is block `t` of `scores`. -/
theorem flushed_eq (hbody : BodyLaw) (c : Dev nD)
    (hx : ∀ (r : Fin 16384) (f : Fin 10), ((V (F := Ideal) m c main_arg0) (ix2 r f)).toNat < 10240) (t : Fin cfg0.N) :
    (dats (F := Ideal) m 0 c).flushed 2 t = ((cfg0.win 2).blk t).view.read (Elt Ideal) (scores m c) := by
  show (cfg0.win 2).cut (grid0.coords t) ((dats (F := Ideal) m 0 c).after 2 t) = _
  rw [after_out]
  unfold outAt
  obtain ⟨e0, e1, e2, e3, e4, e5⟩ := idx_facts t
  funext j
  obtain ⟨b, rfl⟩ : ∃ b : Fin 256, j = ix1 b := ⟨j 0, eq_ix1 j⟩
  have hb : b.val < 256 := b.isLt
  -- the slab window's block is the whole slab
  have h1 : ∀ j : S10x161x10240.Idx, ((cfg0.win 1).blk t).view.emb j = j := by
    intro j; funext a; apply Fin.ext
    match a with
    | ⟨0, _⟩ => show win0_1.index t (0 : Fin 3) * 10 + 1 * (j 0).val = (j 0).val; omega
    | ⟨1, _⟩ => show win0_1.index t (1 : Fin 3) * 161 + 1 * (j 1).val = (j 1).val; omega
    | ⟨2, _⟩ => show win0_1.index t (2 : Fin 3) * 10240 + 1 * (j 2).val = (j 2).val; omega
  -- row b of the x block is row 256 t + b of x, which is also where row b of the result block lands
  have h0 : ∀ f : Fin 10, ((cfg0.win 0).blk t).view.emb (ix2 b f) = ix2 ((((cfg0.win 2).blk t).view.emb (ix1 b)) 0) f := by
    intro f; funext a; apply Fin.ext
    match a with
    | ⟨0, _⟩ => show win0_0.index t (0 : Fin 2) * 256 + 1 * b.val = win0_2.index t (0 : Fin 1) * 256 + 1 * b.val; omega
    | ⟨1, _⟩ => show win0_0.index t (1 : Fin 2) * 10 + 1 * f.val = f.val; omega
  refine (hbody c _ _ _ _ _ _ _ (iblk m c 0 t) (iblk m c 1 t) ?_ b).trans ?_
  · intro b' f
    show ((V (F := Ideal) m c main_arg0) (((cfg0.win 0).blk t).view.emb (ix2 b' f))).toNat < 10240
    obtain ⟨r, f', hrf⟩ : ∃ (r : Fin 16384) (f' : Fin 10), ((cfg0.win 0).blk t).view.emb (ix2 b' f) = ix2 r f' := ⟨_, _, eq_ix2 _⟩
    rw [hrf]; exact hx r f'
  · show Cert.FFM.slabScore (fun j => V (F := Ideal) m c main_v162 (((cfg0.win 1).blk t).view.emb j))
        (fun f => ((V (F := Ideal) m c main_arg0) (((cfg0.win 0).blk t).view.emb (ix2 b f))).toNat)
      = Cert.FFM.slabScore (V (F := Ideal) m c main_v162)
        (fun f => ((V (F := Ideal) m c main_arg0) (ix2 ((((cfg0.win 2).blk t).view.emb (ix1 b)) 0) f)).toNat)
    simp only [h1, h0]
    rfl

/-- An index of the result lies in point `t`'s block iff it is one of rows `256 t … 256 t + 255`. -/
theorem mem_blk (t : Fin cfg0.N) (i : S16384.Idx) :
    i ∈ ((cfg0.win 2).blk t).view.set ↔ ∀ a : Fin 1, win0_2.index t a * S256.size a ≤ (i a).val ∧ (i a).val < win0_2.index t a * S256.size a + S256.size a := by
  show i ∈ ((View.whole main_v163).slice (win0_2.rect t)).set ↔ _
  rw [View.set_slice_whole, Rect.mem_set_unit]
  exact Iff.rfl

/-- Every row of the result is written back by the point that holds it. -/
theorem cover (i : S16384.Idx) : ∃ t : Fin cfg0.N, (cfg0.win 2).flush t = true ∧ i ∈ ((cfg0.win 2).blk t).view.set := by
  have hi : (i 0).val < 16384 := (i 0).isLt
  have hN : cfg0.N = 64 := N_0
  refine ⟨⟨(i 0).val / 256, by omega⟩, flush0_2 _, ?_⟩
  rw [mem_blk]
  intro a
  obtain ⟨e0, e1, e2, e3, e4, e5⟩ := idx_facts ⟨(i 0).val / 256, by omega⟩
  match a with
  | ⟨0, _⟩ =>
    show win0_2.index _ (0 : Fin 1) * 256 ≤ (i 0).val ∧ (i 0).val < win0_2.index _ (0 : Fin 1) * 256 + 256
    rw [e5]; dsimp only; omega

/-- THE RESULT OF THE LAUNCH: the slab score of every batch row. -/
theorem final (hbody : BodyLaw) (c : Dev nD)
    (hx : ∀ (r : Fin 16384) (f : Fin 10), ((V (F := Ideal) m c main_arg0) (ix2 r f)).toNat < 10240) :
    (dats (F := Ideal) m 0 c).arrAt 2 cfg0.N = scores m c :=
  (dats (F := Ideal) m 0 c).arrAt_eq_of_cover 2 (scores m c) (fun t _ => flushed_eq m hbody c hx t) cover

/-- The launch's result array, the bias array and the program's result array, at their literal types. -/
abbrev resArr (c : Dev nD) : S16384.Idx → EReal := (dats (F := Ideal) m 0 c).arrAt 2 cfg0.N
abbrev biasArr (c : Dev nD) : S1.Idx → EReal := m ((c : Thread nD τ).loc main_arg4)
abbrev outArr (c : Dev nD) : S16384.Idx → EReal := Pipeline.afterTail₀ cfgs (dats (F := Ideal) m) 0 (V0 m) [hostOps1] c main_v166

/-- The program's result: the launch's result plus the bias, entry by entry. -/
theorem tail_result (c : Dev nD) (r : S16384.Idx) :
    outArr m c r = resArr m c r + biasArr m c (ix1 (0 : Fin 1)) := by
  unfold outArr
  unfold Pipeline.afterTail₀
  show StableHlo.after hostOps1 _ (Proc.devRef .tc main_v166) r = _
  after_results
  have hres : Pipeline.withArrays (cfgs 0).spec c (V0 m c) (fun w => (dats (F := Ideal) m 0 c).arrAt w (cfgs 0).N) (Proc.devRef .tc main_v163) = resArr m c :=
    Pipeline.withArrays_arr spec0 launch0.win.arr_inj c _ _ 2
  have hbias : Pipeline.withArrays (cfgs 0).spec c (V0 m c) (fun w => (dats (F := Ideal) m 0 c).arrAt w (cfgs 0).N) (Proc.devRef .tc main_arg4) = biasArr m c :=
    (Pipeline.withArrays_of_ne _ c (V0 m c) _ main_arg4 (by decide : ∀ w, Pipeline.arrRef spec0 w ≠ main_arg4)).trans
      (V_arg m c main_arg4 (Or.inr (Or.inr (Or.inr (Or.inr rfl)))))
  rw [hres, hbias]
  show resArr m c r + _ = _
  refine congrArg (resArr m c r + ·) ?_
  simp only [broadcastInDim, shapeCast]
  -- the bias array has one entry: any two of its indices agree
  have hsub : ∀ u v : S1.Idx, u = v := fun u v => funext fun d => by
    have h1 : (u d).val < S1.size d := (u d).isLt
    have h2 : (v d).val < S1.size d := (v d).isLt
    have hs : S1.size d = 1 := by
      match d with
      | ⟨0, _⟩ => rfl
    exact Fin.ext (by omega)
  exact congrArg (biasArr m c) (hsub _ _)

/-- THE KERNEL PROGRAM'S RUN, READ: every execution terminates without a fault, its result is the slab score of each
    batch row plus the bias, and the arguments end as they were given. -/
theorem run_scores (hbody : BodyLaw)
    (hx : ∀ (c : Dev nD) (r : Fin 16384) (f : Fin 10), ((m ((c : Thread nD τ).loc main_arg0) : S16384x10.Idx → BitVec 32) (ix2 r f)).toNat < 10240) :
    θ_run defs (onTc (τ := τ) (main (F := Ideal))) ⟨m, fun _ => 0, ρ⟩ (fun r => ∀ c : Dev nD,
      r.2.mem ((c.tc : Thread nD τ).loc main_v166) = (fun i => scores m c i + biasArr m c (ix1 (0 : Fin 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have hxV : ∀ (c : Dev nD) (r : Fin 16384) (f : Fin 10), ((V (F := Ideal) m c main_arg0) (ix2 r f)).toNat < 10240 := by
    intro c r f
    rw [V_arg m c main_arg0 (Or.inl rfl)]
    exact hx c r f
  refine (θ_run defs _ _).mono (fun r h c => ⟨?_, ?_⟩) (run_main (F := Ideal) m ρ)
  · refine ((h c).2 main_v166 (Pipeline.mem_restRefs_of main_v166 (by decide) (by decide))).trans ?_
    funext i
    refine (tail_result m c i).trans ?_
    show resArr m c i + _ = _
    rw [show resArr m c = scores m c from final m hbody c (hxV c)]
  · exact ⟨((h c).1 0).trans (((dats (F := Ideal) m 0 c).arrAt_in 0 rfl _).trans ((A_eq m c 0).trans (V_arg m c main_arg0 (Or.inl rfl)))),
     ((h c).2 main_arg1 (Pipeline.mem_restRefs_of main_arg1 (by decide) (by decide))).trans (tail_arg m c main_arg1 (Or.inl rfl)),
     ((h c).2 main_arg2 (Pipeline.mem_restRefs_of main_arg2 (by decide) (by decide))).trans (tail_arg m c main_arg2 (Or.inr (Or.inl rfl))),
     ((h c).2 main_arg3 (Pipeline.mem_restRefs_of main_arg3 (by decide) (by decide))).trans (tail_arg m c main_arg3 (Or.inr (Or.inr (Or.inl rfl)))),
     ((h c).2 main_arg4 (Pipeline.mem_restRefs_of main_arg4 (by decide) (by decide))).trans (tail_arg m c main_arg4 (Or.inr (Or.inr (Or.inr rfl))))⟩

end Cert.KernelIdeal.HandValue

end
-- ==== Proof.RefValue.lean ====
import proofs.«419980_j22007412425277_3_alg».proof.Proof.Gen.ReferenceIdeal.Run
import proofs.«419980_j22007412425277_3_alg».proof.Proof.Gen.ReferenceIdeal.Read
import proofs.«419980_j22007412425277_3_alg».proof.Proof.Spec
import Idealize.ShloMosaic.Lib.ValueIdx
import Idealize.ShloMosaic.Lib.IdealHost
import Idealize.ShloMosaic.Lib.StableHlo.Predicate
import Idealize.ShloMosaic.Lib.Pipeline.Value
import Idealize.ShloMosaic.PureOps.Ideal.Laws

/-! # The reference program computes the score

The reference program's result, read one batch row at a time: the index words it gathers with are the
selected vocabulary rows, the two gathers read those rows, the masked products summed over the three
reduced axes are the pair part, the gathered weights summed over the fields are the linear part, and the
three parts are added in another grouping than the specification's. -/

noncomputable section

namespace Cert.FFM.Ref

open Cert.ReferenceIdeal Cert.ReferenceIdeal.Gen Cert.ReferenceIdeal.Read Cert.FFM
open Idealize.ShloMosaic Idealize.ShloMosaic.ValueIdx Idealize.ShloMosaic.TcCoe Idealize.SL.Sem Idealize.ShloMosaic.StableHlo
open scoped BigOperators

/-! ## The index words -/

/-- Inside the ranges the sum of a categorical value and its field's offset does not wrap: as a number it is the selected row. -/
theorem word_toNat (x : SX.Idx → BitVec 32) (off : SO.Idx → BitVec 32) (hx : XRange x) (ho : ORange off)
    (b : Fin 16384) (i : Fin 10) : (x (ix2 b i) + off (ix1 i)).toNat = row x off b i := by
  have h1 := hx b i
  have h2 := ho i
  rw [BitVec.toNat_add]
  unfold row
  omega

/-- The selected row lies in the vocabulary. -/
theorem row_lt (x : SX.Idx → BitVec 32) (off : SO.Idx → BitVec 32) (hx : XRange x) (ho : ORange off)
    (b : Fin 16384) (i : Fin 10) : row x off b i < 100000 := by
  have h1 := hx b i
  have h2 := ho i
  unfold row
  omega

/-- The sum of the values and the offsets laid along the fields, at batch row `b` and field `i`. -/
theorem v2_at (x : SX.Idx → BitVec 32) (off : SO.Idx → BitVec 32) (b : Fin 16384) (i : Fin 10) :
    val_main_v2 (F := Ideal) x off (ix2 b i) = x (ix2 b i) + off (ix1 i) := by
  rw [val_main_v2_apply, val_main_v1_apply, val_main_v0_apply]
  show x (ix2 b i) + off _ = _
  congr 2
  funext a
  match a with
  | ⟨0, _⟩ => rfl

/-- The sum is not negative as a signed word. -/
theorem not_neg (x : SX.Idx → BitVec 32) (off : SO.Idx → BitVec 32) (hx : XRange x) (ho : ORange off)
    (b : Fin 16384) (i : Fin 10) : IntOp.cmpi .slt (x (ix2 b i) + off (ix1 i)) 0#32 = 0#1 := by
  apply eq_zero_of_ne_one
  have hw := word_toNat x off hx ho b i
  have hr := row_lt x off hx ho b i
  rw [Predicate.slt_iff_toNat (by omega) (by decide)]
  simp

/-- The first gather's index word: the negative branch is not taken. -/
theorem v7_at (x : SX.Idx → BitVec 32) (off : SO.Idx → BitVec 32) (hx : XRange x) (ho : ORange off)
    (b : Fin 16384) (i : Fin 10) : val_main_v7 (F := Ideal) x off (ix2 b i) = x (ix2 b i) + off (ix1 i) := by
  rw [val_main_v7_apply, val_main_v4_apply, val_main_v3_apply, val_main_c_apply, v2_at, not_neg x off hx ho, select_zero]

/-- The second gather's index word likewise. -/
theorem v22_at (x : SX.Idx → BitVec 32) (off : SO.Idx → BitVec 32) (hx : XRange x) (ho : ORange off)
    (b : Fin 16384) (i : Fin 10) : val_main_v22 (F := Ideal) x off (ix2 b i) = x (ix2 b i) + off (ix1 i) := by
  rw [val_main_v22_apply, val_main_v19_apply, val_main_v18_apply, val_main_c_3_apply, v2_at, not_neg x off hx ho, select_zero]

/-- A word of the index stage read as a signed integer and clamped to the vocabulary is the selected row. -/
theorem clamp_row (x : SX.Idx → BitVec 32) (off : SO.Idx → BitVec 32) (hx : XRange x) (ho : ORange off)
    (b : Fin 16384) (i : Fin 10) : min (x (ix2 b i) + off (ix1 i)).toInt.toNat 99999 = (vrow (row x off b i)).val := by
  have hw := word_toNat x off hx ho b i
  have hr := row_lt x off hx ho b i
  rw [vrow_val hr]
  have hi : (x (ix2 b i) + off (ix1 i)).toInt = ((x (ix2 b i) + off (ix1 i)).toNat : Int) :=
    BitVec.toInt_eq_toNat_of_lt (by omega)
  rw [hi, hw]
  simp
  omega

/-! ## The two gathers at an index -/

/-- The dimension numbers of the gather of the embedding tables. -/
abbrev G1 := gather_S10x100000x16_S16384x10x1_S10x16384x10x16_03_1_n_n_1_2_10116
/-- The dimension numbers of the gather of the linear weights. -/
abbrev G2 := gather_S100000x1_S16384x10x2_S16384x10_n_01_n_n_01_2_11

/-- The gather of the tables at (table `f`, batch row `b`, field `i`, coordinate `d`): table `f`'s row named by the index
    word at (`b`, `i`), read signed and clamped to the vocabulary, at coordinate `d`. -/
theorem gather1_at (e : SE.Idx → EReal) (idx : IVec S16384x10x1 32) (f : Fin 10) (b : Fin 16384) (i : Fin 10) (d : Fin 16) :
    Host.gather G1 e idx (ix4 f b i d)
      = e (ix3 f ⟨min (idx (ix3 b i (0 : Fin 1))).toInt.toNat 99999, by omega⟩ d) := by
  unfold Host.gather
  congr 1
  funext a
  apply Fin.ext
  match a with
  | ⟨0, _⟩ =>
    show G1.start (ix4 f b i d) idx 0 + G1.batchCoord (ix4 f b i d) 0 + G1.offCoord (ix4 f b i d) 0 = f.val
    have h1 : G1.start (ix4 f b i d) idx 0 = 0 := rfl
    have h2 : G1.batchCoord (ix4 f b i d) 0 = 0 := rfl
    have h3 : G1.offCoord (ix4 f b i d) 0 = f.val := rfl
    rw [h1, h2, h3]
    omega
  | ⟨1, _⟩ =>
    show G1.start (ix4 f b i d) idx 1 + G1.batchCoord (ix4 f b i d) 1 + G1.offCoord (ix4 f b i d) 1
      = min (idx (ix3 b i (0 : Fin 1))).toInt.toNat 99999
    have hs : G1.siIdx (ix4 f b i d) ⟨0, by decide⟩ = ix3 b i (0 : Fin 1) := by
      funext c
      apply Fin.ext
      match c with
      | ⟨0, _⟩ => rfl
      | ⟨1, _⟩ => rfl
      | ⟨2, _⟩ => rfl
    have h1 : G1.start (ix4 f b i d) idx 1 = min (idx (G1.siIdx (ix4 f b i d) ⟨0, by decide⟩)).toInt.toNat 99999 := rfl
    have h2 : G1.batchCoord (ix4 f b i d) 1 = 0 := rfl
    have h3 : G1.offCoord (ix4 f b i d) 1 = 0 := rfl
    rw [h1, h2, h3, hs]
    omega
  | ⟨2, _⟩ =>
    show G1.start (ix4 f b i d) idx 2 + G1.batchCoord (ix4 f b i d) 2 + G1.offCoord (ix4 f b i d) 2 = d.val
    have h1 : G1.start (ix4 f b i d) idx 2 = 0 := rfl
    have h2 : G1.batchCoord (ix4 f b i d) 2 = 0 := rfl
    have h3 : G1.offCoord (ix4 f b i d) 2 = d.val := rfl
    rw [h1, h2, h3]
    omega

/-- The gather of the linear weights at (batch row `b`, field `i`): the weight of the row named by the first component
    of the index pair at (`b`, `i`), read signed and clamped; the second component is clamped to the one column. -/
theorem gather2_at (lw : SL.Idx → EReal) (idx : IVec S16384x10x2 32) (b : Fin 16384) (i : Fin 10) :
    Host.gather G2 lw idx (ix2 b i)
      = lw (ix2 ⟨min (idx (ix3 b i (0 : Fin 2))).toInt.toNat 99999, by omega⟩ (0 : Fin 1)) := by
  unfold Host.gather
  congr 1
  funext a
  apply Fin.ext
  match a with
  | ⟨0, _⟩ =>
    show G2.start (ix2 b i) idx 0 + G2.batchCoord (ix2 b i) 0 + G2.offCoord (ix2 b i) 0
      = min (idx (ix3 b i (0 : Fin 2))).toInt.toNat 99999
    have hs : G2.siIdx (ix2 b i) ⟨0, by decide⟩ = ix3 b i (0 : Fin 2) := by
      funext c
      apply Fin.ext
      match c with
      | ⟨0, _⟩ => rfl
      | ⟨1, _⟩ => rfl
      | ⟨2, _⟩ => rfl
    have h1 : G2.start (ix2 b i) idx 0 = min (idx (G2.siIdx (ix2 b i) ⟨0, by decide⟩)).toInt.toNat 99999 := rfl
    have h2 : G2.batchCoord (ix2 b i) 0 = 0 := rfl
    have h3 : G2.offCoord (ix2 b i) 0 = 0 := rfl
    rw [h1, h2, h3, hs]
    omega
  | ⟨1, _⟩ =>
    show G2.start (ix2 b i) idx 1 + G2.batchCoord (ix2 b i) 1 + G2.offCoord (ix2 b i) 1 = 0
    have h1 : G2.start (ix2 b i) idx 1 = min (idx (G2.siIdx (ix2 b i) ⟨1, by decide⟩)).toInt.toNat 0 := rfl
    have h2 : G2.batchCoord (ix2 b i) 1 = 0 := rfl
    have h3 : G2.offCoord (ix2 b i) 1 = 0 := rfl
    rw [h1, h2, h3]
    simp

/-! ## The gathered rows -/

/-- The first gather's index word at (`b`, `i`, 0) is the sum of value and offset. -/
theorem v8_at (x : SX.Idx → BitVec 32) (off : SO.Idx → BitVec 32) (hx : XRange x) (ho : ORange off)
    (b : Fin 16384) (i : Fin 10) :
    val_main_v8 (F := Ideal) x off (ix3 b i (0 : Fin 1)) = x (ix2 b i) + off (ix1 i) := by
  rw [val_main_v8_apply]
  have h : idx_main_v8 (ix3 b i (0 : Fin 1)) = ix2 b i := by
    funext a
    match a with
    | ⟨0, _⟩ => rfl
    | ⟨1, _⟩ => rfl
  rw [h, v7_at x off hx ho]

/-- The gathered tables at (table `f`, batch row `b`, field `i`, coordinate `d`): coordinate `d` of the row field `i` selects, in table `f`. -/
theorem v9_at (x : SX.Idx → BitVec 32) (off : SO.Idx → BitVec 32) (e : SE.Idx → EReal) (hx : XRange x) (ho : ORange off)
    (f : Fin 10) (b : Fin 16384) (i : Fin 10) (d : Fin 16) :
    val_main_v9 (F := Ideal) x off e (ix4 f b i d) = embAt e f (row x off b i) d := by
  unfold val_main_v9
  rw [gather1_at]
  unfold embAt
  have hfin : (⟨min (val_main_v8 (F := Ideal) x off (ix3 b i (0 : Fin 1))).toInt.toNat 99999, by omega⟩ : Fin 100000)
      = vrow (row x off b i) := by
    apply Fin.ext
    show min (val_main_v8 (F := Ideal) x off (ix3 b i (0 : Fin 1))).toInt.toNat 99999 = _
    rw [v8_at x off hx ho]
    exact clamp_row x off hx ho b i
  rw [hfin]

/-- The index pairs of the second gather, first component: the second index word. -/
theorem v27_at (x : SX.Idx → BitVec 32) (off : SO.Idx → BitVec 32) (hx : XRange x) (ho : ORange off)
    (b : Fin 16384) (i : Fin 10) :
    val_main_v27 (F := Ideal) x off (ix3 b i (0 : Fin 2)) = x (ix2 b i) + off (ix1 i) := by
  unfold val_main_v27
  refine (concatenate_pair_apply_left (s₁ := S16384x10x1) (s₂ := S16384x10x1) _ _ _ _ (ix3 b i (0 : Fin 2)) (by rfl) (ix3 b i (0 : Fin 1)) ?_).trans ?_
  · intro c
    match c with
    | ⟨0, _⟩ => rfl
    | ⟨1, _⟩ => rfl
    | ⟨2, _⟩ => rfl
  · rw [val_main_v25_apply]
    have h : idx_main_v25 (ix3 b i (0 : Fin 1)) = ix2 b i := by
      funext a
      match a with
      | ⟨0, _⟩ => rfl
      | ⟨1, _⟩ => rfl
    rw [h, v22_at x off hx ho]

/-- The gathered linear weights at (batch row `b`, field `i`): the weight of the row field `i` selects. -/
theorem v28_at (x : SX.Idx → BitVec 32) (off : SO.Idx → BitVec 32) (lw : SL.Idx → EReal) (hx : XRange x) (ho : ORange off)
    (b : Fin 16384) (i : Fin 10) :
    val_main_v28 (F := Ideal) x off lw (ix2 b i) = linAt lw (row x off b i) := by
  unfold val_main_v28
  rw [gather2_at]
  unfold linAt
  have hfin : (⟨min (val_main_v27 (F := Ideal) x off (ix3 b i (0 : Fin 2))).toInt.toNat 99999, by omega⟩ : Fin 100000)
      = vrow (row x off b i) := by
    apply Fin.ext
    show min (val_main_v27 (F := Ideal) x off (ix3 b i (0 : Fin 2))).toInt.toNat 99999 = _
    rw [v27_at x off hx ho]
    exact clamp_row x off hx ho b i
  rw [hfin]

/-! ## The masked products -/

/-- The mask at (`i`, `j`): set exactly above the diagonal. -/
theorem mask_at (i j : Fin 10) : val_main_v14 (F := Ideal) (ix2 i j) = if i < j then 1#1 else 0#1 := by
  rw [val_main_v14_apply, val_main_call0_v4_apply, val_main_call0_v2_apply, val_main_call0_v0_apply,
    val_main_call0_v1_apply, val_main_call0_c_apply, val_main_call0_v3_apply, val_main_call0_v5_apply,
    val_main_call0_c_0_apply, val_main_v13_apply, val_main_c_1_apply]
  show Scalar.select (IntOp.cmpi .sge (IntOp.addi (BitVec.ofNat 32 i.val) 0#32) (BitVec.ofNat 32 j.val)) 0#1 1#1 = _
  have hi : (IntOp.addi (BitVec.ofNat 32 i.val) 0#32).toNat = i.val := by
    have := i.isLt
    simp [IntOp.addi]
    omega
  have hj : (BitVec.ofNat 32 j.val).toNat = j.val := by
    have := j.isLt
    simp
    omega
  have hi' := i.isLt
  have hj' := j.isLt
  by_cases h : i < j
  · rw [if_pos h]
    have hc : IntOp.cmpi .sge (IntOp.addi (BitVec.ofNat 32 i.val) 0#32) (BitVec.ofNat 32 j.val) = 0#1 := by
      apply eq_zero_of_ne_one
      rw [Predicate.sge_iff_toNat (by omega) (by omega), hi, hj]
      have := Fin.lt_def.mp h
      omega
    rw [hc, select_zero]
  · rw [if_neg h]
    have hc : IntOp.cmpi .sge (IntOp.addi (BitVec.ofNat 32 i.val) 0#32) (BitVec.ofNat 32 j.val) = 1#1 := by
      rw [Predicate.sge_iff_toNat (by omega) (by omega), hi, hj]
      have := fun h' => h (Fin.lt_def.mpr h')
      omega
    rw [hc, select_one]

/-- The mask laid over the batch rows and the coordinates, at (`b`, `i`, `j`, `d`). -/
theorem maskB_at (b : Fin 16384) (i j : Fin 10) (d : Fin 16) :
    val_main_call1_v1 (F := Ideal) (ix4 b i j d) = if i < j then 1#1 else 0#1 := by
  rw [val_main_call1_v1_apply, val_main_v15_apply]
  have h : idx_main_v15 (idx_main_call1_v1 (ix4 b i j d)) = ix2 i j := by
    funext a
    match a with
    | ⟨0, _⟩ => rfl
    | ⟨1, _⟩ => rfl
  rw [h, mask_at]

/-- The transposed gather at (`b`, `i`, `j`, `d`): coordinate `d` of field `i`'s row in table `j`. -/
theorem v10_at (x : SX.Idx → BitVec 32) (off : SO.Idx → BitVec 32) (e : SE.Idx → EReal) (hx : XRange x) (ho : ORange off)
    (b : Fin 16384) (i j : Fin 10) (d : Fin 16) :
    val_main_v10 (F := Ideal) x off e (ix4 b i j d) = embAt e j (row x off b i) d := by
  rw [val_main_v10_apply]
  have h : idx_main_v10 (ix4 b i j d) = ix4 j b i d := by
    funext a
    match a with
    | ⟨0, _⟩ => rfl
    | ⟨1, _⟩ => rfl
    | ⟨2, _⟩ => rfl
    | ⟨3, _⟩ => rfl
  rw [h, v9_at x off e hx ho]

/-- With the two field axes exchanged: coordinate `d` of field `j`'s row in table `i`. -/
theorem v11_at (x : SX.Idx → BitVec 32) (off : SO.Idx → BitVec 32) (e : SE.Idx → EReal) (hx : XRange x) (ho : ORange off)
    (b : Fin 16384) (i j : Fin 10) (d : Fin 16) :
    val_main_v11 (F := Ideal) x off e (ix4 b i j d) = embAt e i (row x off b j) d := by
  rw [val_main_v11_apply]
  have h : idx_main_v11 (ix4 b i j d) = ix4 b j i d := by
    funext a
    match a with
    | ⟨0, _⟩ => rfl
    | ⟨1, _⟩ => rfl
    | ⟨2, _⟩ => rfl
    | ⟨3, _⟩ => rfl
  rw [h, v10_at x off e hx ho]

/-- The masked product at (`b`, `i`, `j`, `d`): the product of the two rows' coordinates above the diagonal, zero elsewhere. -/
theorem v16_at (x : SX.Idx → BitVec 32) (off : SO.Idx → BitVec 32) (e : SE.Idx → EReal) (hx : XRange x) (ho : ORange off)
    (b : Fin 16384) (i j : Fin 10) (d : Fin 16) :
    val_main_v16 (F := Ideal) x off e (ix4 b i j d)
      = if i < j then embAt e j (row x off b i) d * embAt e i (row x off b j) d else 0 := by
  rw [val_main_v16_apply, maskB_at, val_main_v12_apply, v10_at x off e hx ho, v11_at x off e hx ho,
    val_main_call1_v2_apply, val_main_call1_v0_apply, val_main_cst_apply]
  by_cases h : i < j
  · rw [if_pos h, if_pos h, select_one]
    rfl
  · rw [if_neg h, if_neg h, select_zero]
    exact Ideal.ofBits_zero_f32

/-! ## The sums -/

/-- The indices of the product array as quadruples of coordinates. -/
def idxEquiv4 : S16384x10x10x16.Idx ≃ Fin 16384 × Fin 10 × Fin 10 × Fin 16 where
  toFun k := (k 0, k 1, k 2, k 3)
  invFun p := ix4 p.1 p.2.1 p.2.2.1 p.2.2.2
  left_inv k := (eq_ix4 k).symm
  right_inv _ := rfl

/-- The sum over the indices that reduce to batch row `b` is the triple sum over the two field axes and the coordinate axis. -/
theorem sum_fiber (h : S16384x10x10x16.ReducesTo [1, 2, 3] S16384) (y : S16384x10x10x16.Idx → EReal) (b : Fin 16384) :
    ∑ k ∈ Finset.univ.filter (fun k => h.drop k = ix1 b), y k
      = ∑ i : Fin 10, ∑ j : Fin 10, ∑ d : Fin 16, y (ix4 b i j d) := by
  have hdrop : ∀ (a : Fin 16384) (i j : Fin 10) (d : Fin 16), h.drop (ix4 a i j d) = ix1 a := by
    intro a i j d
    funext c
    match c with
    | ⟨0, _⟩ => rfl
  rw [Finset.sum_filter, ← Equiv.sum_comp idxEquiv4.symm, Fintype.sum_prod_type, Finset.sum_eq_single b]
  · rw [Fintype.sum_prod_type]
    refine Finset.sum_congr rfl fun i _ => ?_
    rw [Fintype.sum_prod_type]
    refine Finset.sum_congr rfl fun j _ => Finset.sum_congr rfl fun d _ => ?_
    show (if h.drop (ix4 b i j d) = ix1 b then y (ix4 b i j d) else 0) = _
    rw [if_pos (hdrop b i j d)]
  · intro a _ hab
    refine Finset.sum_eq_zero fun p _ => ?_
    show (if h.drop (ix4 a p.1 p.2.1 p.2.2) = ix1 b then y (ix4 a p.1 p.2.1 p.2.2) else 0) = 0
    rw [if_neg]
    rw [hdrop]
    intro hh
    exact hab (congrFun hh 0)
  · intro hb
    exact absurd (Finset.mem_univ b) hb

/-- The pair part: the reduction over the two field axes and the coordinate axis at batch row `b`. -/
theorem v17_at (x : SX.Idx → BitVec 32) (off : SO.Idx → BitVec 32) (e : SE.Idx → EReal) (hx : XRange x) (ho : ORange off)
    (b : Fin 16384) : val_main_v17 (F := Ideal) x off e (ix1 b) = ffmTerm x off e b := by
  unfold val_main_v17
  rw [hostReduceAdd_apply]
  unfold Ideal.hostReduceAdd
  rw [sum_fiber, val_main_cst_2_apply]
  have h0 : (FloatOps.ofBits .f32 0x00000000#32 : Ideal .f32) = 0 := Ideal.ofBits_zero_f32
  rw [h0, zero_add]
  unfold ffmTerm
  refine Finset.sum_congr rfl fun i _ => Finset.sum_congr rfl fun j _ => ?_
  by_cases h : i < j
  · rw [if_pos h]
    unfold pairTerm
    refine Finset.sum_congr rfl fun d _ => ?_
    rw [v16_at x off e hx ho, if_pos h]
  · rw [if_neg h]
    refine Finset.sum_eq_zero fun d _ => ?_
    rw [v16_at x off e hx ho, if_neg h]

/-- The linear part: the reduction over the fields at batch row `b`. -/
theorem v29_at (x : SX.Idx → BitVec 32) (off : SO.Idx → BitVec 32) (lw : SL.Idx → EReal) (hx : XRange x) (ho : ORange off)
    (b : Fin 16384) : val_main_v29 (F := Ideal) x off lw (ix1 b) = linTerm x off lw b := by
  rw [val_main_v29_apply, val_main_cst_6_apply]
  have h0 : (FloatOps.ofBits .f32 0x00000000#32 : Ideal .f32) = 0 := Ideal.ofBits_zero_f32
  rw [h0, zero_add]
  unfold linTerm
  refine Finset.sum_congr rfl fun i _ => ?_
  have h : idx_main_v29 (ix1 b) i = ix2 b i := by
    funext a
    match a with
    | ⟨0, _⟩ => rfl
    | ⟨1, _⟩ => rfl
  rw [h, v28_at x off lw hx ho]

/-- The bias laid over the batch rows. -/
theorem v31_at (lb : SB.Idx → EReal) (b : Fin 16384) :
    val_main_v31 (F := Ideal) lb (ix1 b) = lb (ix1 (0 : Fin 1)) := by
  rw [val_main_v31_apply]
  unfold val_main_v30
  refine shapeCast_apply lb _ _ (ix1 (0 : Fin 1)) ?_
  show (SB.rowMajor (ix1 (0 : Fin 1))).val = (S_.rowMajor (idx_main_v31 (ix1 b))).val
  have h1 : (SB.rowMajor (ix1 (0 : Fin 1))).val < 1 := (SB.rowMajor (ix1 (0 : Fin 1))).isLt
  have h2 : (S_.rowMajor (idx_main_v31 (ix1 b))).val < 1 := (S_.rowMajor (idx_main_v31 (ix1 b))).isLt
  omega

/-! ## The result -/

/-- The reference's result is the score of every batch row. -/
theorem result_eq (m : (ℓ : Loc Cert.ReferenceIdeal.nD Cert.ReferenceIdeal.τ Cert.ReferenceIdeal.sig) → Buf (Elt Ideal) ℓ)
    (c : Dev Cert.ReferenceIdeal.nD)
    (hx : XRange (m ((c.tc : Thread nD τ).loc main_arg0))) (ho : ORange (m ((c.tc : Thread nD τ).loc main_arg1))) :
    Cert.ReferenceIdeal.Value.res_main_v33 (F := Ideal) m c
      = G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  rw [val_main_v33_eq]
  funext r
  obtain ⟨b, rfl⟩ : ∃ b, r = ix1 b := ⟨r 0, eq_ix1 r⟩
  rw [val_main_v33_apply, val_main_v32_apply, v17_at _ _ _ hx ho, v29_at _ _ _ hx ho, v31_at]
  show (linTerm _ _ _ b + _) + ffmTerm _ _ _ b = linTerm _ _ _ b + ffmTerm _ _ _ b + _
  rw [add_assoc, add_assoc, add_comm (ffmTerm _ _ _ b)]

/-- Every weakly fair execution of the reference from inputs inside the ranges ends with the result holding the score of
    every batch row, the five arguments unchanged. -/
theorem run (m : (ℓ : Loc nD τ sig) → Buf (Elt Ideal) ℓ) (ρ : Dev nD → PrngReg)
    (hx : ∀ c : Dev nD, XRange (m ((c.tc : Thread nD τ).loc main_arg0)))
    (ho : ∀ c : Dev nD, ORange (m ((c.tc : Thread nD τ).loc main_arg1))) :
    θ_run defs (onTc (τ := τ) (main (F := Ideal))) ⟨m, fun _ => 0, ρ⟩ fun r => ∀ c : Dev nD,
      r.2.mem ((c.tc : Thread nD τ).loc main_v33)
          = G (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (result_eq m c (hx c) (ho c)), (h c).2⟩)
    (Cert.ReferenceIdeal.Value.run m ρ)

end Cert.FFM.Ref

end
-- ==== Proof.PreRanges.lean ====
import proofs.«419980_j22007412425277_3_alg».proof.Pre_finite_inputs
import proofs.«419980_j22007412425277_3_alg».proof.Proof.Gen.Pre_finite_inputs
import proofs.«419980_j22007412425277_3_alg».proof.Proof.Spec
import Idealize.ShloMosaic.Lib.ReduceAll
import Idealize.ShloMosaic.Lib.StableHlo.Predicate

/-! # The index ranges the precondition grants

The precondition is a conjunction of seven "all elements satisfy" tests, each a reduction by `and`
of a comparison array. The last four compare the categorical values and the field offsets, read as
signed words, against constants: `0 ≤ x`, `x < 10000`, `0 ≤ offsets`, `offsets ≤ 90000`. A word
that is nonnegative when read signed has the same value read unsigned, so these give the unsigned
bounds the specification is stated with. -/

namespace Cert.FFM

open Idealize.ShloMosaic Idealize.ShloMosaic.ValueIdx Cert.Pre_finite_inputs

namespace Pre

/-- The result shape of a reduction over all axes has a single index. -/
theorem subsingleton_scalar : Subsingleton S_.Idx := ⟨fun a b => funext fun d => d.elim0⟩

/-- A word between `0` and a small constant `n` (exclusive), read signed, is below `n` read unsigned. -/
theorem toNat_lt_of_signed {a : BitVec 32} (n : ℕ) (hn : n < 2 ^ 31)
    (h0 : (0#32 : BitVec 32).toInt ≤ a.toInt) (h1 : a.toInt < (BitVec.ofNat 32 n).toInt) : a.toNat < n := by
  rw [StableHlo.Predicate.toInt_ofNat_small n hn] at h1
  have : (0#32 : BitVec 32).toInt = 0 := by decide
  rw [this] at h0
  rw [BitVec.toInt_eq_toNat_cond] at h0 h1
  split at h0 <;> omega

/-- A word between `0` and a small constant `n` (inclusive), read signed, is at most `n` read unsigned. -/
theorem toNat_le_of_signed {a : BitVec 32} (n : ℕ) (hn : n < 2 ^ 31)
    (h0 : (0#32 : BitVec 32).toInt ≤ a.toInt) (h1 : a.toInt ≤ (BitVec.ofNat 32 n).toInt) : a.toNat ≤ n := by
  rw [StableHlo.Predicate.toInt_ofNat_small n hn] at h1
  have : (0#32 : BitVec 32).toInt = 0 := by decide
  rw [this] at h0
  rw [BitVec.toInt_eq_toNat_cond] at h0 h1
  split at h0 <;> omega

end Pre

set_option maxHeartbeats 400000 in
/-- The precondition's four integer tests, read back as the ranges of the specification. -/
theorem ranges_of_pre {F : FTy → Type} [FloatOps F] [Cert.Pre_finite_inputs.Facts]
    (x : IVec Cert.Pre_finite_inputs.S16384x10 32) (off : IVec Cert.Pre_finite_inputs.S10 32)
    (e : FVec F Cert.Pre_finite_inputs.S10x100000x16 .f32) (l : FVec F Cert.Pre_finite_inputs.S100000x1 .f32)
    (b : FVec F Cert.Pre_finite_inputs.S1 .f32)
    (h : Cert.Pre_finite_inputs.fn (F := F) x off e l b = fun _ => 1#1) :
    Cert.FFM.XRange x ∧ Cert.FFM.ORange off := by
  haveI := Pre.subsingleton_scalar
  have h' := congrFun h (Shape.Idx.first Facts.h_S_)
  dsimp only [fn, fn_part1] at h'
  -- split the outer conjunction: the last four conjuncts are the integer tests
  obtain ⟨h', hO1⟩ := IntOp.andi_eq_one.1 h'
  obtain ⟨h', hO0⟩ := IntOp.andi_eq_one.1 h'
  obtain ⟨h', hX1⟩ := IntOp.andi_eq_one.1 h'
  obtain ⟨-, hX0⟩ := IntOp.andi_eq_one.1 h'
  refine ⟨fun bb i => ?_, fun i => ?_⟩
  · have a0 := Host.reduce_andi_all _ _ _ _ _ hX0 (ix2 bb i)
    have a1 := Host.reduce_andi_all _ _ _ _ _ hX1 (ix2 bb i)
    simp only [cmpi, StableHlo.Predicate.bcast_scalar _ Facts.h_S_, constantI] at a0 a1
    exact Pre.toNat_lt_of_signed 10000 (by norm_num) (IntOp.cmpi_sge.1 a0) (IntOp.cmpi_slt.1 a1)
  · have a0 := Host.reduce_andi_all _ _ _ _ _ hO0 (ix1 i)
    have a1 := Host.reduce_andi_all _ _ _ _ _ hO1 (ix1 i)
    simp only [cmpi, StableHlo.Predicate.bcast_scalar _ Facts.h_S_, constantI] at a0 a1
    exact Pre.toNat_le_of_signed 90000 (by norm_num) (IntOp.cmpi_sge.1 a0) (IntOp.cmpi_sle.1 a1)

end Cert.FFM
-- ==== Proof.SpecAlgebra.lean ====
import proofs.«419980_j22007412425277_3_alg».proof.Proof.Spec
import Mathlib.Algebra.BigOperators.Fin

/-! # The slab score at the categorical weight slab is the specification's score

At a lane holding one of a field's `10000` values the weight slab's linear row is the selected linear
weight, and its row `16 j + d` is coordinate `d` of the selected row of table `j`. Substituting these
entries turns the slab score termwise into the linear part plus the pair part. -/

noncomputable section

namespace Cert.FFM

open Idealize.ShloMosaic Idealize.ShloMosaic.ValueIdx

/-- On the linear row, at a lane below `10000`, the slab holds the linear weight of row `v + offsets[i]`. -/
theorem catW_lrow (off : SO.Idx → BitVec 32) (emb : SE.Idx → EReal) (lw : SL.Idx → EReal) (i : Fin 10)
    (v : ℕ) (hv : v < 10000) :
    catW off emb lw i lrow (lane v) = linAt lw (v + (off (ix1 i)).toNat) := by
  have hl : (lane v).val = v := lane_val (by omega)
  have h160 : ¬ (lrow.val < 160) := by show ¬ (160 < 160); omega
  unfold catW
  rw [hl, if_pos hv, dif_neg h160, Nat.add_comm]

/-- On row `16 j + d`, at a lane below `10000`, the slab holds coordinate `d` of row `v + offsets[i]` of table `j`:
    the quotient of `16 j + d` by `16` is `j` and the remainder is `d`. -/
theorem catW_prow (off : SO.Idx → BitVec 32) (emb : SE.Idx → EReal) (lw : SL.Idx → EReal) (i j : Fin 10) (d : Fin 16)
    (v : ℕ) (hv : v < 10000) :
    catW off emb lw i (prow j d) (lane v) = embAt emb j (v + (off (ix1 i)).toNat) d := by
  have hl : (lane v).val = v := lane_val (by omega)
  have hp : (prow j d).val = 16 * j.val + d.val := rfl
  have hlt : (prow j d).val < 160 := by rw [hp]; omega
  have hq : (prow j d).val / 16 = j.val := by rw [hp]; omega
  have hr : (prow j d).val % 16 = d.val := by rw [hp]; omega
  have hj : (⟨(prow j d).val / 16, by omega⟩ : Fin 10) = j := Fin.ext hq
  have hd : (⟨(prow j d).val % 16, Nat.mod_lt _ (by norm_num)⟩ : Fin 16) = d := Fin.ext hr
  unfold catW
  rw [hl, if_pos hv, dif_pos hlt, hj, hd, Nat.add_comm]

/-- The slab score of the categorical weight slab at a batch row's ten values is the row's linear part plus its
    pair part. -/
theorem slabScore_catW (off : SO.Idx → BitVec 32) (emb : SE.Idx → EReal) (lw : SL.Idx → EReal)
    (x : SX.Idx → BitVec 32) (b : Fin 16384)
    (hx : ∀ i : Fin 10, (x (ValueIdx.ix2 b i)).toNat < 10000) :
    slabScore (fun j => catW off emb lw (j 0) (j 1) (j 2)) (fun i => (x (ValueIdx.ix2 b i)).toNat)
      = linTerm x off lw b + ffmTerm x off emb b := by
  unfold slabScore linTerm ffmTerm pairTerm row
  congr 1
  · refine Finset.sum_congr rfl (fun i _ => ?_)
    exact catW_lrow off emb lw i _ (hx i)
  · refine Finset.sum_congr rfl (fun i _ => Finset.sum_congr rfl (fun j _ => ?_))
    by_cases hij : i < j
    · rw [if_pos hij, if_pos hij]
      refine Finset.sum_congr rfl (fun d _ => ?_)
      show catW off emb lw i (prow j d) (lane _) * catW off emb lw j (prow i d) (lane _) = _
      rw [catW_prow off emb lw i j d _ (hx i), catW_prow off emb lw j i d _ (hx j)]
    · rw [if_neg hij, if_neg hij]

/-- The score of a batch row is the slab score of the categorical weight slab at the row's values, plus the bias. -/
theorem G_eq (x : SX.Idx → BitVec 32) (off : SO.Idx → BitVec 32) (emb : SE.Idx → EReal) (lw : SL.Idx → EReal)
    (lb : SB.Idx → EReal) (hx : XRange x) (r : SR.Idx) :
    G x off emb lw lb r
      = slabScore (fun j => catW off emb lw (j 0) (j 1) (j 2)) (fun i => (x (ValueIdx.ix2 (r 0) i)).toNat)
        + lb (ValueIdx.ix1 (0 : Fin 1)) := by
  rw [slabScore_catW off emb lw x (r 0) (fun i => hx (r 0) i)]
  rfl

end Cert.FFM

end
-- ==== Proof.HostW.lean ====
import proofs.«419980_j22007412425277_3_alg».proof.Proof.Gen.KernelIdeal.Launch
import proofs.«419980_j22007412425277_3_alg».proof.Proof.Spec
import Idealize.ShloMosaic.Lib.StableHlo.Run
import Idealize.ShloMosaic.Lib.DynamicIndex
import Idealize.ShloMosaic.Lib.Pipeline.Value

/-! # The weight slab as the launch finds it

Before the launch, the host line builds the kernel's weight slab from the arguments, field by field: it takes
the field's offset word out of the offsets, cuts the block of `10000` vocabulary rows at that word out of every
(rounded) embedding table and out of the (rounded) linear weights, lays the rows along the lanes — the `10 × 16`
coordinates as `160` rows, the linear weights as one more —, pads the lanes with zeros to `10240`, and finally
stacks the ten fields' slabs. This module reads that array at an index: under the offsets' range (every block
inside the vocabulary, so that neither the wrap of a negative word nor the clamp of the cut changes the start),
entry `(i, n, v)` is the specification's `catW` of the launch's offsets, tables and linear weights. At the ideal
instance a change of float format is the identity and the integer zero converts to the real zero. -/

noncomputable section

namespace Cert.FFM.HostW

open Idealize.ShloMosaic Idealize.ShloMosaic.ValueIdx Idealize.SL.Sem
open Cert.KernelIdeal Cert.KernelIdeal.Gen

/-- The device's buffers as the launch finds them: the host line before it, run from the launch memory. -/
abbrev pre (m : (ℓ : Loc nD τ sig) → Buf (Elt Ideal) ℓ) (c : Dev nD) : Valuation τ sig (Elt Ideal) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]) (fun b => m (c, b))

/-! ## Results of operations over a literal family of operand buffers

The general result lemmas leave a family of operands under a binder (the contents of buffer number `k`);
over a literal family each operand's contents can be named at its own buffer. -/

section Results
variable {τ : Topo} {sig : RefSig} {Val : EltTy → Type}

theorem unaryIndexed2_result (a i0 i1 y : Ref sig .tc) (T : BufTy)
    (f : a.ty.Contents Val → (Fin 2 → T.Contents Val) → y.ty.Contents Val) (hT ha hix hy) (F : Valuation τ sig Val) :
    (StableHlo.unaryIndexed (τ := τ) a ![i0, i1] T y f hT ha hix hy).result F (no_index (Proc.devRef .tc y))
      = f (F (Proc.devRef .tc a))
          ![cast (congrArg (fun U : BufTy => U.Contents Val) (hT 0)) (F (Proc.devRef .tc i0)),
            cast (congrArg (fun U : BufTy => U.Contents Val) (hT 1)) (F (Proc.devRef .tc i1))] := by
  rw [StableHlo.unaryIndexed_result]; congr 1; funext k; fin_cases k <;> rfl

theorem unaryIndexed3_result (a i0 i1 i2 y : Ref sig .tc) (T : BufTy)
    (f : a.ty.Contents Val → (Fin 3 → T.Contents Val) → y.ty.Contents Val) (hT ha hix hy) (F : Valuation τ sig Val) :
    (StableHlo.unaryIndexed (τ := τ) a ![i0, i1, i2] T y f hT ha hix hy).result F (no_index (Proc.devRef .tc y))
      = f (F (Proc.devRef .tc a))
          ![cast (congrArg (fun U : BufTy => U.Contents Val) (hT 0)) (F (Proc.devRef .tc i0)),
            cast (congrArg (fun U : BufTy => U.Contents Val) (hT 1)) (F (Proc.devRef .tc i1)),
            cast (congrArg (fun U : BufTy => U.Contents Val) (hT 2)) (F (Proc.devRef .tc i2))] := by
  rw [StableHlo.unaryIndexed_result]; congr 1; funext k; fin_cases k <;> rfl

end Results

open StableHlo in
/-- The results of a literal line of operations in one pass; the literal-family lemmas above go before the general ones. -/
macro "host_results" : tactic =>
  `(tactic| (simp (disch := decide) only [after_cons, after_nil,
      unaryIndexed3_result, unaryIndexed2_result,
      nullary_result', unary_result', binary_result', ternary_result', reshape_result',
      nullary_result_ne', unary_result_ne', binary_result_ne', ternary_result_ne', reshape_result_ne',
      nary_result_ne', unaryIndexed_result_ne']))

/-! ## One field's slab as a function of the offset word and the two tables

A field's rows are cut out of the vocabulary at the field's offset word: `10000` rows of every table
(transposed so that the row runs along the lanes, the `10 × 16` coordinates stacked into `160` rows) over
the `10000` linear weights (one more row), padded with `240` zero lanes. -/

/-- The start word as the program adjusts it: a negative word (read signed) has the vocabulary's size added. -/
def start (s : S_.Idx → BitVec 32) : S_.Idx → BitVec 32 :=
  select (cmpi .slt s (constantI S_ 32 0#32)) (addi s (constantI S_ 32 100000#32)) s

/-- The `160` embedding rows of a field: the block of `10000` vocabulary rows at the start word, of every table,
    coordinates before rows, tables and coordinates merged. -/
def embPiece (s : S_.Idx → BitVec 32) (tb : S10x100000x16.Idx → EReal) : S160x10000.Idx → EReal :=
  shapeCast S160x10000
    (transpose S10x16x10000 [0, 2, 1]
      (Host.dynamicSlice S10x10000x16 tb
        (fun k => ((![constantI S_ 32 0#32, start s, constantI S_ 32 0#32] : Fin 3 → S_.Idx → BitVec 32) k (Shape.Idx.first h_S_)).toInt)
        sliceFits_S10x100000x16_S10x10000x16)
      transposes_S10x10000x16_S10x16x10000_0_2_1)
    shapeCasts_S10x16x10000_S160x10000

/-- The linear-weight row of a field: the block of `10000` weights at the start word, as one row. -/
def linPiece (s : S_.Idx → BitVec 32) (lw : S100000x1.Idx → EReal) : S1x10000.Idx → EReal :=
  transpose S1x10000 [1, 0]
    (Host.dynamicSlice S10000x1 lw
      (fun k => ((![start s, constantI S_ 32 0#32] : Fin 2 → S_.Idx → BitVec 32) k (Shape.Idx.first h_S_)).toInt)
      sliceFits_S100000x1_S10000x1)
    transposes_S10000x1_S1x10000_1_0

/-- The two pieces one over the other, padded with zero lanes to `10240`. -/
def slabOf (a : S160x10000.Idx → EReal) (b : S1x10000.Idx → EReal) : S161x10240.Idx → EReal :=
  pad S161x10240 ![0, 0] ![0, 240] ![0, 0]
    (concatenate S161x10000 0 [⟨S160x10000, a⟩, ⟨S1x10000, b⟩] concatenates_S160x10000_S1x10000_S161x10000_d0)
    (sitofp (F := Ideal) .bf16 (constantI S_ 32 0#32)) pads_S161x10000_S161x10240_000_02400 h_S_

/-- The offset word of field `k`: the one-element slice of the offsets at `k`, as a scalar. -/
def offWord (k : Nat) (h : S10.Slices ![k] S1) (off : S10.Idx → BitVec 32) : S_.Idx → BitVec 32 :=
  shapeCast S_ (extractStridedSlice S1 ![k] off h) shapeCasts_S1_S_

/-! ### The pieces read at an index -/

/-- A word of at most `90000`, read signed, is itself. -/
theorem toInt_of_le (w : BitVec 32) (h : w.toNat ≤ 90000) : w.toInt = (w.toNat : Int) := by
  rw [BitVec.toInt_eq_toNat_cond]; split <;> omega

/-- A start word that is not negative is not adjusted. -/
theorem start_apply (s : S_.Idx → BitVec 32) (i : S_.Idx) (h : (s i).toNat ≤ 90000) : start s i = s i :=
  select_slt_zero_of_nonneg s _ _ i (by rw [toInt_of_le _ h]; omega)

theorem slices_emb (o : Nat) (ho : o ≤ 90000) : S10x100000x16.Slices ![0, o, 0] S10x10000x16 :=
  ⟨rfl, fun a => match a with
    | ⟨0, _⟩ => by show 0 + 10 ≤ 10; omega
    | ⟨1, _⟩ => by show o + 10000 ≤ 100000; omega
    | ⟨2, _⟩ => by show 0 + 16 ≤ 16; omega⟩

theorem slices_lin (o : Nat) (ho : o ≤ 90000) : S100000x1.Slices ![o, 0] S10000x1 :=
  ⟨rfl, fun a => match a with
    | ⟨0, _⟩ => by show o + 10000 ≤ 100000; omega
    | ⟨1, _⟩ => by show 0 + 1 ≤ 1; omega⟩

/-- Row `n < 160`, lane `v < 10000` of the embedding rows: coordinate `n % 16` of vocabulary row `start + v` of table `n / 16`. -/
theorem embPiece_apply (s : S_.Idx → BitVec 32) (tb : S10x100000x16.Idx → EReal)
    (h : (s (Shape.Idx.first h_S_)).toNat ≤ 90000) (n : Fin 160) (v : Fin 10000) :
    embPiece s tb (ix2 n v)
      = tb (ix3 (⟨n.val / 16, by omega⟩ : Fin 10) (⟨(s (Shape.Idx.first h_S_)).toNat + v.val, by omega⟩ : Fin 100000)
          (⟨n.val % 16, Nat.mod_lt _ (by norm_num)⟩ : Fin 16)) := by
  have hn := n.isLt
  have hv := v.isLt
  unfold embPiece
  rw [Host.dynamicSlice_eq_extractStridedSlice S10x10000x16 tb _ ![0, (s (Shape.Idx.first h_S_)).toNat, 0]
    sliceFits_S10x100000x16_S10x10000x16 (slices_emb _ h) (fun a => match a with
      | ⟨0, _⟩ => rfl
      | ⟨1, _⟩ => by
          show ((start s) (Shape.Idx.first h_S_)).toInt = _
          rw [start_apply s _ h, toInt_of_le _ h]; rfl
      | ⟨2, _⟩ => rfl)]
  refine (shapeCast_apply _ _ (ix2 n v)
    (ix3 (⟨n.val / 16, by omega⟩ : Fin 10) (⟨n.val % 16, Nat.mod_lt _ (by norm_num)⟩ : Fin 16) v)
    (by rw [Shape.rowMajor_val_two, Shape.rowMajor_val_three]
        show (n.val / 16 * 16 + n.val % 16) * 10000 + v.val = n.val * 10000 + v.val
        have := Nat.div_add_mod n.val 16
        omega)).trans ?_
  refine (transpose_apply _ _ _ _
    (ix3 (⟨n.val / 16, by omega⟩ : Fin 10) v (⟨n.val % 16, Nat.mod_lt _ (by norm_num)⟩ : Fin 16))
    (fun b => match b with
      | ⟨0, _⟩ => rfl
      | ⟨1, _⟩ => rfl
      | ⟨2, _⟩ => rfl)).trans ?_
  exact extractStridedSlice_apply _ _ _ _ _ (fun a => match a with
      | ⟨0, _⟩ => by show n.val / 16 = 0 + n.val / 16; omega
      | ⟨1, _⟩ => rfl
      | ⟨2, _⟩ => by show n.val % 16 = 0 + n.val % 16; omega)

/-- Lane `v < 10000` of the linear-weight row: the weight of vocabulary row `start + v`. -/
theorem linPiece_apply (s : S_.Idx → BitVec 32) (lw : S100000x1.Idx → EReal)
    (h : (s (Shape.Idx.first h_S_)).toNat ≤ 90000) (v : Fin 10000) :
    linPiece s lw (ix2 (0 : Fin 1) v)
      = lw (ix2 (⟨(s (Shape.Idx.first h_S_)).toNat + v.val, by omega⟩ : Fin 100000) (0 : Fin 1)) := by
  have hv := v.isLt
  unfold linPiece
  rw [Host.dynamicSlice_eq_extractStridedSlice S10000x1 lw _ ![(s (Shape.Idx.first h_S_)).toNat, 0]
    sliceFits_S100000x1_S10000x1 (slices_lin _ h) (fun a => match a with
      | ⟨0, _⟩ => by
          show ((start s) (Shape.Idx.first h_S_)).toInt = _
          rw [start_apply s _ h, toInt_of_le _ h]; rfl
      | ⟨1, _⟩ => rfl)]
  refine (transpose_apply _ _ _ _ (ix2 v (0 : Fin 1))
    (fun b => match b with
      | ⟨0, _⟩ => rfl
      | ⟨1, _⟩ => rfl)).trans ?_
  exact extractStridedSlice_apply _ _ _ _ _ (fun a => match a with
      | ⟨0, _⟩ => rfl
      | ⟨1, _⟩ => rfl)

/-! ### The padded stack read at an index -/

/-- The padding value: the integer zero as a float. -/
theorem padValue : (sitofp (F := Ideal) .bf16 (constantI S_ 32 0#32) : S_.Idx → EReal) (Shape.Idx.first h_S_) = 0 := by
  show (((0#32 : BitVec 32).toInt : ℝ) : EReal) = 0
  simp

/-- A lane from `10000` on is padding. -/
theorem slabOf_apply_pad (a : S160x10000.Idx → EReal) (b : S1x10000.Idx → EReal) (n : Fin 161) (v : Fin 10240)
    (hv : ¬ v.val < 10000) : slabOf a b (ix2 n v) = 0 := by
  unfold slabOf pad
  rw [dif_neg, padValue]
  intro H
  have := (H (1 : Fin 2)).2.2
  exact hv (by
    have e : ((ix2 n v : S161x10240.Idx) ((1 : Fin 2).cast pads_S161x10000_S161x10240_000_02400.1)).val = v.val := rfl
    rw [e] at this
    have e2 : (![0, 0] : Fin 2 → Nat) 1 = 0 := rfl
    rw [e2] at this
    simpa using this)

/-- A lane below `10000` reads the stack of the two pieces at the same row and lane. -/
theorem slabOf_apply_in (a : S160x10000.Idx → EReal) (b : S1x10000.Idx → EReal) (n : Fin 161) (v : Fin 10240)
    (hv : v.val < 10000) :
    slabOf a b (ix2 n v)
      = concatenate S161x10000 0 [⟨S160x10000, a⟩, ⟨S1x10000, b⟩] concatenates_S160x10000_S1x10000_S161x10000_d0
          (ix2 n (⟨v.val, hv⟩ : Fin 10000)) := by
  have hn := n.isLt
  unfold slabOf pad
  rw [dif_pos (fun a => match a with
    | ⟨0, _⟩ => by
        refine ⟨Nat.zero_le _, ?_, ?_⟩
        · show (n.val - 0) % (0 + 1) = 0; omega
        · show (n.val - 0) / (0 + 1) < 161; rw [Nat.div_one]; omega
    | ⟨1, _⟩ => by
        refine ⟨Nat.zero_le _, ?_, ?_⟩
        · show (v.val - 0) % (0 + 1) = 0; omega
        · show (v.val - 0) / (0 + 1) < 10000; rw [Nat.div_one]; omega)]
  congr 1
  funext a
  match a with
  | ⟨0, _⟩ => exact Fin.ext (by show (n.val - 0) / (0 + 1) = n.val; rw [Nat.div_one]; omega)
  | ⟨1, _⟩ => exact Fin.ext (by show (v.val - 0) / (0 + 1) = v.val; rw [Nat.div_one]; omega)

/-- A row below `160`, a lane below `10000`: the first piece there. -/
theorem slabOf_apply_emb (a : S160x10000.Idx → EReal) (b : S1x10000.Idx → EReal) (n : Fin 161) (v : Fin 10240)
    (hv : v.val < 10000) (hn : n.val < 160) :
    slabOf a b (ix2 n v) = a (ix2 (⟨n.val, hn⟩ : Fin 160) (⟨v.val, hv⟩ : Fin 10000)) := by
  rw [slabOf_apply_in a b n v hv]
  exact concatenate_pair_apply_left (t := S161x10000) 0 a b _ _ rfl _ (fun b => match b with
    | ⟨0, _⟩ => rfl
    | ⟨1, _⟩ => rfl)

/-- Row `160`, a lane below `10000`: the second piece's one row there. -/
theorem slabOf_apply_lin (a : S160x10000.Idx → EReal) (b : S1x10000.Idx → EReal) (n : Fin 161) (v : Fin 10240)
    (hv : v.val < 10000) (hn : ¬ n.val < 160) :
    slabOf a b (ix2 n v) = b (ix2 (0 : Fin 1) (⟨v.val, hv⟩ : Fin 10000)) := by
  have hn' := n.isLt
  rw [slabOf_apply_in a b n v hv]
  exact concatenate_pair_apply_right (t := S161x10000) 0 a b _ _ rfl rfl _
    (fun b hb => match b with
      | ⟨0, _⟩ => absurd rfl hb
      | ⟨1, _⟩ => rfl)
    (by show 0 + 160 = n.val; omega)

/-- The tables rounded to the kernel's format (at the ideal instance: themselves). -/
def rndE (x : S10x100000x16.Idx → EReal) : S10x100000x16.Idx → EReal :=
  truncf (F := Ideal) (s := S10x100000x16) (φ := .f32) .bf16 x bitsLt_bf16_f32

/-- The linear weights rounded to the kernel's format (at the ideal instance: themselves). -/
def rndL (x : S100000x1.Idx → EReal) : S100000x1.Idx → EReal :=
  truncf (F := Ideal) (s := S100000x1) (φ := .f32) .bf16 x bitsLt_bf16_f32

theorem rndE_apply (x : S10x100000x16.Idx → EReal) (i : S10x100000x16.Idx) : rndE x i = x i := rfl
theorem rndL_apply (x : S100000x1.Idx → EReal) (i : S100000x1.Idx) : rndL x i = x i := rfl

/-- One field's slab, from the offsets, the tables and the linear weights. -/
def fieldSlab (k : Nat) (h : S10.Slices ![k] S1) (off : S10.Idx → BitVec 32) (tb : S10x100000x16.Idx → EReal)
    (lw : S100000x1.Idx → EReal) : S161x10240.Idx → EReal :=
  slabOf (embPiece (offWord k h off) tb) (linPiece (offWord k h off) lw)

/-! ## The host line, field by field

Each field's slab is written by two consecutive stretches of the line (the cut, transposed and stacked rows; then the
padding). A stretch pair reads the offsets and the two rounded tables, writes its own buffers only, and leaves
every other buffer as it found it. -/

section Segments

local notation "𝕍" => Valuation τ sig (Elt Ideal)

/-- The buffers field 0's two stretches write. -/
abbrev wr0 : List (Ref sig .tc) := [main_v0, main_v1, main_v2, main_v3, main_c, main_v4, main_c_0, main_v5, main_v6, main_c_1, main_c_2, main_v7, main_v8, main_v9, main_c_3, main_v10, main_c_4, main_v11, main_v12, main_c_5, main_v13, main_v14, main_v15, main_c_6, main_call0_v0, main_v16]

theorem wr0_a : (hostOps0 : List (HloOp τ sig (Elt Ideal))).Forall fun op => op.writes ⊆ (wr0.map (Proc.devRef (τ := τ) .tc)).toFinset := by
  simp only [hostOps0, List.Forall, StableHlo.nullary_writes, StableHlo.unary_writes, StableHlo.binary_writes, StableHlo.ternary_writes,
    StableHlo.reshape_writes, StableHlo.unaryIndexed_writes, Finset.singleton_subset_iff, List.mem_toFinset]
  repeat' apply And.intro
  all_goals exact List.mem_map_of_mem (by decide)

theorem wr0_b : (hostOps0_1 : List (HloOp τ sig (Elt Ideal))).Forall fun op => op.writes ⊆ (wr0.map (Proc.devRef (τ := τ) .tc)).toFinset := by
  simp only [hostOps0_1, List.Forall, StableHlo.nullary_writes, StableHlo.unary_writes, StableHlo.binary_writes, StableHlo.ternary_writes,
    StableHlo.reshape_writes, StableHlo.unaryIndexed_writes, Finset.singleton_subset_iff, List.mem_toFinset]
  repeat' apply And.intro
  all_goals exact List.mem_map_of_mem (by decide)

/-- Field 0's two stretches, run from contents `V`. -/
def seg0 (V : 𝕍) : 𝕍 := StableHlo.after hostOps0_1 (StableHlo.after hostOps0 V)

/-- They leave every buffer they do not write. -/
theorem seg0_keep (V : 𝕍) (r : Ref sig .tc) (h : r ∉ wr0) : seg0 V (Proc.devRef .tc r) = V (Proc.devRef .tc r) := by
  unfold seg0
  rw [StableHlo.after_of_writes_sub _ _ wr0_b h, StableHlo.after_of_writes_sub _ _ wr0_a h]

/-- The first stretch also rounds the two tables to the kernel's format. -/
theorem seg0_v0 (V : 𝕍) :
    (seg0 V (Proc.devRef .tc main_v0) : S10x100000x16.Idx → EReal) = rndE (V (Proc.devRef .tc main_arg2)) := by
  unfold seg0 rndE
  dsimp only [hostOps0, hostOps0_1]
  host_results

theorem seg0_v1 (V : 𝕍) :
    (seg0 V (Proc.devRef .tc main_v1) : S100000x1.Idx → EReal) = rndL (V (Proc.devRef .tc main_arg3)) := by
  unfold seg0 rndL
  dsimp only [hostOps0, hostOps0_1]
  host_results

set_option maxHeartbeats 1000000 in
/-- Field 0's slab, from the offsets and the rounded tables. -/
theorem seg0_slab (V : 𝕍) :
    (seg0 V (Proc.devRef .tc main_v16) : S161x10240.Idx → EReal)
      = fieldSlab 0 slices_S10_S1_0 (V (Proc.devRef .tc main_arg1))
          (rndE (V (Proc.devRef .tc main_arg2))) (rndL (V (Proc.devRef .tc main_arg3))) := by
  unfold seg0 fieldSlab rndE rndL
  dsimp only [hostOps0, hostOps0_1]
  host_results
  refine congrArg₂ slabOf ?_ ?_
  · host_results
    rfl
  · host_results
    rfl

/-- The buffers field 1's two stretches write. -/
abbrev wr1 : List (Ref sig .tc) := [main_v17, main_v18, main_c_7, main_v19, main_c_8, main_v20, main_v21, main_c_9, main_c_10, main_v22, main_v23, main_v24, main_c_11, main_v25, main_c_12, main_v26, main_v27, main_c_13, main_v28, main_v29, main_v30, main_c_14, main_call1_v0, main_v31]

theorem wr1_a : (hostOps0_2 : List (HloOp τ sig (Elt Ideal))).Forall fun op => op.writes ⊆ (wr1.map (Proc.devRef (τ := τ) .tc)).toFinset := by
  simp only [hostOps0_2, List.Forall, StableHlo.nullary_writes, StableHlo.unary_writes, StableHlo.binary_writes, StableHlo.ternary_writes,
    StableHlo.reshape_writes, StableHlo.unaryIndexed_writes, Finset.singleton_subset_iff, List.mem_toFinset]
  repeat' apply And.intro
  all_goals exact List.mem_map_of_mem (by decide)

theorem wr1_b : (hostOps0_3 : List (HloOp τ sig (Elt Ideal))).Forall fun op => op.writes ⊆ (wr1.map (Proc.devRef (τ := τ) .tc)).toFinset := by
  simp only [hostOps0_3, List.Forall, StableHlo.nullary_writes, StableHlo.unary_writes, StableHlo.binary_writes, StableHlo.ternary_writes,
    StableHlo.reshape_writes, StableHlo.unaryIndexed_writes, Finset.singleton_subset_iff, List.mem_toFinset]
  repeat' apply And.intro
  all_goals exact List.mem_map_of_mem (by decide)

/-- Field 1's two stretches, run from contents `V`. -/
def seg1 (V : 𝕍) : 𝕍 := StableHlo.after hostOps0_3 (StableHlo.after hostOps0_2 V)

/-- They leave every buffer they do not write. -/
theorem seg1_keep (V : 𝕍) (r : Ref sig .tc) (h : r ∉ wr1) : seg1 V (Proc.devRef .tc r) = V (Proc.devRef .tc r) := by
  unfold seg1
  rw [StableHlo.after_of_writes_sub _ _ wr1_b h, StableHlo.after_of_writes_sub _ _ wr1_a h]

set_option maxHeartbeats 1000000 in
/-- Field 1's slab, from the offsets and the rounded tables as the stretches find them. -/
theorem seg1_slab (V : 𝕍) :
    (seg1 V (Proc.devRef .tc main_v31) : S161x10240.Idx → EReal)
      = fieldSlab 1 slices_S10_S1_1 (V (Proc.devRef .tc main_arg1)) (V (Proc.devRef .tc main_v0)) (V (Proc.devRef .tc main_v1)) := by
  unfold seg1 fieldSlab
  dsimp only [hostOps0_2, hostOps0_3]
  host_results
  refine congrArg₂ slabOf ?_ ?_
  · host_results
    rfl
  · host_results
    rfl

/-- The buffers field 2's two stretches write. -/
abbrev wr2 : List (Ref sig .tc) := [main_v32, main_v33, main_c_15, main_v34, main_c_16, main_v35, main_v36, main_c_17, main_c_18, main_v37, main_v38, main_v39, main_c_19, main_v40, main_c_20, main_v41, main_v42, main_c_21, main_v43, main_v44, main_v45, main_c_22, main_call2_v0, main_v46]

theorem wr2_a : (hostOps0_4 : List (HloOp τ sig (Elt Ideal))).Forall fun op => op.writes ⊆ (wr2.map (Proc.devRef (τ := τ) .tc)).toFinset := by
  simp only [hostOps0_4, List.Forall, StableHlo.nullary_writes, StableHlo.unary_writes, StableHlo.binary_writes, StableHlo.ternary_writes,
    StableHlo.reshape_writes, StableHlo.unaryIndexed_writes, Finset.singleton_subset_iff, List.mem_toFinset]
  repeat' apply And.intro
  all_goals exact List.mem_map_of_mem (by decide)

theorem wr2_b : (hostOps0_5 : List (HloOp τ sig (Elt Ideal))).Forall fun op => op.writes ⊆ (wr2.map (Proc.devRef (τ := τ) .tc)).toFinset := by
  simp only [hostOps0_5, List.Forall, StableHlo.nullary_writes, StableHlo.unary_writes, StableHlo.binary_writes, StableHlo.ternary_writes,
    StableHlo.reshape_writes, StableHlo.unaryIndexed_writes, Finset.singleton_subset_iff, List.mem_toFinset]
  repeat' apply And.intro
  all_goals exact List.mem_map_of_mem (by decide)

/-- Field 2's two stretches, run from contents `V`. -/
def seg2 (V : 𝕍) : 𝕍 := StableHlo.after hostOps0_5 (StableHlo.after hostOps0_4 V)

/-- They leave every buffer they do not write. -/
theorem seg2_keep (V : 𝕍) (r : Ref sig .tc) (h : r ∉ wr2) : seg2 V (Proc.devRef .tc r) = V (Proc.devRef .tc r) := by
  unfold seg2
  rw [StableHlo.after_of_writes_sub _ _ wr2_b h, StableHlo.after_of_writes_sub _ _ wr2_a h]

set_option maxHeartbeats 1000000 in
/-- Field 2's slab, from the offsets and the rounded tables as the stretches find them. -/
theorem seg2_slab (V : 𝕍) :
    (seg2 V (Proc.devRef .tc main_v46) : S161x10240.Idx → EReal)
      = fieldSlab 2 slices_S10_S1_2 (V (Proc.devRef .tc main_arg1)) (V (Proc.devRef .tc main_v0)) (V (Proc.devRef .tc main_v1)) := by
  unfold seg2 fieldSlab
  dsimp only [hostOps0_4, hostOps0_5]
  host_results
  refine congrArg₂ slabOf ?_ ?_
  · host_results
    rfl
  · host_results
    rfl

/-- The buffers field 3's two stretches write. -/
abbrev wr3 : List (Ref sig .tc) := [main_v47, main_v48, main_c_23, main_v49, main_c_24, main_v50, main_v51, main_c_25, main_c_26, main_v52, main_v53, main_v54, main_c_27, main_v55, main_c_28, main_v56, main_v57, main_c_29, main_v58, main_v59, main_v60, main_c_30, main_call3_v0, main_v61]

theorem wr3_a : (hostOps0_6 : List (HloOp τ sig (Elt Ideal))).Forall fun op => op.writes ⊆ (wr3.map (Proc.devRef (τ := τ) .tc)).toFinset := by
  simp only [hostOps0_6, List.Forall, StableHlo.nullary_writes, StableHlo.unary_writes, StableHlo.binary_writes, StableHlo.ternary_writes,
    StableHlo.reshape_writes, StableHlo.unaryIndexed_writes, Finset.singleton_subset_iff, List.mem_toFinset]
  repeat' apply And.intro
  all_goals exact List.mem_map_of_mem (by decide)

theorem wr3_b : (hostOps0_7 : List (HloOp τ sig (Elt Ideal))).Forall fun op => op.writes ⊆ (wr3.map (Proc.devRef (τ := τ) .tc)).toFinset := by
  simp only [hostOps0_7, List.Forall, StableHlo.nullary_writes, StableHlo.unary_writes, StableHlo.binary_writes, StableHlo.ternary_writes,
    StableHlo.reshape_writes, StableHlo.unaryIndexed_writes, Finset.singleton_subset_iff, List.mem_toFinset]
  repeat' apply And.intro
  all_goals exact List.mem_map_of_mem (by decide)

/-- Field 3's two stretches, run from contents `V`. -/
def seg3 (V : 𝕍) : 𝕍 := StableHlo.after hostOps0_7 (StableHlo.after hostOps0_6 V)

/-- They leave every buffer they do not write. -/
theorem seg3_keep (V : 𝕍) (r : Ref sig .tc) (h : r ∉ wr3) : seg3 V (Proc.devRef .tc r) = V (Proc.devRef .tc r) := by
  unfold seg3
  rw [StableHlo.after_of_writes_sub _ _ wr3_b h, StableHlo.after_of_writes_sub _ _ wr3_a h]

set_option maxHeartbeats 1000000 in
/-- Field 3's slab, from the offsets and the rounded tables as the stretches find them. -/
theorem seg3_slab (V : 𝕍) :
    (seg3 V (Proc.devRef .tc main_v61) : S161x10240.Idx → EReal)
      = fieldSlab 3 slices_S10_S1_3 (V (Proc.devRef .tc main_arg1)) (V (Proc.devRef .tc main_v0)) (V (Proc.devRef .tc main_v1)) := by
  unfold seg3 fieldSlab
  dsimp only [hostOps0_6, hostOps0_7]
  host_results
  refine congrArg₂ slabOf ?_ ?_
  · host_results
    rfl
  · host_results
    rfl

/-- The buffers field 4's two stretches write. -/
abbrev wr4 : List (Ref sig .tc) := [main_v62, main_v63, main_c_31, main_v64, main_c_32, main_v65, main_v66, main_c_33, main_c_34, main_v67, main_v68, main_v69, main_c_35, main_v70, main_c_36, main_v71, main_v72, main_c_37, main_v73, main_v74, main_v75, main_c_38, main_call4_v0, main_v76]

theorem wr4_a : (hostOps0_8 : List (HloOp τ sig (Elt Ideal))).Forall fun op => op.writes ⊆ (wr4.map (Proc.devRef (τ := τ) .tc)).toFinset := by
  simp only [hostOps0_8, List.Forall, StableHlo.nullary_writes, StableHlo.unary_writes, StableHlo.binary_writes, StableHlo.ternary_writes,
    StableHlo.reshape_writes, StableHlo.unaryIndexed_writes, Finset.singleton_subset_iff, List.mem_toFinset]
  repeat' apply And.intro
  all_goals exact List.mem_map_of_mem (by decide)

theorem wr4_b : (hostOps0_9 : List (HloOp τ sig (Elt Ideal))).Forall fun op => op.writes ⊆ (wr4.map (Proc.devRef (τ := τ) .tc)).toFinset := by
  simp only [hostOps0_9, List.Forall, StableHlo.nullary_writes, StableHlo.unary_writes, StableHlo.binary_writes, StableHlo.ternary_writes,
    StableHlo.reshape_writes, StableHlo.unaryIndexed_writes, Finset.singleton_subset_iff, List.mem_toFinset]
  repeat' apply And.intro
  all_goals exact List.mem_map_of_mem (by decide)

/-- Field 4's two stretches, run from contents `V`. -/
def seg4 (V : 𝕍) : 𝕍 := StableHlo.after hostOps0_9 (StableHlo.after hostOps0_8 V)

/-- They leave every buffer they do not write. -/
theorem seg4_keep (V : 𝕍) (r : Ref sig .tc) (h : r ∉ wr4) : seg4 V (Proc.devRef .tc r) = V (Proc.devRef .tc r) := by
  unfold seg4
  rw [StableHlo.after_of_writes_sub _ _ wr4_b h, StableHlo.after_of_writes_sub _ _ wr4_a h]

set_option maxHeartbeats 1000000 in
/-- Field 4's slab, from the offsets and the rounded tables as the stretches find them. -/
theorem seg4_slab (V : 𝕍) :
    (seg4 V (Proc.devRef .tc main_v76) : S161x10240.Idx → EReal)
      = fieldSlab 4 slices_S10_S1_4 (V (Proc.devRef .tc main_arg1)) (V (Proc.devRef .tc main_v0)) (V (Proc.devRef .tc main_v1)) := by
  unfold seg4 fieldSlab
  dsimp only [hostOps0_8, hostOps0_9]
  host_results
  refine congrArg₂ slabOf ?_ ?_
  · host_results
    rfl
  · host_results
    rfl

/-- The buffers field 5's two stretches write. -/
abbrev wr5 : List (Ref sig .tc) := [main_v77, main_v78, main_c_39, main_v79, main_c_40, main_v80, main_v81, main_c_41, main_c_42, main_v82, main_v83, main_v84, main_c_43, main_v85, main_c_44, main_v86, main_v87, main_c_45, main_v88, main_v89, main_v90, main_c_46, main_call5_v0, main_v91]

theorem wr5_a : (hostOps0_10 : List (HloOp τ sig (Elt Ideal))).Forall fun op => op.writes ⊆ (wr5.map (Proc.devRef (τ := τ) .tc)).toFinset := by
  simp only [hostOps0_10, List.Forall, StableHlo.nullary_writes, StableHlo.unary_writes, StableHlo.binary_writes, StableHlo.ternary_writes,
    StableHlo.reshape_writes, StableHlo.unaryIndexed_writes, Finset.singleton_subset_iff, List.mem_toFinset]
  repeat' apply And.intro
  all_goals exact List.mem_map_of_mem (by decide)

theorem wr5_b : (hostOps0_11 : List (HloOp τ sig (Elt Ideal))).Forall fun op => op.writes ⊆ (wr5.map (Proc.devRef (τ := τ) .tc)).toFinset := by
  simp only [hostOps0_11, List.Forall, StableHlo.nullary_writes, StableHlo.unary_writes, StableHlo.binary_writes, StableHlo.ternary_writes,
    StableHlo.reshape_writes, StableHlo.unaryIndexed_writes, Finset.singleton_subset_iff, List.mem_toFinset]
  repeat' apply And.intro
  all_goals exact List.mem_map_of_mem (by decide)

/-- Field 5's two stretches, run from contents `V`. -/
def seg5 (V : 𝕍) : 𝕍 := StableHlo.after hostOps0_11 (StableHlo.after hostOps0_10 V)

/-- They leave every buffer they do not write. -/
theorem seg5_keep (V : 𝕍) (r : Ref sig .tc) (h : r ∉ wr5) : seg5 V (Proc.devRef .tc r) = V (Proc.devRef .tc r) := by
  unfold seg5
  rw [StableHlo.after_of_writes_sub _ _ wr5_b h, StableHlo.after_of_writes_sub _ _ wr5_a h]

set_option maxHeartbeats 1000000 in
/-- Field 5's slab, from the offsets and the rounded tables as the stretches find them. -/
theorem seg5_slab (V : 𝕍) :
    (seg5 V (Proc.devRef .tc main_v91) : S161x10240.Idx → EReal)
      = fieldSlab 5 slices_S10_S1_5 (V (Proc.devRef .tc main_arg1)) (V (Proc.devRef .tc main_v0)) (V (Proc.devRef .tc main_v1)) := by
  unfold seg5 fieldSlab
  dsimp only [hostOps0_10, hostOps0_11]
  host_results
  refine congrArg₂ slabOf ?_ ?_
  · host_results
    rfl
  · host_results
    rfl

/-- The buffers field 6's two stretches write. -/
abbrev wr6 : List (Ref sig .tc) := [main_v92, main_v93, main_c_47, main_v94, main_c_48, main_v95, main_v96, main_c_49, main_c_50, main_v97, main_v98, main_v99, main_c_51, main_v100, main_c_52, main_v101, main_v102, main_c_53, main_v103, main_v104, main_v105, main_c_54, main_call6_v0, main_v106]

theorem wr6_a : (hostOps0_12 : List (HloOp τ sig (Elt Ideal))).Forall fun op => op.writes ⊆ (wr6.map (Proc.devRef (τ := τ) .tc)).toFinset := by
  simp only [hostOps0_12, List.Forall, StableHlo.nullary_writes, StableHlo.unary_writes, StableHlo.binary_writes, StableHlo.ternary_writes,
    StableHlo.reshape_writes, StableHlo.unaryIndexed_writes, Finset.singleton_subset_iff, List.mem_toFinset]
  repeat' apply And.intro
  all_goals exact List.mem_map_of_mem (by decide)

theorem wr6_b : (hostOps0_13 : List (HloOp τ sig (Elt Ideal))).Forall fun op => op.writes ⊆ (wr6.map (Proc.devRef (τ := τ) .tc)).toFinset := by
  simp only [hostOps0_13, List.Forall, StableHlo.nullary_writes, StableHlo.unary_writes, StableHlo.binary_writes, StableHlo.ternary_writes,
    StableHlo.reshape_writes, StableHlo.unaryIndexed_writes, Finset.singleton_subset_iff, List.mem_toFinset]
  repeat' apply And.intro
  all_goals exact List.mem_map_of_mem (by decide)

/-- Field 6's two stretches, run from contents `V`. -/
def seg6 (V : 𝕍) : 𝕍 := StableHlo.after hostOps0_13 (StableHlo.after hostOps0_12 V)

/-- They leave every buffer they do not write. -/
theorem seg6_keep (V : 𝕍) (r : Ref sig .tc) (h : r ∉ wr6) : seg6 V (Proc.devRef .tc r) = V (Proc.devRef .tc r) := by
  unfold seg6
  rw [StableHlo.after_of_writes_sub _ _ wr6_b h, StableHlo.after_of_writes_sub _ _ wr6_a h]

set_option maxHeartbeats 1000000 in
/-- Field 6's slab, from the offsets and the rounded tables as the stretches find them. -/
theorem seg6_slab (V : 𝕍) :
    (seg6 V (Proc.devRef .tc main_v106) : S161x10240.Idx → EReal)
      = fieldSlab 6 slices_S10_S1_6 (V (Proc.devRef .tc main_arg1)) (V (Proc.devRef .tc main_v0)) (V (Proc.devRef .tc main_v1)) := by
  unfold seg6 fieldSlab
  dsimp only [hostOps0_12, hostOps0_13]
  host_results
  refine congrArg₂ slabOf ?_ ?_
  · host_results
    rfl
  · host_results
    rfl

/-- The buffers field 7's two stretches write. -/
abbrev wr7 : List (Ref sig .tc) := [main_v107, main_v108, main_c_55, main_v109, main_c_56, main_v110, main_v111, main_c_57, main_c_58, main_v112, main_v113, main_v114, main_c_59, main_v115, main_c_60, main_v116, main_v117, main_c_61, main_v118, main_v119, main_v120, main_c_62, main_call7_v0, main_v121]

theorem wr7_a : (hostOps0_14 : List (HloOp τ sig (Elt Ideal))).Forall fun op => op.writes ⊆ (wr7.map (Proc.devRef (τ := τ) .tc)).toFinset := by
  simp only [hostOps0_14, List.Forall, StableHlo.nullary_writes, StableHlo.unary_writes, StableHlo.binary_writes, StableHlo.ternary_writes,
    StableHlo.reshape_writes, StableHlo.unaryIndexed_writes, Finset.singleton_subset_iff, List.mem_toFinset]
  repeat' apply And.intro
  all_goals exact List.mem_map_of_mem (by decide)

theorem wr7_b : (hostOps0_15 : List (HloOp τ sig (Elt Ideal))).Forall fun op => op.writes ⊆ (wr7.map (Proc.devRef (τ := τ) .tc)).toFinset := by
  simp only [hostOps0_15, List.Forall, StableHlo.nullary_writes, StableHlo.unary_writes, StableHlo.binary_writes, StableHlo.ternary_writes,
    StableHlo.reshape_writes, StableHlo.unaryIndexed_writes, Finset.singleton_subset_iff, List.mem_toFinset]
  repeat' apply And.intro
  all_goals exact List.mem_map_of_mem (by decide)

/-- Field 7's two stretches, run from contents `V`. -/
def seg7 (V : 𝕍) : 𝕍 := StableHlo.after hostOps0_15 (StableHlo.after hostOps0_14 V)

/-- They leave every buffer they do not write. -/
theorem seg7_keep (V : 𝕍) (r : Ref sig .tc) (h : r ∉ wr7) : seg7 V (Proc.devRef .tc r) = V (Proc.devRef .tc r) := by
  unfold seg7
  rw [StableHlo.after_of_writes_sub _ _ wr7_b h, StableHlo.after_of_writes_sub _ _ wr7_a h]

set_option maxHeartbeats 1000000 in
/-- Field 7's slab, from the offsets and the rounded tables as the stretches find them. -/
theorem seg7_slab (V : 𝕍) :
    (seg7 V (Proc.devRef .tc main_v121) : S161x10240.Idx → EReal)
      = fieldSlab 7 slices_S10_S1_7 (V (Proc.devRef .tc main_arg1)) (V (Proc.devRef .tc main_v0)) (V (Proc.devRef .tc main_v1)) := by
  unfold seg7 fieldSlab
  dsimp only [hostOps0_14, hostOps0_15]
  host_results
  refine congrArg₂ slabOf ?_ ?_
  · host_results
    rfl
  · host_results
    rfl

/-- The buffers field 8's two stretches write. -/
abbrev wr8 : List (Ref sig .tc) := [main_v122, main_v123, main_c_63, main_v124, main_c_64, main_v125, main_v126, main_c_65, main_c_66, main_v127, main_v128, main_v129, main_c_67, main_v130, main_c_68, main_v131, main_v132, main_c_69, main_v133, main_v134, main_v135, main_c_70, main_call8_v0, main_v136]

theorem wr8_a : (hostOps0_16 : List (HloOp τ sig (Elt Ideal))).Forall fun op => op.writes ⊆ (wr8.map (Proc.devRef (τ := τ) .tc)).toFinset := by
  simp only [hostOps0_16, List.Forall, StableHlo.nullary_writes, StableHlo.unary_writes, StableHlo.binary_writes, StableHlo.ternary_writes,
    StableHlo.reshape_writes, StableHlo.unaryIndexed_writes, Finset.singleton_subset_iff, List.mem_toFinset]
  repeat' apply And.intro
  all_goals exact List.mem_map_of_mem (by decide)

theorem wr8_b : (hostOps0_17 : List (HloOp τ sig (Elt Ideal))).Forall fun op => op.writes ⊆ (wr8.map (Proc.devRef (τ := τ) .tc)).toFinset := by
  simp only [hostOps0_17, List.Forall, StableHlo.nullary_writes, StableHlo.unary_writes, StableHlo.binary_writes, StableHlo.ternary_writes,
    StableHlo.reshape_writes, StableHlo.unaryIndexed_writes, Finset.singleton_subset_iff, List.mem_toFinset]
  repeat' apply And.intro
  all_goals exact List.mem_map_of_mem (by decide)

/-- Field 8's two stretches, run from contents `V`. -/
def seg8 (V : 𝕍) : 𝕍 := StableHlo.after hostOps0_17 (StableHlo.after hostOps0_16 V)

/-- They leave every buffer they do not write. -/
theorem seg8_keep (V : 𝕍) (r : Ref sig .tc) (h : r ∉ wr8) : seg8 V (Proc.devRef .tc r) = V (Proc.devRef .tc r) := by
  unfold seg8
  rw [StableHlo.after_of_writes_sub _ _ wr8_b h, StableHlo.after_of_writes_sub _ _ wr8_a h]

set_option maxHeartbeats 1000000 in
/-- Field 8's slab, from the offsets and the rounded tables as the stretches find them. -/
theorem seg8_slab (V : 𝕍) :
    (seg8 V (Proc.devRef .tc main_v136) : S161x10240.Idx → EReal)
      = fieldSlab 8 slices_S10_S1_8 (V (Proc.devRef .tc main_arg1)) (V (Proc.devRef .tc main_v0)) (V (Proc.devRef .tc main_v1)) := by
  unfold seg8 fieldSlab
  dsimp only [hostOps0_16, hostOps0_17]
  host_results
  refine congrArg₂ slabOf ?_ ?_
  · host_results
    rfl
  · host_results
    rfl

/-- The buffers field 9's two stretches write. -/
abbrev wr9 : List (Ref sig .tc) := [main_v137, main_v138, main_c_71, main_v139, main_c_72, main_v140, main_v141, main_c_73, main_c_74, main_v142, main_v143, main_v144, main_c_75, main_v145, main_c_76, main_v146, main_v147, main_c_77, main_v148, main_v149, main_v150, main_c_78, main_call9_v0, main_v151]

theorem wr9_a : (hostOps0_18 : List (HloOp τ sig (Elt Ideal))).Forall fun op => op.writes ⊆ (wr9.map (Proc.devRef (τ := τ) .tc)).toFinset := by
  simp only [hostOps0_18, List.Forall, StableHlo.nullary_writes, StableHlo.unary_writes, StableHlo.binary_writes, StableHlo.ternary_writes,
    StableHlo.reshape_writes, StableHlo.unaryIndexed_writes, Finset.singleton_subset_iff, List.mem_toFinset]
  repeat' apply And.intro
  all_goals exact List.mem_map_of_mem (by decide)

theorem wr9_b : (hostOps0_19 : List (HloOp τ sig (Elt Ideal))).Forall fun op => op.writes ⊆ (wr9.map (Proc.devRef (τ := τ) .tc)).toFinset := by
  simp only [hostOps0_19, List.Forall, StableHlo.nullary_writes, StableHlo.unary_writes, StableHlo.binary_writes, StableHlo.ternary_writes,
    StableHlo.reshape_writes, StableHlo.unaryIndexed_writes, Finset.singleton_subset_iff, List.mem_toFinset]
  repeat' apply And.intro
  all_goals exact List.mem_map_of_mem (by decide)

/-- Field 9's two stretches, run from contents `V`. -/
def seg9 (V : 𝕍) : 𝕍 := StableHlo.after hostOps0_19 (StableHlo.after hostOps0_18 V)

/-- They leave every buffer they do not write. -/
theorem seg9_keep (V : 𝕍) (r : Ref sig .tc) (h : r ∉ wr9) : seg9 V (Proc.devRef .tc r) = V (Proc.devRef .tc r) := by
  unfold seg9
  rw [StableHlo.after_of_writes_sub _ _ wr9_b h, StableHlo.after_of_writes_sub _ _ wr9_a h]

set_option maxHeartbeats 1000000 in
/-- Field 9's slab, from the offsets and the rounded tables as the stretches find them. -/
theorem seg9_slab (V : 𝕍) :
    (seg9 V (Proc.devRef .tc main_v151) : S161x10240.Idx → EReal)
      = fieldSlab 9 slices_S10_S1_9 (V (Proc.devRef .tc main_arg1)) (V (Proc.devRef .tc main_v0)) (V (Proc.devRef .tc main_v1)) := by
  unfold seg9 fieldSlab
  dsimp only [hostOps0_18, hostOps0_19]
  host_results
  refine congrArg₂ slabOf ?_ ?_
  · host_results
    rfl
  · host_results
    rfl

end Segments

/-! ## The ten slabs stacked -/

/-- A slab under one more leading unit axis. -/
def bc (x : S161x10240.Idx → EReal) : S1x161x10240.Idx → EReal :=
  broadcastInDim S1x161x10240 ![1, 2] bcast_S161x10240_S1x161x10240_1_2 x

/-- Ten such, one after the other along the leading axis. -/
def stackL (a0 a1 a2 a3 a4 a5 a6 a7 a8 a9 : S1x161x10240.Idx → EReal) : S10x161x10240.Idx → EReal :=
  concatenate S10x161x10240 0
    [⟨S1x161x10240, a0⟩, ⟨S1x161x10240, a1⟩, ⟨S1x161x10240, a2⟩, ⟨S1x161x10240, a3⟩, ⟨S1x161x10240, a4⟩,
     ⟨S1x161x10240, a5⟩, ⟨S1x161x10240, a6⟩, ⟨S1x161x10240, a7⟩, ⟨S1x161x10240, a8⟩, ⟨S1x161x10240, a9⟩]
    concatenates_S1x161x10240_S1x161x10240_S1x161x10240_S1x161x10240_S1x161x10240_S1x161x10240_S1x161x10240_S1x161x10240_S1x161x10240_S1x161x10240_S10x161x10240_d0

theorem bc_apply (x : S161x10240.Idx → EReal) (n : Fin 161) (v : Fin 10240) :
    bc x (ix3 (0 : Fin 1) n v) = x (ix2 n v) := by
  unfold bc
  exact broadcastInDim_apply _ _ _ _ _ (fun a => match a with
    | ⟨0, _⟩ => rfl
    | ⟨1, _⟩ => rfl)

/-- The stack at leading coordinate `i` is its piece `i`. -/
theorem stackL_apply (g : Fin 10 → S1x161x10240.Idx → EReal) (i : Fin 10) (n : Fin 161) (v : Fin 10240) :
    stackL (g 0) (g 1) (g 2) (g 3) (g 4) (g 5) (g 6) (g 7) (g 8) (g 9) (ix3 i n v) = g i (ix3 (0 : Fin 1) n v) := by
  have e : stackL (g 0) (g 1) (g 2) (g 3) (g 4) (g 5) (g 6) (g 7) (g 8) (g 9)
      = concatenate S10x161x10240 0 (List.ofFn fun k : Fin 10 => (⟨S1x161x10240, g k⟩ : (s : Shape) × (s.Idx → EReal)))
          concatenates_S1x161x10240_S1x161x10240_S1x161x10240_S1x161x10240_S1x161x10240_S1x161x10240_S1x161x10240_S1x161x10240_S1x161x10240_S1x161x10240_S10x161x10240_d0 := rfl
  rw [e]
  exact concatenate_ofFn_unit_apply (t := S10x161x10240) 0 g _ rfl rfl _ i rfl _ (fun b hb => match b with
    | ⟨0, _⟩ => absurd rfl hb
    | ⟨1, _⟩ => rfl
    | ⟨2, _⟩ => rfl)

section Assembly

local notation "𝕍" => Valuation τ sig (Elt Ideal)

/-- The ten stretch pairs in order. -/
def allSegs (V : 𝕍) : 𝕍 := seg9 (seg8 (seg7 (seg6 (seg5 (seg4 (seg3 (seg2 (seg1 (seg0 (V))))))))))

/-- The last stretch puts each slab under a leading unit axis and stacks the ten. -/
theorem last_stack (W : 𝕍) :
    (StableHlo.after hostOps0_20 W (Proc.devRef .tc main_v162) : S10x161x10240.Idx → EReal)
      = stackL (bc (W (Proc.devRef .tc main_v16))) (bc (W (Proc.devRef .tc main_v31))) (bc (W (Proc.devRef .tc main_v46))) (bc (W (Proc.devRef .tc main_v61))) (bc (W (Proc.devRef .tc main_v76))) (bc (W (Proc.devRef .tc main_v91))) (bc (W (Proc.devRef .tc main_v106))) (bc (W (Proc.devRef .tc main_v121))) (bc (W (Proc.devRef .tc main_v136))) (bc (W (Proc.devRef .tc main_v151))) := by
  dsimp only [hostOps0_20]
  simp only [StableHlo.after_cons, StableHlo.after_nil, StableHlo.nary_result']
  show stackL _ _ _ _ _ _ _ _ _ _ = stackL _ _ _ _ _ _ _ _ _ _
  refine congr (congr (congr (congr (congr (congr (congr (congr (congr (congrArg stackL ?_) ?_) ?_) ?_) ?_) ?_) ?_) ?_) ?_) ?_
  · show (_ : 𝕍) (Proc.devRef .tc main_v152) = _
    unfold bc
    host_results
  · show (_ : 𝕍) (Proc.devRef .tc main_v153) = _
    unfold bc
    host_results
  · show (_ : 𝕍) (Proc.devRef .tc main_v154) = _
    unfold bc
    host_results
  · show (_ : 𝕍) (Proc.devRef .tc main_v155) = _
    unfold bc
    host_results
  · show (_ : 𝕍) (Proc.devRef .tc main_v156) = _
    unfold bc
    host_results
  · show (_ : 𝕍) (Proc.devRef .tc main_v157) = _
    unfold bc
    host_results
  · show (_ : 𝕍) (Proc.devRef .tc main_v158) = _
    unfold bc
    host_results
  · show (_ : 𝕍) (Proc.devRef .tc main_v159) = _
    unfold bc
    host_results
  · show (_ : 𝕍) (Proc.devRef .tc main_v160) = _
    unfold bc
    host_results
  · show (_ : 𝕍) (Proc.devRef .tc main_v161) = _
    unfold bc
    host_results

/-- The line before the launch is the ten stretch pairs, then the stacking. -/
theorem pre_eq (m : (ℓ : Loc nD τ sig) → Buf (Elt Ideal) ℓ) (c : Dev nD) :
    pre m c = StableHlo.after hostOps0_20 (allSegs (fun b => m (c, b))) := by
  unfold pre allSegs seg0 seg1 seg2 seg3 seg4 seg5 seg6 seg7 seg8 seg9
  simp only [List.flatten_cons, List.flatten_nil, List.append_nil, StableHlo.after_append]

theorem field0 (V : 𝕍) :
    (allSegs V (Proc.devRef .tc main_v16) : S161x10240.Idx → EReal)
      = fieldSlab 0 slices_S10_S1_0 (V (Proc.devRef .tc main_arg1)) (rndE (V (Proc.devRef .tc main_arg2))) (rndL (V (Proc.devRef .tc main_arg3))) := by
  unfold allSegs
  rw [seg9_keep _ main_v16 (by decide),
    seg8_keep _ main_v16 (by decide),
    seg7_keep _ main_v16 (by decide),
    seg6_keep _ main_v16 (by decide),
    seg5_keep _ main_v16 (by decide),
    seg4_keep _ main_v16 (by decide),
    seg3_keep _ main_v16 (by decide),
    seg2_keep _ main_v16 (by decide),
    seg1_keep _ main_v16 (by decide),
    seg0_slab]

theorem field1 (V : 𝕍) :
    (allSegs V (Proc.devRef .tc main_v31) : S161x10240.Idx → EReal)
      = fieldSlab 1 slices_S10_S1_1 (V (Proc.devRef .tc main_arg1)) (rndE (V (Proc.devRef .tc main_arg2))) (rndL (V (Proc.devRef .tc main_arg3))) := by
  unfold allSegs
  rw [seg9_keep _ main_v31 (by decide),
    seg8_keep _ main_v31 (by decide),
    seg7_keep _ main_v31 (by decide),
    seg6_keep _ main_v31 (by decide),
    seg5_keep _ main_v31 (by decide),
    seg4_keep _ main_v31 (by decide),
    seg3_keep _ main_v31 (by decide),
    seg2_keep _ main_v31 (by decide),
    seg1_slab,
    seg0_keep _ main_arg1 (by decide),
    seg0_v0,
    seg0_v1]

theorem field2 (V : 𝕍) :
    (allSegs V (Proc.devRef .tc main_v46) : S161x10240.Idx → EReal)
      = fieldSlab 2 slices_S10_S1_2 (V (Proc.devRef .tc main_arg1)) (rndE (V (Proc.devRef .tc main_arg2))) (rndL (V (Proc.devRef .tc main_arg3))) := by
  unfold allSegs
  rw [seg9_keep _ main_v46 (by decide),
    seg8_keep _ main_v46 (by decide),
    seg7_keep _ main_v46 (by decide),
    seg6_keep _ main_v46 (by decide),
    seg5_keep _ main_v46 (by decide),
    seg4_keep _ main_v46 (by decide),
    seg3_keep _ main_v46 (by decide),
    seg2_slab,
    seg1_keep _ main_arg1 (by decide),
    seg0_keep _ main_arg1 (by decide),
    seg1_keep _ main_v0 (by decide),
    seg0_v0,
    seg1_keep _ main_v1 (by decide),
    seg0_v1]

theorem field3 (V : 𝕍) :
    (allSegs V (Proc.devRef .tc main_v61) : S161x10240.Idx → EReal)
      = fieldSlab 3 slices_S10_S1_3 (V (Proc.devRef .tc main_arg1)) (rndE (V (Proc.devRef .tc main_arg2))) (rndL (V (Proc.devRef .tc main_arg3))) := by
  unfold allSegs
  rw [seg9_keep _ main_v61 (by decide),
    seg8_keep _ main_v61 (by decide),
    seg7_keep _ main_v61 (by decide),
    seg6_keep _ main_v61 (by decide),
    seg5_keep _ main_v61 (by decide),
    seg4_keep _ main_v61 (by decide),
    seg3_slab,
    seg2_keep _ main_arg1 (by decide),
    seg1_keep _ main_arg1 (by decide),
    seg0_keep _ main_arg1 (by decide),
    seg2_keep _ main_v0 (by decide),
    seg1_keep _ main_v0 (by decide),
    seg0_v0,
    seg2_keep _ main_v1 (by decide),
    seg1_keep _ main_v1 (by decide),
    seg0_v1]

theorem field4 (V : 𝕍) :
    (allSegs V (Proc.devRef .tc main_v76) : S161x10240.Idx → EReal)
      = fieldSlab 4 slices_S10_S1_4 (V (Proc.devRef .tc main_arg1)) (rndE (V (Proc.devRef .tc main_arg2))) (rndL (V (Proc.devRef .tc main_arg3))) := by
  unfold allSegs
  rw [seg9_keep _ main_v76 (by decide),
    seg8_keep _ main_v76 (by decide),
    seg7_keep _ main_v76 (by decide),
    seg6_keep _ main_v76 (by decide),
    seg5_keep _ main_v76 (by decide),
    seg4_slab,
    seg3_keep _ main_arg1 (by decide),
    seg2_keep _ main_arg1 (by decide),
    seg1_keep _ main_arg1 (by decide),
    seg0_keep _ main_arg1 (by decide),
    seg3_keep _ main_v0 (by decide),
    seg2_keep _ main_v0 (by decide),
    seg1_keep _ main_v0 (by decide),
    seg0_v0,
    seg3_keep _ main_v1 (by decide),
    seg2_keep _ main_v1 (by decide),
    seg1_keep _ main_v1 (by decide),
    seg0_v1]

theorem field5 (V : 𝕍) :
    (allSegs V (Proc.devRef .tc main_v91) : S161x10240.Idx → EReal)
      = fieldSlab 5 slices_S10_S1_5 (V (Proc.devRef .tc main_arg1)) (rndE (V (Proc.devRef .tc main_arg2))) (rndL (V (Proc.devRef .tc main_arg3))) := by
  unfold allSegs
  rw [seg9_keep _ main_v91 (by decide),
    seg8_keep _ main_v91 (by decide),
    seg7_keep _ main_v91 (by decide),
    seg6_keep _ main_v91 (by decide),
    seg5_slab,
    seg4_keep _ main_arg1 (by decide),
    seg3_keep _ main_arg1 (by decide),
    seg2_keep _ main_arg1 (by decide),
    seg1_keep _ main_arg1 (by decide),
    seg0_keep _ main_arg1 (by decide),
    seg4_keep _ main_v0 (by decide),
    seg3_keep _ main_v0 (by decide),
    seg2_keep _ main_v0 (by decide),
    seg1_keep _ main_v0 (by decide),
    seg0_v0,
    seg4_keep _ main_v1 (by decide),
    seg3_keep _ main_v1 (by decide),
    seg2_keep _ main_v1 (by decide),
    seg1_keep _ main_v1 (by decide),
    seg0_v1]

theorem field6 (V : 𝕍) :
    (allSegs V (Proc.devRef .tc main_v106) : S161x10240.Idx → EReal)
      = fieldSlab 6 slices_S10_S1_6 (V (Proc.devRef .tc main_arg1)) (rndE (V (Proc.devRef .tc main_arg2))) (rndL (V (Proc.devRef .tc main_arg3))) := by
  unfold allSegs
  rw [seg9_keep _ main_v106 (by decide),
    seg8_keep _ main_v106 (by decide),
    seg7_keep _ main_v106 (by decide),
    seg6_slab,
    seg5_keep _ main_arg1 (by decide),
    seg4_keep _ main_arg1 (by decide),
    seg3_keep _ main_arg1 (by decide),
    seg2_keep _ main_arg1 (by decide),
    seg1_keep _ main_arg1 (by decide),
    seg0_keep _ main_arg1 (by decide),
    seg5_keep _ main_v0 (by decide),
    seg4_keep _ main_v0 (by decide),
    seg3_keep _ main_v0 (by decide),
    seg2_keep _ main_v0 (by decide),
    seg1_keep _ main_v0 (by decide),
    seg0_v0,
    seg5_keep _ main_v1 (by decide),
    seg4_keep _ main_v1 (by decide),
    seg3_keep _ main_v1 (by decide),
    seg2_keep _ main_v1 (by decide),
    seg1_keep _ main_v1 (by decide),
    seg0_v1]

theorem field7 (V : 𝕍) :
    (allSegs V (Proc.devRef .tc main_v121) : S161x10240.Idx → EReal)
      = fieldSlab 7 slices_S10_S1_7 (V (Proc.devRef .tc main_arg1)) (rndE (V (Proc.devRef .tc main_arg2))) (rndL (V (Proc.devRef .tc main_arg3))) := by
  unfold allSegs
  rw [seg9_keep _ main_v121 (by decide),
    seg8_keep _ main_v121 (by decide),
    seg7_slab,
    seg6_keep _ main_arg1 (by decide),
    seg5_keep _ main_arg1 (by decide),
    seg4_keep _ main_arg1 (by decide),
    seg3_keep _ main_arg1 (by decide),
    seg2_keep _ main_arg1 (by decide),
    seg1_keep _ main_arg1 (by decide),
    seg0_keep _ main_arg1 (by decide),
    seg6_keep _ main_v0 (by decide),
    seg5_keep _ main_v0 (by decide),
    seg4_keep _ main_v0 (by decide),
    seg3_keep _ main_v0 (by decide),
    seg2_keep _ main_v0 (by decide),
    seg1_keep _ main_v0 (by decide),
    seg0_v0,
    seg6_keep _ main_v1 (by decide),
    seg5_keep _ main_v1 (by decide),
    seg4_keep _ main_v1 (by decide),
    seg3_keep _ main_v1 (by decide),
    seg2_keep _ main_v1 (by decide),
    seg1_keep _ main_v1 (by decide),
    seg0_v1]

theorem field8 (V : 𝕍) :
    (allSegs V (Proc.devRef .tc main_v136) : S161x10240.Idx → EReal)
      = fieldSlab 8 slices_S10_S1_8 (V (Proc.devRef .tc main_arg1)) (rndE (V (Proc.devRef .tc main_arg2))) (rndL (V (Proc.devRef .tc main_arg3))) := by
  unfold allSegs
  rw [seg9_keep _ main_v136 (by decide),
    seg8_slab,
    seg7_keep _ main_arg1 (by decide),
    seg6_keep _ main_arg1 (by decide),
    seg5_keep _ main_arg1 (by decide),
    seg4_keep _ main_arg1 (by decide),
    seg3_keep _ main_arg1 (by decide),
    seg2_keep _ main_arg1 (by decide),
    seg1_keep _ main_arg1 (by decide),
    seg0_keep _ main_arg1 (by decide),
    seg7_keep _ main_v0 (by decide),
    seg6_keep _ main_v0 (by decide),
    seg5_keep _ main_v0 (by decide),
    seg4_keep _ main_v0 (by decide),
    seg3_keep _ main_v0 (by decide),
    seg2_keep _ main_v0 (by decide),
    seg1_keep _ main_v0 (by decide),
    seg0_v0,
    seg7_keep _ main_v1 (by decide),
    seg6_keep _ main_v1 (by decide),
    seg5_keep _ main_v1 (by decide),
    seg4_keep _ main_v1 (by decide),
    seg3_keep _ main_v1 (by decide),
    seg2_keep _ main_v1 (by decide),
    seg1_keep _ main_v1 (by decide),
    seg0_v1]

theorem field9 (V : 𝕍) :
    (allSegs V (Proc.devRef .tc main_v151) : S161x10240.Idx → EReal)
      = fieldSlab 9 slices_S10_S1_9 (V (Proc.devRef .tc main_arg1)) (rndE (V (Proc.devRef .tc main_arg2))) (rndL (V (Proc.devRef .tc main_arg3))) := by
  unfold allSegs
  rw [seg9_slab,
    seg8_keep _ main_arg1 (by decide),
    seg7_keep _ main_arg1 (by decide),
    seg6_keep _ main_arg1 (by decide),
    seg5_keep _ main_arg1 (by decide),
    seg4_keep _ main_arg1 (by decide),
    seg3_keep _ main_arg1 (by decide),
    seg2_keep _ main_arg1 (by decide),
    seg1_keep _ main_arg1 (by decide),
    seg0_keep _ main_arg1 (by decide),
    seg8_keep _ main_v0 (by decide),
    seg7_keep _ main_v0 (by decide),
    seg6_keep _ main_v0 (by decide),
    seg5_keep _ main_v0 (by decide),
    seg4_keep _ main_v0 (by decide),
    seg3_keep _ main_v0 (by decide),
    seg2_keep _ main_v0 (by decide),
    seg1_keep _ main_v0 (by decide),
    seg0_v0,
    seg8_keep _ main_v1 (by decide),
    seg7_keep _ main_v1 (by decide),
    seg6_keep _ main_v1 (by decide),
    seg5_keep _ main_v1 (by decide),
    seg4_keep _ main_v1 (by decide),
    seg3_keep _ main_v1 (by decide),
    seg2_keep _ main_v1 (by decide),
    seg1_keep _ main_v1 (by decide),
    seg0_v1]

end Assembly

/-! ## The slab read at an index -/

theorem slicesK (k : Fin 10) : S10.Slices ![k.val] S1 :=
  ⟨rfl, fun a => match a with
    | ⟨0, _⟩ => by have := k.isLt; show k.val + 1 ≤ 10; omega⟩

/-- A field's offset word is the offsets' entry of that field. -/
theorem offWord_apply (k : Fin 10) (h : S10.Slices ![k.val] S1) (off : S10.Idx → BitVec 32) (i : S_.Idx) :
    offWord k.val h off i = off (ix1 k) := by
  unfold offWord
  refine (shapeCast_apply _ _ i (ix1 (0 : Fin 1)) (by
    have e : S_.numel = 1 := rfl
    have := (S_.rowMajor i).isLt
    rw [Shape.rowMajor_val_one]
    show 0 = (S_.rowMajor i).val
    omega)).trans ?_
  exact extractStridedSlice_apply _ _ _ _ _ (fun a => match a with
    | ⟨0, _⟩ => by show k.val = k.val + 0; omega)

/-- One field's slab at row `n`, lane `v`, under the offset's range: the weight slab of the specification. -/
theorem fieldSlab_apply (k : Fin 10) (h : S10.Slices ![k.val] S1) (off : S10.Idx → BitVec 32)
    (emb : S10x100000x16.Idx → EReal) (lw : S100000x1.Idx → EReal) (ho : (off (ix1 k)).toNat ≤ 90000)
    (n : Fin 161) (v : Fin 10240) :
    fieldSlab k.val h off (rndE emb) (rndL lw) (ix2 n v) = Cert.FFM.catW off emb lw k n v := by
  have hs : (offWord k.val h off (Shape.Idx.first h_S_)).toNat ≤ 90000 := by rw [offWord_apply]; exact ho
  unfold fieldSlab Cert.FFM.catW
  by_cases hv : v.val < 10000
  · rw [if_pos hv]
    by_cases hn : n.val < 160
    · rw [dif_pos hn, slabOf_apply_emb _ _ n v hv hn, embPiece_apply _ _ hs, rndE_apply]
      unfold Cert.FFM.embAt
      congr 1
      funext a
      match a with
      | ⟨0, _⟩ => rfl
      | ⟨1, _⟩ =>
        refine Fin.ext ?_
        show (offWord k.val h off (Shape.Idx.first h_S_)).toNat + v.val = (Cert.FFM.vrow _).val
        rw [Cert.FFM.vrow_val (by omega), offWord_apply]
      | ⟨2, _⟩ => rfl
    · rw [dif_neg hn, slabOf_apply_lin _ _ n v hv hn, linPiece_apply _ _ hs, rndL_apply]
      unfold Cert.FFM.linAt
      congr 1
      funext a
      match a with
      | ⟨0, _⟩ =>
        refine Fin.ext ?_
        show (offWord k.val h off (Shape.Idx.first h_S_)).toNat + v.val = (Cert.FFM.vrow _).val
        rw [Cert.FFM.vrow_val (by omega), offWord_apply]
      | ⟨1, _⟩ => rfl
  · rw [if_neg hv, slabOf_apply_pad _ _ n v hv]

/-! ## The weight slab as the launch finds it -/

/-- The array the launch's weight window reads, at field `i`, row `n`, lane `v`: the specification's weight slab of the
    launch's offsets, tables and linear weights. -/
theorem slab_apply (m : (ℓ : Loc nD τ sig) → Buf (Elt Ideal) ℓ) (c : Dev nD)
    (ho : Cert.FFM.ORange (m ((c.tc : Thread _ _).loc main_arg1))) (i : Fin 10) (n : Fin 161) (v : Fin 10240) :
    (pre m c (Proc.devRef .tc main_v162) : S10x161x10240.Idx → EReal) (ix3 i n v)
      = Cert.FFM.catW (m ((c.tc : Thread _ _).loc main_arg1)) (m ((c.tc : Thread _ _).loc main_arg2))
          (m ((c.tc : Thread _ _).loc main_arg3)) i n v := by
  rw [pre_eq, last_stack, field0, field1, field2, field3, field4, field5, field6, field7, field8, field9]
  refine (stackL_apply (fun k : Fin 10 => bc (fieldSlab k.val (slicesK k) (m ((c.tc : Thread _ _).loc main_arg1))
    (rndE (m ((c.tc : Thread _ _).loc main_arg2))) (rndL (m ((c.tc : Thread _ _).loc main_arg3))))) i n v).trans ?_
  rw [bc_apply]
  exact fieldSlab_apply i _ _ _ _ (ho i) n v

end Cert.FFM.HostW

end
-- ==== Proof.BodyPiece.lean ====
/- # The value the kernel body stores, as a pure function of its two input blocks

The body reads its block of categorical values (256 batch rows by 10 fields) and fifty slices of the weight
slab (field `i`, all 161 rows, 2048 consecutive lanes), and stores one vector of 256 scores. `bodyVal` is that
vector written out as a chain of the body's arithmetic steps over the two blocks; `outBlock_eq` says the
block the body leaves is `bodyVal`; `ld_slice_apply` reads a slab slice at an index. -/
import proofs.«419980_j22007412425277_3_alg».proof.Proof.FrameIdeal
import proofs.«419980_j22007412425277_3_alg».proof.Proof.Spec
import Idealize.ShloMosaic.Lib.Pipeline.Value

set_option maxRecDepth 16384

noncomputable section

namespace Cert.FFM.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.KernelIdeal.Hand

variable {F : FTy → Type} [FloatOps F]

/-- The vector of 256 scores the body stores, as a pure function of its block `x0` of categorical values and the
    weight slab `x1`: the fifty slab slices (field `i`, all 161 rows, 2048 lanes from `k`) are read, chunk by chunk
    each field's one-hot rows are multiplied into its accumulator, and the accumulators are combined into the
    linear part and the pair products. -/
noncomputable def bodyVal (x0 : Vec F S256x10 .i32) (x1 : Vec F S10x161x10240 .bf16) : FVec F S256 .f32 :=
  -- the block of categorical values, the ten zero accumulators, the lane numbers
  let v0 : Vec F S256x10 .i32 := x0
  let v2 : FVec F S256x161 .f32 := k0_pay2 (F := F)
  let v3 : FVec F S256x161 .f32 := k0_pay3 (F := F)
  let v4 : FVec F S256x161 .f32 := k0_pay4 (F := F)
  let v5 : FVec F S256x161 .f32 := k0_pay5 (F := F)
  let v6 : FVec F S256x161 .f32 := k0_pay6 (F := F)
  let v7 : FVec F S256x161 .f32 := k0_pay7 (F := F)
  let v8 : FVec F S256x161 .f32 := k0_pay8 (F := F)
  let v9 : FVec F S256x161 .f32 := k0_pay9 (F := F)
  let v10 : FVec F S256x161 .f32 := k0_pay10 (F := F)
  let v11 : IVec S256x2048 32 := iota .tc S256x2048 32 [1] iota_S256x2048_d1_w32
  -- chunk 0 (lanes 0 … 2047)
  let v22 : Vec F S1x161x2048 .bf16 := View.ld x1 (Rect.unit (s := S10x161x10240) ![0, 0, 0] S1x161x2048.size inb_S10x161x10240_S1x161x2048_0_0_0)
  let v36 : Vec F S1x161x2048 .bf16 := View.ld x1 (Rect.unit (s := S10x161x10240) ![1, 0, 0] S1x161x2048.size inb_S10x161x10240_S1x161x2048_1_0_0)
  let v25 : FVec F S256x161 .f32 := k0_pay11 v0 v22
  let v35 : FVec F S256x2048 .bf16 := k0_pay12 v0
  let v37 : FVec F S161x2048 .bf16 := k0_pay13 v36
  let v50 : Vec F S1x161x2048 .bf16 := View.ld x1 (Rect.unit (s := S10x161x10240) ![2, 0, 0] S1x161x2048.size inb_S10x161x10240_S1x161x2048_2_0_0)
  let v64 : Vec F S1x161x2048 .bf16 := View.ld x1 (Rect.unit (s := S10x161x10240) ![3, 0, 0] S1x161x2048.size inb_S10x161x10240_S1x161x2048_3_0_0)
  let v78 : Vec F S1x161x2048 .bf16 := View.ld x1 (Rect.unit (s := S10x161x10240) ![4, 0, 0] S1x161x2048.size inb_S10x161x10240_S1x161x2048_4_0_0)
  let v39 : FVec F S256x161 .f32 := k0_pay14 v2 v35 v37
  let v53 : FVec F S256x161 .f32 := k0_pay15 v0 v3 v11 v50
  let v67 : FVec F S256x161 .f32 := k0_pay16 v0 v4 v11 v64
  let v81 : FVec F S256x161 .f32 := k0_pay17 v0 v5 v11 v78
  let v92 : Vec F S1x161x2048 .bf16 := View.ld x1 (Rect.unit (s := S10x161x10240) ![5, 0, 0] S1x161x2048.size inb_S10x161x10240_S1x161x2048_5_0_0)
  let v106 : Vec F S1x161x2048 .bf16 := View.ld x1 (Rect.unit (s := S10x161x10240) ![6, 0, 0] S1x161x2048.size inb_S10x161x10240_S1x161x2048_6_0_0)
  let v120 : Vec F S1x161x2048 .bf16 := View.ld x1 (Rect.unit (s := S10x161x10240) ![7, 0, 0] S1x161x2048.size inb_S10x161x10240_S1x161x2048_7_0_0)
  let v95 : FVec F S256x161 .f32 := k0_pay18 v0 v6 v11 v92
  let v109 : FVec F S256x161 .f32 := k0_pay19 v0 v7 v11 v106
  let v123 : FVec F S256x161 .f32 := k0_pay20 v0 v8 v11 v120
  let v125 : IVec S256 32 := k0_pay21 v0
  let c0_i32_42 : BitVec 32 := 0#32
  let v134 : Vec F S1x161x2048 .bf16 := View.ld x1 (Rect.unit (s := S10x161x10240) ![8, 0, 0] S1x161x2048.size inb_S10x161x10240_S1x161x2048_8_0_0)
  let v148 : Vec F S1x161x2048 .bf16 := View.ld x1 (Rect.unit (s := S10x161x10240) ![9, 0, 0] S1x161x2048.size inb_S10x161x10240_S1x161x2048_9_0_0)
  let v152 : IVec S256x2048 32 := iota .tc S256x2048 32 [1] iota_S256x2048_d1_w32
  -- chunk 1 (lanes 2048 … 4095)
  let v163 : Vec F S1x161x2048 .bf16 := View.ld x1 (Rect.unit (s := S10x161x10240) ![0, 0, 2048] S1x161x2048.size inb_S10x161x10240_S1x161x2048_0_0_2048)
  let v137 : FVec F S256x161 .f32 := k0_pay22 v9 v11 v125 c0_i32_42 v134
  let v151 : FVec F S256x161 .f32 := k0_pay23 v0 v10 v11 v148
  let v166 : FVec F S256x161 .f32 := k0_pay24 v0 v25 v163
  let v170 : IVec S256 32 := k0_pay25 v0
  let v177 : Vec F S1x161x2048 .bf16 := View.ld x1 (Rect.unit (s := S10x161x10240) ![1, 0, 2048] S1x161x2048.size inb_S10x161x10240_S1x161x2048_1_0_2048)
  let v191 : Vec F S1x161x2048 .bf16 := View.ld x1 (Rect.unit (s := S10x161x10240) ![2, 0, 2048] S1x161x2048.size inb_S10x161x10240_S1x161x2048_2_0_2048)
  let v205 : Vec F S1x161x2048 .bf16 := View.ld x1 (Rect.unit (s := S10x161x10240) ![3, 0, 2048] S1x161x2048.size inb_S10x161x10240_S1x161x2048_3_0_2048)
  let v180 : FVec F S256x161 .f32 := k0_pay26 v39 v152 v170 v177
  let v194 : FVec F S256x161 .f32 := k0_pay27 v0 v53 v152 v191
  let v208 : FVec F S256x161 .f32 := k0_pay28 v0 v67 v152 v205
  let v215 : IVec S256x2048 1 := k0_pay29 v0 v152
  let v219 : Vec F S1x161x2048 .bf16 := View.ld x1 (Rect.unit (s := S10x161x10240) ![4, 0, 2048] S1x161x2048.size inb_S10x161x10240_S1x161x2048_4_0_2048)
  let v233 : Vec F S1x161x2048 .bf16 := View.ld x1 (Rect.unit (s := S10x161x10240) ![5, 0, 2048] S1x161x2048.size inb_S10x161x10240_S1x161x2048_5_0_2048)
  let v247 : Vec F S1x161x2048 .bf16 := View.ld x1 (Rect.unit (s := S10x161x10240) ![6, 0, 2048] S1x161x2048.size inb_S10x161x10240_S1x161x2048_6_0_2048)
  let v222 : FVec F S256x161 .f32 := k0_pay30 v81 v215 v219
  let v236 : FVec F S256x161 .f32 := k0_pay31 v0 v95 v152 v233
  let v250 : FVec F S256x161 .f32 := k0_pay32 v0 v109 v152 v247
  let v260 : FVec F S256x2048 .bf16 := k0_pay33 v0 v152
  let v261 : Vec F S1x161x2048 .bf16 := View.ld x1 (Rect.unit (s := S10x161x10240) ![7, 0, 2048] S1x161x2048.size inb_S10x161x10240_S1x161x2048_7_0_2048)
  let v275 : Vec F S1x161x2048 .bf16 := View.ld x1 (Rect.unit (s := S10x161x10240) ![8, 0, 2048] S1x161x2048.size inb_S10x161x10240_S1x161x2048_8_0_2048)
  let v289 : Vec F S1x161x2048 .bf16 := View.ld x1 (Rect.unit (s := S10x161x10240) ![9, 0, 2048] S1x161x2048.size inb_S10x161x10240_S1x161x2048_9_0_2048)
  let v293 : IVec S256x2048 32 := iota .tc S256x2048 32 [1] iota_S256x2048_d1_w32
  let v264 : FVec F S256x161 .f32 := k0_pay34 v123 v260 v261
  let v278 : FVec F S256x161 .f32 := k0_pay35 v0 v137 v152 v275
  let v292 : FVec F S256x161 .f32 := k0_pay36 v0 v151 v152 v289
  let v303 : FVec F S256x2048 .bf16 := k0_pay37 v0
  -- chunk 2 (lanes 4096 … 6143)
  let v304 : Vec F S1x161x2048 .bf16 := View.ld x1 (Rect.unit (s := S10x161x10240) ![0, 0, 4096] S1x161x2048.size inb_S10x161x10240_S1x161x2048_0_0_4096)
  let v318 : Vec F S1x161x2048 .bf16 := View.ld x1 (Rect.unit (s := S10x161x10240) ![1, 0, 4096] S1x161x2048.size inb_S10x161x10240_S1x161x2048_1_0_4096)
  let v332 : Vec F S1x161x2048 .bf16 := View.ld x1 (Rect.unit (s := S10x161x10240) ![2, 0, 4096] S1x161x2048.size inb_S10x161x10240_S1x161x2048_2_0_4096)
  let v346 : Vec F S1x161x2048 .bf16 := View.ld x1 (Rect.unit (s := S10x161x10240) ![3, 0, 4096] S1x161x2048.size inb_S10x161x10240_S1x161x2048_3_0_4096)
  let v307 : FVec F S256x161 .f32 := k0_pay38 v166 v303 v304
  let v321 : FVec F S256x161 .f32 := k0_pay39 v0 v180 v293 v318
  let v335 : FVec F S256x161 .f32 := k0_pay40 v0 v194 v293 v332
  let v345 : FVec F S256x2048 .bf16 := k0_pay41 v0 v293
  let v347 : FVec F S161x2048 .bf16 := k0_pay42 v346
  let v360 : Vec F S1x161x2048 .bf16 := View.ld x1 (Rect.unit (s := S10x161x10240) ![4, 0, 4096] S1x161x2048.size inb_S10x161x10240_S1x161x2048_4_0_4096)
  let v374 : Vec F S1x161x2048 .bf16 := View.ld x1 (Rect.unit (s := S10x161x10240) ![5, 0, 4096] S1x161x2048.size inb_S10x161x10240_S1x161x2048_5_0_4096)
  let v388 : Vec F S1x161x2048 .bf16 := View.ld x1 (Rect.unit (s := S10x161x10240) ![6, 0, 4096] S1x161x2048.size inb_S10x161x10240_S1x161x2048_6_0_4096)
  let v349 : FVec F S256x161 .f32 := k0_pay43 v208 v345 v347
  let v363 : FVec F S256x161 .f32 := k0_pay44 v0 v222 v293 v360
  let v377 : FVec F S256x161 .f32 := k0_pay45 v0 v236 v293 v374
  let v391 : FVec F S256x161 .f32 := k0_pay46 v0 v250 v293 v388
  let v402 : Vec F S1x161x2048 .bf16 := View.ld x1 (Rect.unit (s := S10x161x10240) ![7, 0, 4096] S1x161x2048.size inb_S10x161x10240_S1x161x2048_7_0_4096)
  let v416 : Vec F S1x161x2048 .bf16 := View.ld x1 (Rect.unit (s := S10x161x10240) ![8, 0, 4096] S1x161x2048.size inb_S10x161x10240_S1x161x2048_8_0_4096)
  let v430 : Vec F S1x161x2048 .bf16 := View.ld x1 (Rect.unit (s := S10x161x10240) ![9, 0, 4096] S1x161x2048.size inb_S10x161x10240_S1x161x2048_9_0_4096)
  let v434 : IVec S256x2048 32 := iota .tc S256x2048 32 [1] iota_S256x2048_d1_w32
  let v405 : FVec F S256x161 .f32 := k0_pay47 v0 v264 v293 v402
  let v419 : FVec F S256x161 .f32 := k0_pay48 v0 v278 v293 v416
  let v433 : FVec F S256x161 .f32 := k0_pay49 v0 v292 v293 v430
  let v436 : IVec S256 32 := k0_pay50 v0
  -- chunk 3 (lanes 6144 … 8191)
  let v445 : Vec F S1x161x2048 .bf16 := View.ld x1 (Rect.unit (s := S10x161x10240) ![0, 0, 6144] S1x161x2048.size inb_S10x161x10240_S1x161x2048_0_0_6144)
  let v459 : Vec F S1x161x2048 .bf16 := View.ld x1 (Rect.unit (s := S10x161x10240) ![1, 0, 6144] S1x161x2048.size inb_S10x161x10240_S1x161x2048_1_0_6144)
  let v473 : Vec F S1x161x2048 .bf16 := View.ld x1 (Rect.unit (s := S10x161x10240) ![2, 0, 6144] S1x161x2048.size inb_S10x161x10240_S1x161x2048_2_0_6144)
  let v448 : FVec F S256x161 .f32 := k0_pay51 v307 v434 v436 v445
  let v462 : FVec F S256x161 .f32 := k0_pay52 v0 v321 v434 v459
  let v476 : FVec F S256x161 .f32 := k0_pay53 v0 v335 v434 v473
  let v480 : IVec S256 32 := k0_pay54 v0
  let v487 : Vec F S1x161x2048 .bf16 := View.ld x1 (Rect.unit (s := S10x161x10240) ![3, 0, 6144] S1x161x2048.size inb_S10x161x10240_S1x161x2048_3_0_6144)
  let v501 : Vec F S1x161x2048 .bf16 := View.ld x1 (Rect.unit (s := S10x161x10240) ![4, 0, 6144] S1x161x2048.size inb_S10x161x10240_S1x161x2048_4_0_6144)
  let v515 : Vec F S1x161x2048 .bf16 := View.ld x1 (Rect.unit (s := S10x161x10240) ![5, 0, 6144] S1x161x2048.size inb_S10x161x10240_S1x161x2048_5_0_6144)
  let v490 : FVec F S256x161 .f32 := k0_pay55 v349 v434 v480 v487
  let v504 : FVec F S256x161 .f32 := k0_pay56 v0 v363 v434 v501
  let v518 : FVec F S256x161 .f32 := k0_pay57 v0 v377 v434 v515
  let v525 : IVec S256x2048 1 := k0_pay58 v0 v434
  let v529 : Vec F S1x161x2048 .bf16 := View.ld x1 (Rect.unit (s := S10x161x10240) ![6, 0, 6144] S1x161x2048.size inb_S10x161x10240_S1x161x2048_6_0_6144)
  let v543 : Vec F S1x161x2048 .bf16 := View.ld x1 (Rect.unit (s := S10x161x10240) ![7, 0, 6144] S1x161x2048.size inb_S10x161x10240_S1x161x2048_7_0_6144)
  let v557 : Vec F S1x161x2048 .bf16 := View.ld x1 (Rect.unit (s := S10x161x10240) ![8, 0, 6144] S1x161x2048.size inb_S10x161x10240_S1x161x2048_8_0_6144)
  let v532 : FVec F S256x161 .f32 := k0_pay59 v391 v525 v529
  let v546 : FVec F S256x161 .f32 := k0_pay60 v0 v405 v434 v543
  let v560 : FVec F S256x161 .f32 := k0_pay61 v0 v419 v434 v557
  let v570 : FVec F S256x2048 .bf16 := k0_pay62 v0 v434
  let v571 : Vec F S1x161x2048 .bf16 := View.ld x1 (Rect.unit (s := S10x161x10240) ![9, 0, 6144] S1x161x2048.size inb_S10x161x10240_S1x161x2048_9_0_6144)
  let v575 : IVec S256x2048 32 := iota .tc S256x2048 32 [1] iota_S256x2048_d1_w32
  -- chunk 4 (lanes 8192 … 10239)
  let v586 : Vec F S1x161x2048 .bf16 := View.ld x1 (Rect.unit (s := S10x161x10240) ![0, 0, 8192] S1x161x2048.size inb_S10x161x10240_S1x161x2048_0_0_8192)
  let v600 : Vec F S1x161x2048 .bf16 := View.ld x1 (Rect.unit (s := S10x161x10240) ![1, 0, 8192] S1x161x2048.size inb_S10x161x10240_S1x161x2048_1_0_8192)
  let v574 : FVec F S256x161 .f32 := k0_pay63 v433 v570 v571
  let v589 : FVec F S256x161 .f32 := k0_pay64 v0 v448 v586
  let v603 : FVec F S256x161 .f32 := k0_pay65 v0 v462 v600
  let v613 : FVec F S256x2048 .bf16 := k0_pay66 v0
  let v614 : Vec F S1x161x2048 .bf16 := View.ld x1 (Rect.unit (s := S10x161x10240) ![2, 0, 8192] S1x161x2048.size inb_S10x161x10240_S1x161x2048_2_0_8192)
  let v628 : Vec F S1x161x2048 .bf16 := View.ld x1 (Rect.unit (s := S10x161x10240) ![3, 0, 8192] S1x161x2048.size inb_S10x161x10240_S1x161x2048_3_0_8192)
  let v642 : Vec F S1x161x2048 .bf16 := View.ld x1 (Rect.unit (s := S10x161x10240) ![4, 0, 8192] S1x161x2048.size inb_S10x161x10240_S1x161x2048_4_0_8192)
  let v656 : Vec F S1x161x2048 .bf16 := View.ld x1 (Rect.unit (s := S10x161x10240) ![5, 0, 8192] S1x161x2048.size inb_S10x161x10240_S1x161x2048_5_0_8192)
  let v617 : FVec F S256x161 .f32 := k0_pay67 v476 v613 v614
  let v631 : FVec F S256x161 .f32 := k0_pay68 v0 v490 v575 v628
  let v645 : FVec F S256x161 .f32 := k0_pay69 v0 v504 v575 v642
  let v655 : FVec F S256x2048 .bf16 := k0_pay70 v0 v575
  let v657 : FVec F S161x2048 .bf16 := k0_pay71 v656
  let v670 : Vec F S1x161x2048 .bf16 := View.ld x1 (Rect.unit (s := S10x161x10240) ![6, 0, 8192] S1x161x2048.size inb_S10x161x10240_S1x161x2048_6_0_8192)
  let v684 : Vec F S1x161x2048 .bf16 := View.ld x1 (Rect.unit (s := S10x161x10240) ![7, 0, 8192] S1x161x2048.size inb_S10x161x10240_S1x161x2048_7_0_8192)
  let v698 : Vec F S1x161x2048 .bf16 := View.ld x1 (Rect.unit (s := S10x161x10240) ![8, 0, 8192] S1x161x2048.size inb_S10x161x10240_S1x161x2048_8_0_8192)
  let v659 : FVec F S256x161 .f32 := k0_pay72 v518 v655 v657
  let v673 : FVec F S256x161 .f32 := k0_pay73 v0 v532 v575 v670
  let v687 : FVec F S256x161 .f32 := k0_pay74 v0 v546 v575 v684
  let v701 : FVec F S256x161 .f32 := k0_pay75 v0 v560 v575 v698
  let v712 : Vec F S1x161x2048 .bf16 := View.ld x1 (Rect.unit (s := S10x161x10240) ![9, 0, 8192] S1x161x2048.size inb_S10x161x10240_S1x161x2048_9_0_8192)
  -- the ten accumulators combined: the linear column and the pair products
  let v715 : FVec F S256x161 .f32 := k0_pay76 v0 v574 v575 v712
  let v746 : FVec F S256 .f32 := k0_pay77 v0 v574 v575 v589 v603 v617 v631 v645 v659 v673 v687 v701 v712
  let v752 : FVec F S256 .f32 := k0_pay78 v589 v603
  let v753 : FVec F S256x16 .f32 := k0_pay79 v589
  let v802 : FVec F S256 .f32 := k0_pay80 v589 v603 v617 v631 v645 v659 v673 v687 v701 v715 v752 v753
  let v803 : FVec F S256x16 .f32 := k0_pay81 v603
  let v852 : FVec F S256 .f32 := k0_pay82 v603 v617 v631 v645 v659 v673 v687 v701 v715 v802 v803
  let v853 : FVec F S256x16 .f32 := k0_pay83 v617
  let v902 : FVec F S256 .f32 := k0_pay84 v617 v631 v645 v659 v673 v687 v701 v715 v852 v853
  let v903 : FVec F S256x16 .f32 := k0_pay85 v645
  let v952 : FVec F S256 .f32 := k0_pay86 v645 v659 v673 v687 v701 v715 v902 v903
  let v953 : FVec F S256x16 .f32 := k0_pay87 v673
  k0_pay1 v687 v701 v715 v746 v952 v953

set_option maxHeartbeats 4000000 in
/-- What the body leaves in the output buffer is `bodyVal` of its two input blocks: its one store covers the whole
    block, so the block read back is the stored payload, in which every load reads the input block it was run on. -/
theorem outBlock_eq (c : Dev nD) (i : grid0.Coords) (arg1 : Memref sig .tc .vmem S256x10 .i32) (harg1 : arg1.IsWhole)
    (arg2 : Memref sig .tc .vmem S10x161x10240 .bf16) (harg2 : arg2.IsWhole) (arg3 : Memref sig .tc .vmem S256 .f32) (harg3 : arg3.IsWhole)
    (x0 : Vec F S256x10 .i32) (x1 : Vec F S10x161x10240 .bf16) :
    outBlock (F := F) c i arg1 harg1 arg2 harg2 arg3 harg3 x0 x1 = bodyVal x0 x1 := by
  have hz : (![0] : Fin 1 → Nat) = fun _ => 0 := by funext a; fin_cases a; rfl
  have hz2 : (![0, 0] : Fin 2 → Nat) = fun _ => 0 := by funext a; fin_cases a <;> rfl
  unfold outBlock
  rw [View.read_writes_eq_canon _ _ _ (cover_out c i arg1 harg1 arg2 harg2 arg3 harg3 x0 x1)]
  unfold bodyRun
  dsimp only
  sl_unfold_words
  rw [View.canon_unit_zero hz]
  simp only [View.readAt_eq_ld, harg1.read_unread, harg2.read_unread, View.ld_unit_zero (S := S256x10) hz2]
  rfl

/-- A slice of the weight slab read at an index: the slice of field `i` from lane `k` holds at row `n`, lane `l`
    the slab's entry at field `i`, row `n`, lane `k + l` (each coordinate is the slice's offset plus the index's). -/
theorem ld_slice_apply (x1 : Vec F S10x161x10240 .bf16) (i k : ℕ) (hi : i < 10) (hk : k + 2048 ≤ 10240)
    (h : ∀ a, (![i, 0, k] : Fin 3 → Nat) a + S1x161x2048.size a ≤ S10x161x10240.size a) (n : Fin 161) (l : Fin 2048) :
    (View.ld x1 (Rect.unit (s := S10x161x10240) ![i, 0, k] S1x161x2048.size h)) (ValueIdx.ix3 (0 : Fin 1) n l)
      = x1 (ValueIdx.ix3 (⟨i, hi⟩ : Fin 10) n (⟨k + l.val, by omega⟩ : Fin 10240)) := by
  show x1 _ = x1 _
  congr 1
  funext a
  match a with
  | ⟨0, _⟩ => exact Fin.ext (by show i + 1 * 0 = i; omega)
  | ⟨1, _⟩ => exact Fin.ext (by show 0 + 1 * n.val = n.val; omega)
  | ⟨2, _⟩ => exact Fin.ext (by show k + 1 * l.val = k + l.val; omega)

end Cert.FFM.Body

end
-- ==== Proof.BodyAcc.lean ====
import proofs.«419980_j22007412425277_3_alg».proof.Proof.Gen.KernelIdeal.Skeleton
import proofs.«419980_j22007412425277_3_alg».proof.Proof.Spec
import Idealize.ShloMosaic.Lib.ValueIdx
import Idealize.ShloMosaic.Lib.Pipeline.Value
import Idealize.ShloMosaic.Lib.ValueLayout
import Idealize.ShloMosaic.PureOps.Ideal.Laws

/-! # The accumulation steps of the kernel body, read at an index

Each of the fifty (field, chunk) steps multiplies a one-hot row — a one at lane `x - start` when the
categorical value `x` lies in the chunk that begins at `start`, zeros elsewhere — with a slice of the
weight slab and adds the product to the field's accumulator. Contracting a one-hot row against the
slice picks the slice's entry at that lane, so a step adds one `chunkTerm`. The lemmas below say this
for every piece the body was cut into, and that the five chunk terms of a field add up to the slab
entry at lane `x`. -/

noncomputable section

namespace Cert.FFM.Body

open Idealize.ShloMosaic Idealize.ShloMosaic.ValueIdx Cert.KernelIdeal Cert.KernelIdeal.Gen Cert.FFM

/-- The lane numbers `0 … 2047` along the second axis of a `256 × 2048` block. -/
local notation "LANES" => (iota Kind.tc S256x2048 32 [1] iota_S256x2048_d1_w32 : IVec S256x2048 32)
/-- The contraction of a `256 × 2048` block with a `161 × 2048` block over the lanes. -/
local notation "DOT" => dot_S256x2048_S161x2048_S256x161_1_1_0_0_n_n

/-! ## Words -/

/-- Lane `k` of a chunk beginning at `start` is the word `x - start` exactly when `x` is `start + k`
    (nothing wraps: the chunk ends below `2 ^ 32`). -/
theorem lane_eq_iff (x : BitVec 32) (start : ℕ) (hst : start + 2048 ≤ 2 ^ 32) (k : Fin 2048) :
    BitVec.ofNat 32 k.val = x - BitVec.ofNat 32 start ↔ x.toNat = start + k.val := by
  have hk := k.isLt
  have hx := x.isLt
  rw [← BitVec.toNat_inj, BitVec.toNat_sub, BitVec.toNat_ofNat, BitVec.toNat_ofNat]
  omega

/-- The number a one-bit word denotes once widened to 32 bits and converted: one or zero. -/
def bitNum (w : BitVec 1) : EReal := FloatOps.sitofp (F := Ideal) .f32 (w.setWidth 32)

theorem bitNum_ofBool (p : Bool) : bitNum (BitVec.ofBool p) = if p then 1 else 0 := by
  cases p
  · have e : (BitVec.ofBool false).setWidth 32 = 0#32 := by decide
    have e' : (0#32 : BitVec 32).toInt = 0 := by decide
    show (((((BitVec.ofBool false).setWidth 32).toInt : ℤ) : ℝ) : EReal) = _
    rw [e, e']; simp
  · have e : (BitVec.ofBool true).setWidth 32 = 1#32 := by decide
    have e' : (1#32 : BitVec 32).toInt = 1 := by decide
    show (((((BitVec.ofBool true).setWidth 32).toInt : ℤ) : ℝ) : EReal) = _
    rw [e, e']; simp

/-- Entry `k` of the one-hot row of the value `x` against the chunk that begins at `start`. -/
def hot (x : BitVec 32) (start : ℕ) (k : Fin 2048) : EReal := if x.toNat = start + k.val then 1 else 0

/-- The bit of the comparison "lane `k` is `x - start`". -/
def hotBit (x : BitVec 32) (start : ℕ) (k : Fin 2048) : BitVec 1 := BitVec.ofBool (decide (x.toNat = start + k.val))

theorem bitNum_hotBit (x : BitVec 32) (start : ℕ) (k : Fin 2048) : bitNum (hotBit x start k) = hot x start k := by
  unfold hotBit hot
  rw [bitNum_ofBool]
  simp only [decide_eq_true_eq]

theorem cmp_word (x : BitVec 32) (start : ℕ) (hst : start + 2048 ≤ 2 ^ 32) (k : Fin 2048) :
    IntOp.cmpi .eq (BitVec.ofNat 32 k.val) (x - BitVec.ofNat 32 start) = hotBit x start k := by
  unfold hotBit
  show BitVec.ofBool (BitVec.ofNat 32 k.val == x - BitVec.ofNat 32 start) = _
  congr 1
  rw [Bool.eq_iff_iff, beq_iff_eq, decide_eq_true_eq]
  exact lane_eq_iff x start hst k

/-! ## The pieces of a step, read at an index -/

theorem lanes_apply (b : Fin 256) (k : Fin 2048) : LANES (ix2 b k) = BitVec.ofNat 32 k.val := by
  rw [iota_single_apply]

/-- Column `c` of the block of categorical values, as a vector over the rows. -/
theorem col_apply (i : ℕ) (hs : S256x10.Slices ![0, i] S256x1) (v0 : IVec S256x10 32) (b : Fin 256) (c : Fin 10)
    (hc : c.val = i) :
    shapeCast S256 (extractStridedSlice S256x1 ![0, i] v0 hs) shapeCasts_S256x1_S256 (ix1 b) = v0 (ix2 b c) := by
  rw [shapeCast_apply _ shapeCasts_S256x1_S256 (ix1 b) (ix2 b (0 : Fin 1)) (by
    rw [Shape.rowMajor_val_two, Shape.rowMajor_val_one]; show b.val * 1 + 0 = b.val; omega)]
  exact slice2_axis1_apply i v0 hs b (0 : Fin 1) c (by rw [hc]; rfl)

/-- A vector over the rows less a constant word. -/
theorem shift_apply (cv : IVec S256 32) (st : BitVec 32) (b : Fin 256) :
    subi cv (broadcast S256 st) (ix1 b) = cv (ix1 b) - st := rfl

/-- A vector over the rows, repeated along the lanes. -/
theorem spread_apply (sv : IVec S256 32) (b : Fin 256) (k : Fin 2048) :
    broadcastTo S256x2048 (shapeCast S256x1 sv shapeCasts_S256_S256x1) broadcasts_S256x1_S256x2048 (ix2 b k) = sv (ix1 b) := by
  rw [broadcastTo_apply _ broadcasts_S256x1_S256x2048 (ix2 b k) (ix2 b (0 : Fin 1)) (fun a => by
    match a with
    | ⟨0, _⟩ => rfl
    | ⟨1, _⟩ => rfl)]
  exact shapeCast_apply sv shapeCasts_S256_S256x1 _ (ix1 b) (by
    rw [Shape.rowMajor_val_two, Shape.rowMajor_val_one]; show b.val = b.val * 1 + 0; omega)

/-- The comparison of the lane numbers with a vector over the rows. -/
theorem cmp_apply (sv : IVec S256 32) (b : Fin 256) (k : Fin 2048) :
    cmpi .eq LANES (broadcastTo S256x2048 (shapeCast S256x1 sv shapeCasts_S256_S256x1) broadcasts_S256x1_S256x2048) (ix2 b k)
      = IntOp.cmpi .eq (BitVec.ofNat 32 k.val) (sv (ix1 b)) := by
  show IntOp.cmpi .eq (LANES (ix2 b k)) (broadcastTo S256x2048 (shapeCast S256x1 sv shapeCasts_S256_S256x1) broadcasts_S256x1_S256x2048 (ix2 b k)) = _
  rw [lanes_apply, spread_apply]

/-- A comparison's bits widened, converted and narrowed: the number of each bit. -/
theorem onehot_apply (cv : IVec S256x2048 1) (b : Fin 256) (k : Fin 2048) :
    (truncf .bf16 (sitofp .f32 (extui 32 cv natLt_1_32)) bitsLt_bf16_f32 : FVec Ideal S256x2048 .bf16) (ix2 b k)
      = bitNum (cv (ix2 b k)) := rfl

/-- A slab slice with its unit axis dropped. -/
theorem reshape_apply (sl : Vec Ideal S1x161x2048 .bf16) (n : Fin 161) (k : Fin 2048) :
    shapeCast S161x2048 sl shapeCasts_S1x161x2048_S161x2048 (ix2 n k) = sl (ix3 (0 : Fin 1) n k) :=
  shapeCast_1ab_ab_apply sl shapeCasts_S1x161x2048_S161x2048 n k

/-- The block product onto a zero accumulator: the sum over the lanes of the operands' products. -/
theorem mm_apply (oh : FVec Ideal S256x2048 .bf16) (rs : FVec Ideal S161x2048 .bf16) (b : Fin 256) (n : Fin 161) :
    matmul DOT none oh rs (constant S256x161 .f32 0x00000000#32) (ix2 b n) = ∑ k : Fin 2048, oh (ix2 b k) * rs (ix2 n k) := by
  show FloatOps.matmul DOT none oh rs (constant S256x161 .f32 0x00000000#32) (ix2 b n) = _
  rw [Ideal.matmul_constant_zero_apply, ← Equiv.sum_comp (contrEquiv1 DOT 2048 rfl rfl).symm]
  refine Finset.sum_congr rfl fun k _ => ?_
  have hl : DotDims.lhsIdx DOT (ix2 b n) ((contrEquiv1 DOT 2048 rfl rfl).symm k) = ix2 b k :=
    Shape.idx_ext₂ rfl ((DotDims.lhsIdx_val_of_single DOT (cl := 1) (show DotDims.lhsContracting DOT = [1] from rfl) (ix2 b n) _).trans
      (contrEquiv1_symm_val DOT 2048 rfl rfl k))
  have hr : DotDims.rhsIdx DOT (ix2 b n) ((contrEquiv1 DOT 2048 rfl rfl).symm k) = ix2 n k :=
    Shape.idx_ext₂ rfl ((DotDims.rhsIdx_val_of_single DOT (cr := 1) (show DotDims.rhsContracting DOT = [1] from rfl) (ix2 b n) _).trans
      (contrEquiv1_symm_val DOT 2048 rfl rfl k))
  rw [hl, hr]

/-! ## A one-hot row against a slice -/

theorem chunkTerm_of_mem (wl : SWL.Idx → EReal) (start xv : ℕ) (n : Fin 161) (h : start ≤ xv ∧ xv < start + 2048) :
    chunkTerm wl start xv n = wl (ix3 (0 : Fin 1) n ⟨xv - start, by omega⟩) := dif_pos h

theorem chunkTerm_of_not_mem (wl : SWL.Idx → EReal) (start xv : ℕ) (n : Fin 161) (h : ¬(start ≤ xv ∧ xv < start + 2048)) :
    chunkTerm wl start xv n = 0 := dif_neg h

/-- THE CONTRACTION: the one-hot row of `x` against a slice is the slice's entry at lane `x - start` when `x` lies in
    the chunk, and nothing otherwise. -/
theorem sum_hot (x : BitVec 32) (start : ℕ) (sl : SWL.Idx → EReal) (n : Fin 161) :
    ∑ k : Fin 2048, hot x start k * sl (ix3 (0 : Fin 1) n k) = chunkTerm sl start x.toNat n := by
  by_cases h : start ≤ x.toNat ∧ x.toNat < start + 2048
  · rw [chunkTerm_of_mem sl start x.toNat n h, Finset.sum_eq_single (⟨x.toNat - start, by omega⟩ : Fin 2048)]
    · unfold hot
      rw [if_pos (show x.toNat = start + (x.toNat - start) by omega), one_mul]
    · intro k _ hk
      unfold hot
      rw [if_neg (fun e => hk (Fin.ext (show k.val = x.toNat - start by omega))), zero_mul]
    · intro h'
      exact absurd (Finset.mem_univ _) h'
  · rw [chunkTerm_of_not_mem sl start x.toNat n h]
    refine Finset.sum_eq_zero fun k _ => ?_
    have hk := k.isLt
    unfold hot
    rw [if_neg (by omega), zero_mul]

/-- ONE STEP, whole: the accumulator plus the chunk term of column `c`'s value. -/
theorem step_apply (i : ℕ) (hs : S256x10.Slices ![0, i] S256x1) (c : Fin 10) (hc : c.val = i) (start : ℕ)
    (hst : start + 2048 ≤ 2 ^ 32) (v0 : Vec Ideal S256x10 .i32) (acc : FVec Ideal S256x161 .f32)
    (sl : Vec Ideal S1x161x2048 .bf16) (b : Fin 256) (n : Fin 161) :
    addf acc (matmul DOT none
        (truncf .bf16 (sitofp .f32 (extui 32 (cmpi .eq LANES (broadcastTo S256x2048 (shapeCast S256x1
          (subi (shapeCast S256 (extractStridedSlice S256x1 ![0, i] v0 hs) shapeCasts_S256x1_S256)
            (broadcast S256 (BitVec.ofNat 32 start)))
          shapeCasts_S256_S256x1) broadcasts_S256x1_S256x2048)) natLt_1_32)) bitsLt_bf16_f32)
        (shapeCast S161x2048 sl shapeCasts_S1x161x2048_S161x2048 : FVec Ideal S161x2048 .bf16)
        (constant S256x161 .f32 0x00000000#32)) (ix2 b n)
      = acc (ix2 b n) + chunkTerm sl start (v0 (ix2 b c)).toNat n := by
  rw [addf_apply, mm_apply, ← sum_hot]
  congr 1
  refine Finset.sum_congr rfl fun k _ => ?_
  rw [onehot_apply, cmp_apply, shift_apply, col_apply i hs v0 b c hc, reshape_apply, cmp_word _ start hst, bitNum_hotBit]

/-- The pieces up to the shifted column, the comparison, the one-hot row: each read at an index. -/
theorem shiftStage_apply (i : ℕ) (hs : S256x10.Slices ![0, i] S256x1) (c : Fin 10) (hc : c.val = i) (start : ℕ)
    (v0 : Vec Ideal S256x10 .i32) (b : Fin 256) :
    subi (shapeCast S256 (extractStridedSlice S256x1 ![0, i] v0 hs) shapeCasts_S256x1_S256)
        (broadcast S256 (BitVec.ofNat 32 start)) (ix1 b)
      = v0 (ix2 b c) - BitVec.ofNat 32 start := by
  rw [shift_apply, col_apply i hs v0 b c hc]

theorem cmpStage_apply (i : ℕ) (hs : S256x10.Slices ![0, i] S256x1) (c : Fin 10) (hc : c.val = i) (start : ℕ)
    (hst : start + 2048 ≤ 2 ^ 32) (v0 : Vec Ideal S256x10 .i32) (b : Fin 256) (k : Fin 2048) :
    cmpi .eq LANES (broadcastTo S256x2048 (shapeCast S256x1
          (subi (shapeCast S256 (extractStridedSlice S256x1 ![0, i] v0 hs) shapeCasts_S256x1_S256)
            (broadcast S256 (BitVec.ofNat 32 start)))
          shapeCasts_S256_S256x1) broadcasts_S256x1_S256x2048) (ix2 b k)
      = hotBit (v0 (ix2 b c)) start k := by
  rw [cmp_apply, shiftStage_apply i hs c hc, cmp_word _ start hst]

theorem hotStage_apply (i : ℕ) (hs : S256x10.Slices ![0, i] S256x1) (c : Fin 10) (hc : c.val = i) (start : ℕ)
    (hst : start + 2048 ≤ 2 ^ 32) (v0 : Vec Ideal S256x10 .i32) (b : Fin 256) (k : Fin 2048) :
    (truncf .bf16 (sitofp .f32 (extui 32 (cmpi .eq LANES (broadcastTo S256x2048 (shapeCast S256x1
          (subi (shapeCast S256 (extractStridedSlice S256x1 ![0, i] v0 hs) shapeCasts_S256x1_S256)
            (broadcast S256 (BitVec.ofNat 32 start)))
          shapeCasts_S256_S256x1) broadcasts_S256x1_S256x2048)) natLt_1_32)) bitsLt_bf16_f32
        : FVec Ideal S256x2048 .bf16) (ix2 b k)
      = hot (v0 (ix2 b c)) start k := by
  rw [onehot_apply, cmpStage_apply i hs c hc start hst, bitNum_hotBit]

/-- The zero vector an accumulator starts from. -/
theorem zacc_apply (b : Fin 256) (n : Fin 161) :
    (broadcast S256x161 (Scalar.ofBits (F := Ideal) .f32 0x00000000#32) : FVec Ideal S256x161 .f32) (ix2 b n) = 0 :=
  Ideal.ofBits_zero_f32

/-! ## The payloads

Each piece of the body at an index: a zero accumulator; a whole step; a step cut in two, read on the piece that adds with
the pieces that feed it in place; and the feeding pieces alone (a column, a shifted column, a comparison, a one-hot row, a
slice with its unit axis dropped). Accumulator `0` belongs to field `0` and accumulators `2 … 10` to fields `1 … 9`. -/

theorem pay2_apply (b : Fin 256) (n : Fin 161) : k0_pay2 (F := Ideal) (ix2 b n) = 0 := zacc_apply b n

theorem pay3_apply (b : Fin 256) (n : Fin 161) : k0_pay3 (F := Ideal) (ix2 b n) = 0 := zacc_apply b n

theorem pay4_apply (b : Fin 256) (n : Fin 161) : k0_pay4 (F := Ideal) (ix2 b n) = 0 := zacc_apply b n

theorem pay5_apply (b : Fin 256) (n : Fin 161) : k0_pay5 (F := Ideal) (ix2 b n) = 0 := zacc_apply b n

theorem pay6_apply (b : Fin 256) (n : Fin 161) : k0_pay6 (F := Ideal) (ix2 b n) = 0 := zacc_apply b n

theorem pay7_apply (b : Fin 256) (n : Fin 161) : k0_pay7 (F := Ideal) (ix2 b n) = 0 := zacc_apply b n

theorem pay8_apply (b : Fin 256) (n : Fin 161) : k0_pay8 (F := Ideal) (ix2 b n) = 0 := zacc_apply b n

theorem pay9_apply (b : Fin 256) (n : Fin 161) : k0_pay9 (F := Ideal) (ix2 b n) = 0 := zacc_apply b n

theorem pay10_apply (b : Fin 256) (n : Fin 161) : k0_pay10 (F := Ideal) (ix2 b n) = 0 := zacc_apply b n

theorem pay11_apply (v0 : Vec Ideal S256x10 .i32) (v22 : Vec Ideal S1x161x2048 .bf16) (b : Fin 256) (n : Fin 161) :
    k0_pay11 (F := Ideal) v0 v22 (ix2 b n)
      = 0 + chunkTerm v22 0 (v0 (ix2 b (0 : Fin 10))).toNat n :=
  (step_apply 0 slices_S256x10_o0_0_S256x1 0 rfl 0 (by norm_num) v0 _ v22 b n).trans (by rw [zacc_apply])

theorem pay12_apply (v0 : Vec Ideal S256x10 .i32) (b : Fin 256) (k : Fin 2048) :
    k0_pay12 (F := Ideal) v0 (ix2 b k) = hot (v0 (ix2 b (1 : Fin 10))) 0 k :=
  hotStage_apply 1 slices_S256x10_o0_1_S256x1 1 rfl 0 (by norm_num) v0 b k

theorem pay13_apply (v36 : Vec Ideal S1x161x2048 .bf16) (n : Fin 161) (k : Fin 2048) :
    k0_pay13 (F := Ideal) v36 (ix2 n k) = v36 (ix3 (0 : Fin 1) n k) :=
  reshape_apply v36 n k

theorem pay14_apply (v2 : FVec Ideal S256x161 .f32) (v0 : Vec Ideal S256x10 .i32) (v36 : Vec Ideal S1x161x2048 .bf16) (b : Fin 256) (n : Fin 161) :
    k0_pay14 (F := Ideal) v2 (k0_pay12 v0) (k0_pay13 v36) (ix2 b n)
      = v2 (ix2 b n) + chunkTerm v36 0 (v0 (ix2 b (1 : Fin 10))).toNat n :=
  step_apply 1 slices_S256x10_o0_1_S256x1 1 rfl 0 (by norm_num) v0 v2 v36 b n

theorem pay15_apply (v0 : Vec Ideal S256x10 .i32) (v3 : FVec Ideal S256x161 .f32) (v50 : Vec Ideal S1x161x2048 .bf16) (b : Fin 256) (n : Fin 161) :
    k0_pay15 (F := Ideal) v0 v3 LANES v50 (ix2 b n)
      = v3 (ix2 b n) + chunkTerm v50 0 (v0 (ix2 b (2 : Fin 10))).toNat n :=
  step_apply 2 slices_S256x10_o0_2_S256x1 2 rfl 0 (by norm_num) v0 v3 v50 b n

theorem pay16_apply (v0 : Vec Ideal S256x10 .i32) (v4 : FVec Ideal S256x161 .f32) (v64 : Vec Ideal S1x161x2048 .bf16) (b : Fin 256) (n : Fin 161) :
    k0_pay16 (F := Ideal) v0 v4 LANES v64 (ix2 b n)
      = v4 (ix2 b n) + chunkTerm v64 0 (v0 (ix2 b (3 : Fin 10))).toNat n :=
  step_apply 3 slices_S256x10_o0_3_S256x1 3 rfl 0 (by norm_num) v0 v4 v64 b n

theorem pay17_apply (v0 : Vec Ideal S256x10 .i32) (v5 : FVec Ideal S256x161 .f32) (v78 : Vec Ideal S1x161x2048 .bf16) (b : Fin 256) (n : Fin 161) :
    k0_pay17 (F := Ideal) v0 v5 LANES v78 (ix2 b n)
      = v5 (ix2 b n) + chunkTerm v78 0 (v0 (ix2 b (4 : Fin 10))).toNat n :=
  step_apply 4 slices_S256x10_o0_4_S256x1 4 rfl 0 (by norm_num) v0 v5 v78 b n

theorem pay18_apply (v0 : Vec Ideal S256x10 .i32) (v6 : FVec Ideal S256x161 .f32) (v92 : Vec Ideal S1x161x2048 .bf16) (b : Fin 256) (n : Fin 161) :
    k0_pay18 (F := Ideal) v0 v6 LANES v92 (ix2 b n)
      = v6 (ix2 b n) + chunkTerm v92 0 (v0 (ix2 b (5 : Fin 10))).toNat n :=
  step_apply 5 slices_S256x10_o0_5_S256x1 5 rfl 0 (by norm_num) v0 v6 v92 b n

theorem pay19_apply (v0 : Vec Ideal S256x10 .i32) (v7 : FVec Ideal S256x161 .f32) (v106 : Vec Ideal S1x161x2048 .bf16) (b : Fin 256) (n : Fin 161) :
    k0_pay19 (F := Ideal) v0 v7 LANES v106 (ix2 b n)
      = v7 (ix2 b n) + chunkTerm v106 0 (v0 (ix2 b (6 : Fin 10))).toNat n :=
  step_apply 6 slices_S256x10_o0_6_S256x1 6 rfl 0 (by norm_num) v0 v7 v106 b n

theorem pay20_apply (v0 : Vec Ideal S256x10 .i32) (v8 : FVec Ideal S256x161 .f32) (v120 : Vec Ideal S1x161x2048 .bf16) (b : Fin 256) (n : Fin 161) :
    k0_pay20 (F := Ideal) v0 v8 LANES v120 (ix2 b n)
      = v8 (ix2 b n) + chunkTerm v120 0 (v0 (ix2 b (7 : Fin 10))).toNat n :=
  step_apply 7 slices_S256x10_o0_7_S256x1 7 rfl 0 (by norm_num) v0 v8 v120 b n

theorem pay21_apply (v0 : Vec Ideal S256x10 .i32) (b : Fin 256) :
    k0_pay21 (F := Ideal) v0 (ix1 b) = v0 (ix2 b (8 : Fin 10)) :=
  col_apply 8 slices_S256x10_o0_8_S256x1 v0 b 8 rfl

theorem pay22_apply (v9 : FVec Ideal S256x161 .f32) (v0 : Vec Ideal S256x10 .i32) (v134 : Vec Ideal S1x161x2048 .bf16) (b : Fin 256) (n : Fin 161) :
    k0_pay22 (F := Ideal) v9 LANES (k0_pay21 v0) 0#32 v134 (ix2 b n)
      = v9 (ix2 b n) + chunkTerm v134 0 (v0 (ix2 b (8 : Fin 10))).toNat n :=
  step_apply 8 slices_S256x10_o0_8_S256x1 8 rfl 0 (by norm_num) v0 v9 v134 b n

theorem pay23_apply (v0 : Vec Ideal S256x10 .i32) (v10 : FVec Ideal S256x161 .f32) (v148 : Vec Ideal S1x161x2048 .bf16) (b : Fin 256) (n : Fin 161) :
    k0_pay23 (F := Ideal) v0 v10 LANES v148 (ix2 b n)
      = v10 (ix2 b n) + chunkTerm v148 0 (v0 (ix2 b (9 : Fin 10))).toNat n :=
  step_apply 9 slices_S256x10_o0_9_S256x1 9 rfl 0 (by norm_num) v0 v10 v148 b n

theorem pay24_apply (v0 : Vec Ideal S256x10 .i32) (v25 : FVec Ideal S256x161 .f32) (v163 : Vec Ideal S1x161x2048 .bf16) (b : Fin 256) (n : Fin 161) :
    k0_pay24 (F := Ideal) v0 v25 v163 (ix2 b n)
      = v25 (ix2 b n) + chunkTerm v163 2048 (v0 (ix2 b (0 : Fin 10))).toNat n :=
  step_apply 0 slices_S256x10_o0_0_S256x1 0 rfl 2048 (by norm_num) v0 v25 v163 b n

theorem pay25_apply (v0 : Vec Ideal S256x10 .i32) (b : Fin 256) :
    k0_pay25 (F := Ideal) v0 (ix1 b) = v0 (ix2 b (1 : Fin 10)) - 2048#32 :=
  shiftStage_apply 1 slices_S256x10_o0_1_S256x1 1 rfl 2048 v0 b

theorem pay26_apply (v39 : FVec Ideal S256x161 .f32) (v0 : Vec Ideal S256x10 .i32) (v177 : Vec Ideal S1x161x2048 .bf16) (b : Fin 256) (n : Fin 161) :
    k0_pay26 (F := Ideal) v39 LANES (k0_pay25 v0) v177 (ix2 b n)
      = v39 (ix2 b n) + chunkTerm v177 2048 (v0 (ix2 b (1 : Fin 10))).toNat n :=
  step_apply 1 slices_S256x10_o0_1_S256x1 1 rfl 2048 (by norm_num) v0 v39 v177 b n

theorem pay27_apply (v0 : Vec Ideal S256x10 .i32) (v53 : FVec Ideal S256x161 .f32) (v191 : Vec Ideal S1x161x2048 .bf16) (b : Fin 256) (n : Fin 161) :
    k0_pay27 (F := Ideal) v0 v53 LANES v191 (ix2 b n)
      = v53 (ix2 b n) + chunkTerm v191 2048 (v0 (ix2 b (2 : Fin 10))).toNat n :=
  step_apply 2 slices_S256x10_o0_2_S256x1 2 rfl 2048 (by norm_num) v0 v53 v191 b n

theorem pay28_apply (v0 : Vec Ideal S256x10 .i32) (v67 : FVec Ideal S256x161 .f32) (v205 : Vec Ideal S1x161x2048 .bf16) (b : Fin 256) (n : Fin 161) :
    k0_pay28 (F := Ideal) v0 v67 LANES v205 (ix2 b n)
      = v67 (ix2 b n) + chunkTerm v205 2048 (v0 (ix2 b (3 : Fin 10))).toNat n :=
  step_apply 3 slices_S256x10_o0_3_S256x1 3 rfl 2048 (by norm_num) v0 v67 v205 b n

theorem pay29_apply (v0 : Vec Ideal S256x10 .i32) (b : Fin 256) (k : Fin 2048) :
    k0_pay29 (F := Ideal) v0 LANES (ix2 b k) = hotBit (v0 (ix2 b (4 : Fin 10))) 2048 k :=
  cmpStage_apply 4 slices_S256x10_o0_4_S256x1 4 rfl 2048 (by norm_num) v0 b k

theorem pay30_apply (v81 : FVec Ideal S256x161 .f32) (v0 : Vec Ideal S256x10 .i32) (v219 : Vec Ideal S1x161x2048 .bf16) (b : Fin 256) (n : Fin 161) :
    k0_pay30 (F := Ideal) v81 (k0_pay29 v0 LANES) v219 (ix2 b n)
      = v81 (ix2 b n) + chunkTerm v219 2048 (v0 (ix2 b (4 : Fin 10))).toNat n :=
  step_apply 4 slices_S256x10_o0_4_S256x1 4 rfl 2048 (by norm_num) v0 v81 v219 b n

theorem pay31_apply (v0 : Vec Ideal S256x10 .i32) (v95 : FVec Ideal S256x161 .f32) (v233 : Vec Ideal S1x161x2048 .bf16) (b : Fin 256) (n : Fin 161) :
    k0_pay31 (F := Ideal) v0 v95 LANES v233 (ix2 b n)
      = v95 (ix2 b n) + chunkTerm v233 2048 (v0 (ix2 b (5 : Fin 10))).toNat n :=
  step_apply 5 slices_S256x10_o0_5_S256x1 5 rfl 2048 (by norm_num) v0 v95 v233 b n

theorem pay32_apply (v0 : Vec Ideal S256x10 .i32) (v109 : FVec Ideal S256x161 .f32) (v247 : Vec Ideal S1x161x2048 .bf16) (b : Fin 256) (n : Fin 161) :
    k0_pay32 (F := Ideal) v0 v109 LANES v247 (ix2 b n)
      = v109 (ix2 b n) + chunkTerm v247 2048 (v0 (ix2 b (6 : Fin 10))).toNat n :=
  step_apply 6 slices_S256x10_o0_6_S256x1 6 rfl 2048 (by norm_num) v0 v109 v247 b n

theorem pay33_apply (v0 : Vec Ideal S256x10 .i32) (b : Fin 256) (k : Fin 2048) :
    k0_pay33 (F := Ideal) v0 LANES (ix2 b k) = hot (v0 (ix2 b (7 : Fin 10))) 2048 k :=
  hotStage_apply 7 slices_S256x10_o0_7_S256x1 7 rfl 2048 (by norm_num) v0 b k

theorem pay34_apply (v123 : FVec Ideal S256x161 .f32) (v0 : Vec Ideal S256x10 .i32) (v261 : Vec Ideal S1x161x2048 .bf16) (b : Fin 256) (n : Fin 161) :
    k0_pay34 (F := Ideal) v123 (k0_pay33 v0 LANES) v261 (ix2 b n)
      = v123 (ix2 b n) + chunkTerm v261 2048 (v0 (ix2 b (7 : Fin 10))).toNat n :=
  step_apply 7 slices_S256x10_o0_7_S256x1 7 rfl 2048 (by norm_num) v0 v123 v261 b n

theorem pay35_apply (v0 : Vec Ideal S256x10 .i32) (v137 : FVec Ideal S256x161 .f32) (v275 : Vec Ideal S1x161x2048 .bf16) (b : Fin 256) (n : Fin 161) :
    k0_pay35 (F := Ideal) v0 v137 LANES v275 (ix2 b n)
      = v137 (ix2 b n) + chunkTerm v275 2048 (v0 (ix2 b (8 : Fin 10))).toNat n :=
  step_apply 8 slices_S256x10_o0_8_S256x1 8 rfl 2048 (by norm_num) v0 v137 v275 b n

theorem pay36_apply (v0 : Vec Ideal S256x10 .i32) (v151 : FVec Ideal S256x161 .f32) (v289 : Vec Ideal S1x161x2048 .bf16) (b : Fin 256) (n : Fin 161) :
    k0_pay36 (F := Ideal) v0 v151 LANES v289 (ix2 b n)
      = v151 (ix2 b n) + chunkTerm v289 2048 (v0 (ix2 b (9 : Fin 10))).toNat n :=
  step_apply 9 slices_S256x10_o0_9_S256x1 9 rfl 2048 (by norm_num) v0 v151 v289 b n

theorem pay37_apply (v0 : Vec Ideal S256x10 .i32) (b : Fin 256) (k : Fin 2048) :
    k0_pay37 (F := Ideal) v0 (ix2 b k) = hot (v0 (ix2 b (0 : Fin 10))) 4096 k :=
  hotStage_apply 0 slices_S256x10_o0_0_S256x1 0 rfl 4096 (by norm_num) v0 b k

theorem pay38_apply (v166 : FVec Ideal S256x161 .f32) (v0 : Vec Ideal S256x10 .i32) (v304 : Vec Ideal S1x161x2048 .bf16) (b : Fin 256) (n : Fin 161) :
    k0_pay38 (F := Ideal) v166 (k0_pay37 v0) v304 (ix2 b n)
      = v166 (ix2 b n) + chunkTerm v304 4096 (v0 (ix2 b (0 : Fin 10))).toNat n :=
  step_apply 0 slices_S256x10_o0_0_S256x1 0 rfl 4096 (by norm_num) v0 v166 v304 b n

theorem pay39_apply (v0 : Vec Ideal S256x10 .i32) (v180 : FVec Ideal S256x161 .f32) (v318 : Vec Ideal S1x161x2048 .bf16) (b : Fin 256) (n : Fin 161) :
    k0_pay39 (F := Ideal) v0 v180 LANES v318 (ix2 b n)
      = v180 (ix2 b n) + chunkTerm v318 4096 (v0 (ix2 b (1 : Fin 10))).toNat n :=
  step_apply 1 slices_S256x10_o0_1_S256x1 1 rfl 4096 (by norm_num) v0 v180 v318 b n

theorem pay40_apply (v0 : Vec Ideal S256x10 .i32) (v194 : FVec Ideal S256x161 .f32) (v332 : Vec Ideal S1x161x2048 .bf16) (b : Fin 256) (n : Fin 161) :
    k0_pay40 (F := Ideal) v0 v194 LANES v332 (ix2 b n)
      = v194 (ix2 b n) + chunkTerm v332 4096 (v0 (ix2 b (2 : Fin 10))).toNat n :=
  step_apply 2 slices_S256x10_o0_2_S256x1 2 rfl 4096 (by norm_num) v0 v194 v332 b n

theorem pay41_apply (v0 : Vec Ideal S256x10 .i32) (b : Fin 256) (k : Fin 2048) :
    k0_pay41 (F := Ideal) v0 LANES (ix2 b k) = hot (v0 (ix2 b (3 : Fin 10))) 4096 k :=
  hotStage_apply 3 slices_S256x10_o0_3_S256x1 3 rfl 4096 (by norm_num) v0 b k

theorem pay42_apply (v346 : Vec Ideal S1x161x2048 .bf16) (n : Fin 161) (k : Fin 2048) :
    k0_pay42 (F := Ideal) v346 (ix2 n k) = v346 (ix3 (0 : Fin 1) n k) :=
  reshape_apply v346 n k

theorem pay43_apply (v208 : FVec Ideal S256x161 .f32) (v0 : Vec Ideal S256x10 .i32) (v346 : Vec Ideal S1x161x2048 .bf16) (b : Fin 256) (n : Fin 161) :
    k0_pay43 (F := Ideal) v208 (k0_pay41 v0 LANES) (k0_pay42 v346) (ix2 b n)
      = v208 (ix2 b n) + chunkTerm v346 4096 (v0 (ix2 b (3 : Fin 10))).toNat n :=
  step_apply 3 slices_S256x10_o0_3_S256x1 3 rfl 4096 (by norm_num) v0 v208 v346 b n

theorem pay44_apply (v0 : Vec Ideal S256x10 .i32) (v222 : FVec Ideal S256x161 .f32) (v360 : Vec Ideal S1x161x2048 .bf16) (b : Fin 256) (n : Fin 161) :
    k0_pay44 (F := Ideal) v0 v222 LANES v360 (ix2 b n)
      = v222 (ix2 b n) + chunkTerm v360 4096 (v0 (ix2 b (4 : Fin 10))).toNat n :=
  step_apply 4 slices_S256x10_o0_4_S256x1 4 rfl 4096 (by norm_num) v0 v222 v360 b n

theorem pay45_apply (v0 : Vec Ideal S256x10 .i32) (v236 : FVec Ideal S256x161 .f32) (v374 : Vec Ideal S1x161x2048 .bf16) (b : Fin 256) (n : Fin 161) :
    k0_pay45 (F := Ideal) v0 v236 LANES v374 (ix2 b n)
      = v236 (ix2 b n) + chunkTerm v374 4096 (v0 (ix2 b (5 : Fin 10))).toNat n :=
  step_apply 5 slices_S256x10_o0_5_S256x1 5 rfl 4096 (by norm_num) v0 v236 v374 b n

theorem pay46_apply (v0 : Vec Ideal S256x10 .i32) (v250 : FVec Ideal S256x161 .f32) (v388 : Vec Ideal S1x161x2048 .bf16) (b : Fin 256) (n : Fin 161) :
    k0_pay46 (F := Ideal) v0 v250 LANES v388 (ix2 b n)
      = v250 (ix2 b n) + chunkTerm v388 4096 (v0 (ix2 b (6 : Fin 10))).toNat n :=
  step_apply 6 slices_S256x10_o0_6_S256x1 6 rfl 4096 (by norm_num) v0 v250 v388 b n

theorem pay47_apply (v0 : Vec Ideal S256x10 .i32) (v264 : FVec Ideal S256x161 .f32) (v402 : Vec Ideal S1x161x2048 .bf16) (b : Fin 256) (n : Fin 161) :
    k0_pay47 (F := Ideal) v0 v264 LANES v402 (ix2 b n)
      = v264 (ix2 b n) + chunkTerm v402 4096 (v0 (ix2 b (7 : Fin 10))).toNat n :=
  step_apply 7 slices_S256x10_o0_7_S256x1 7 rfl 4096 (by norm_num) v0 v264 v402 b n

theorem pay48_apply (v0 : Vec Ideal S256x10 .i32) (v278 : FVec Ideal S256x161 .f32) (v416 : Vec Ideal S1x161x2048 .bf16) (b : Fin 256) (n : Fin 161) :
    k0_pay48 (F := Ideal) v0 v278 LANES v416 (ix2 b n)
      = v278 (ix2 b n) + chunkTerm v416 4096 (v0 (ix2 b (8 : Fin 10))).toNat n :=
  step_apply 8 slices_S256x10_o0_8_S256x1 8 rfl 4096 (by norm_num) v0 v278 v416 b n

theorem pay49_apply (v0 : Vec Ideal S256x10 .i32) (v292 : FVec Ideal S256x161 .f32) (v430 : Vec Ideal S1x161x2048 .bf16) (b : Fin 256) (n : Fin 161) :
    k0_pay49 (F := Ideal) v0 v292 LANES v430 (ix2 b n)
      = v292 (ix2 b n) + chunkTerm v430 4096 (v0 (ix2 b (9 : Fin 10))).toNat n :=
  step_apply 9 slices_S256x10_o0_9_S256x1 9 rfl 4096 (by norm_num) v0 v292 v430 b n

theorem pay50_apply (v0 : Vec Ideal S256x10 .i32) (b : Fin 256) :
    k0_pay50 (F := Ideal) v0 (ix1 b) = v0 (ix2 b (0 : Fin 10)) :=
  col_apply 0 slices_S256x10_o0_0_S256x1 v0 b 0 rfl

theorem pay51_apply (v307 : FVec Ideal S256x161 .f32) (v0 : Vec Ideal S256x10 .i32) (v445 : Vec Ideal S1x161x2048 .bf16) (b : Fin 256) (n : Fin 161) :
    k0_pay51 (F := Ideal) v307 LANES (k0_pay50 v0) v445 (ix2 b n)
      = v307 (ix2 b n) + chunkTerm v445 6144 (v0 (ix2 b (0 : Fin 10))).toNat n :=
  step_apply 0 slices_S256x10_o0_0_S256x1 0 rfl 6144 (by norm_num) v0 v307 v445 b n

theorem pay52_apply (v0 : Vec Ideal S256x10 .i32) (v321 : FVec Ideal S256x161 .f32) (v459 : Vec Ideal S1x161x2048 .bf16) (b : Fin 256) (n : Fin 161) :
    k0_pay52 (F := Ideal) v0 v321 LANES v459 (ix2 b n)
      = v321 (ix2 b n) + chunkTerm v459 6144 (v0 (ix2 b (1 : Fin 10))).toNat n :=
  step_apply 1 slices_S256x10_o0_1_S256x1 1 rfl 6144 (by norm_num) v0 v321 v459 b n

theorem pay53_apply (v0 : Vec Ideal S256x10 .i32) (v335 : FVec Ideal S256x161 .f32) (v473 : Vec Ideal S1x161x2048 .bf16) (b : Fin 256) (n : Fin 161) :
    k0_pay53 (F := Ideal) v0 v335 LANES v473 (ix2 b n)
      = v335 (ix2 b n) + chunkTerm v473 6144 (v0 (ix2 b (2 : Fin 10))).toNat n :=
  step_apply 2 slices_S256x10_o0_2_S256x1 2 rfl 6144 (by norm_num) v0 v335 v473 b n

theorem pay54_apply (v0 : Vec Ideal S256x10 .i32) (b : Fin 256) :
    k0_pay54 (F := Ideal) v0 (ix1 b) = v0 (ix2 b (3 : Fin 10)) - 6144#32 :=
  shiftStage_apply 3 slices_S256x10_o0_3_S256x1 3 rfl 6144 v0 b

theorem pay55_apply (v349 : FVec Ideal S256x161 .f32) (v0 : Vec Ideal S256x10 .i32) (v487 : Vec Ideal S1x161x2048 .bf16) (b : Fin 256) (n : Fin 161) :
    k0_pay55 (F := Ideal) v349 LANES (k0_pay54 v0) v487 (ix2 b n)
      = v349 (ix2 b n) + chunkTerm v487 6144 (v0 (ix2 b (3 : Fin 10))).toNat n :=
  step_apply 3 slices_S256x10_o0_3_S256x1 3 rfl 6144 (by norm_num) v0 v349 v487 b n

theorem pay56_apply (v0 : Vec Ideal S256x10 .i32) (v363 : FVec Ideal S256x161 .f32) (v501 : Vec Ideal S1x161x2048 .bf16) (b : Fin 256) (n : Fin 161) :
    k0_pay56 (F := Ideal) v0 v363 LANES v501 (ix2 b n)
      = v363 (ix2 b n) + chunkTerm v501 6144 (v0 (ix2 b (4 : Fin 10))).toNat n :=
  step_apply 4 slices_S256x10_o0_4_S256x1 4 rfl 6144 (by norm_num) v0 v363 v501 b n

theorem pay57_apply (v0 : Vec Ideal S256x10 .i32) (v377 : FVec Ideal S256x161 .f32) (v515 : Vec Ideal S1x161x2048 .bf16) (b : Fin 256) (n : Fin 161) :
    k0_pay57 (F := Ideal) v0 v377 LANES v515 (ix2 b n)
      = v377 (ix2 b n) + chunkTerm v515 6144 (v0 (ix2 b (5 : Fin 10))).toNat n :=
  step_apply 5 slices_S256x10_o0_5_S256x1 5 rfl 6144 (by norm_num) v0 v377 v515 b n

theorem pay58_apply (v0 : Vec Ideal S256x10 .i32) (b : Fin 256) (k : Fin 2048) :
    k0_pay58 (F := Ideal) v0 LANES (ix2 b k) = hotBit (v0 (ix2 b (6 : Fin 10))) 6144 k :=
  cmpStage_apply 6 slices_S256x10_o0_6_S256x1 6 rfl 6144 (by norm_num) v0 b k

theorem pay59_apply (v391 : FVec Ideal S256x161 .f32) (v0 : Vec Ideal S256x10 .i32) (v529 : Vec Ideal S1x161x2048 .bf16) (b : Fin 256) (n : Fin 161) :
    k0_pay59 (F := Ideal) v391 (k0_pay58 v0 LANES) v529 (ix2 b n)
      = v391 (ix2 b n) + chunkTerm v529 6144 (v0 (ix2 b (6 : Fin 10))).toNat n :=
  step_apply 6 slices_S256x10_o0_6_S256x1 6 rfl 6144 (by norm_num) v0 v391 v529 b n

theorem pay60_apply (v0 : Vec Ideal S256x10 .i32) (v405 : FVec Ideal S256x161 .f32) (v543 : Vec Ideal S1x161x2048 .bf16) (b : Fin 256) (n : Fin 161) :
    k0_pay60 (F := Ideal) v0 v405 LANES v543 (ix2 b n)
      = v405 (ix2 b n) + chunkTerm v543 6144 (v0 (ix2 b (7 : Fin 10))).toNat n :=
  step_apply 7 slices_S256x10_o0_7_S256x1 7 rfl 6144 (by norm_num) v0 v405 v543 b n

theorem pay61_apply (v0 : Vec Ideal S256x10 .i32) (v419 : FVec Ideal S256x161 .f32) (v557 : Vec Ideal S1x161x2048 .bf16) (b : Fin 256) (n : Fin 161) :
    k0_pay61 (F := Ideal) v0 v419 LANES v557 (ix2 b n)
      = v419 (ix2 b n) + chunkTerm v557 6144 (v0 (ix2 b (8 : Fin 10))).toNat n :=
  step_apply 8 slices_S256x10_o0_8_S256x1 8 rfl 6144 (by norm_num) v0 v419 v557 b n

theorem pay62_apply (v0 : Vec Ideal S256x10 .i32) (b : Fin 256) (k : Fin 2048) :
    k0_pay62 (F := Ideal) v0 LANES (ix2 b k) = hot (v0 (ix2 b (9 : Fin 10))) 6144 k :=
  hotStage_apply 9 slices_S256x10_o0_9_S256x1 9 rfl 6144 (by norm_num) v0 b k

theorem pay63_apply (v433 : FVec Ideal S256x161 .f32) (v0 : Vec Ideal S256x10 .i32) (v571 : Vec Ideal S1x161x2048 .bf16) (b : Fin 256) (n : Fin 161) :
    k0_pay63 (F := Ideal) v433 (k0_pay62 v0 LANES) v571 (ix2 b n)
      = v433 (ix2 b n) + chunkTerm v571 6144 (v0 (ix2 b (9 : Fin 10))).toNat n :=
  step_apply 9 slices_S256x10_o0_9_S256x1 9 rfl 6144 (by norm_num) v0 v433 v571 b n

theorem pay64_apply (v0 : Vec Ideal S256x10 .i32) (v448 : FVec Ideal S256x161 .f32) (v586 : Vec Ideal S1x161x2048 .bf16) (b : Fin 256) (n : Fin 161) :
    k0_pay64 (F := Ideal) v0 v448 v586 (ix2 b n)
      = v448 (ix2 b n) + chunkTerm v586 8192 (v0 (ix2 b (0 : Fin 10))).toNat n :=
  step_apply 0 slices_S256x10_o0_0_S256x1 0 rfl 8192 (by norm_num) v0 v448 v586 b n

theorem pay65_apply (v0 : Vec Ideal S256x10 .i32) (v462 : FVec Ideal S256x161 .f32) (v600 : Vec Ideal S1x161x2048 .bf16) (b : Fin 256) (n : Fin 161) :
    k0_pay65 (F := Ideal) v0 v462 v600 (ix2 b n)
      = v462 (ix2 b n) + chunkTerm v600 8192 (v0 (ix2 b (1 : Fin 10))).toNat n :=
  step_apply 1 slices_S256x10_o0_1_S256x1 1 rfl 8192 (by norm_num) v0 v462 v600 b n

theorem pay66_apply (v0 : Vec Ideal S256x10 .i32) (b : Fin 256) (k : Fin 2048) :
    k0_pay66 (F := Ideal) v0 (ix2 b k) = hot (v0 (ix2 b (2 : Fin 10))) 8192 k :=
  hotStage_apply 2 slices_S256x10_o0_2_S256x1 2 rfl 8192 (by norm_num) v0 b k

theorem pay67_apply (v476 : FVec Ideal S256x161 .f32) (v0 : Vec Ideal S256x10 .i32) (v614 : Vec Ideal S1x161x2048 .bf16) (b : Fin 256) (n : Fin 161) :
    k0_pay67 (F := Ideal) v476 (k0_pay66 v0) v614 (ix2 b n)
      = v476 (ix2 b n) + chunkTerm v614 8192 (v0 (ix2 b (2 : Fin 10))).toNat n :=
  step_apply 2 slices_S256x10_o0_2_S256x1 2 rfl 8192 (by norm_num) v0 v476 v614 b n

theorem pay68_apply (v0 : Vec Ideal S256x10 .i32) (v490 : FVec Ideal S256x161 .f32) (v628 : Vec Ideal S1x161x2048 .bf16) (b : Fin 256) (n : Fin 161) :
    k0_pay68 (F := Ideal) v0 v490 LANES v628 (ix2 b n)
      = v490 (ix2 b n) + chunkTerm v628 8192 (v0 (ix2 b (3 : Fin 10))).toNat n :=
  step_apply 3 slices_S256x10_o0_3_S256x1 3 rfl 8192 (by norm_num) v0 v490 v628 b n

theorem pay69_apply (v0 : Vec Ideal S256x10 .i32) (v504 : FVec Ideal S256x161 .f32) (v642 : Vec Ideal S1x161x2048 .bf16) (b : Fin 256) (n : Fin 161) :
    k0_pay69 (F := Ideal) v0 v504 LANES v642 (ix2 b n)
      = v504 (ix2 b n) + chunkTerm v642 8192 (v0 (ix2 b (4 : Fin 10))).toNat n :=
  step_apply 4 slices_S256x10_o0_4_S256x1 4 rfl 8192 (by norm_num) v0 v504 v642 b n

theorem pay70_apply (v0 : Vec Ideal S256x10 .i32) (b : Fin 256) (k : Fin 2048) :
    k0_pay70 (F := Ideal) v0 LANES (ix2 b k) = hot (v0 (ix2 b (5 : Fin 10))) 8192 k :=
  hotStage_apply 5 slices_S256x10_o0_5_S256x1 5 rfl 8192 (by norm_num) v0 b k

theorem pay71_apply (v656 : Vec Ideal S1x161x2048 .bf16) (n : Fin 161) (k : Fin 2048) :
    k0_pay71 (F := Ideal) v656 (ix2 n k) = v656 (ix3 (0 : Fin 1) n k) :=
  reshape_apply v656 n k

theorem pay72_apply (v518 : FVec Ideal S256x161 .f32) (v0 : Vec Ideal S256x10 .i32) (v656 : Vec Ideal S1x161x2048 .bf16) (b : Fin 256) (n : Fin 161) :
    k0_pay72 (F := Ideal) v518 (k0_pay70 v0 LANES) (k0_pay71 v656) (ix2 b n)
      = v518 (ix2 b n) + chunkTerm v656 8192 (v0 (ix2 b (5 : Fin 10))).toNat n :=
  step_apply 5 slices_S256x10_o0_5_S256x1 5 rfl 8192 (by norm_num) v0 v518 v656 b n

theorem pay73_apply (v0 : Vec Ideal S256x10 .i32) (v532 : FVec Ideal S256x161 .f32) (v670 : Vec Ideal S1x161x2048 .bf16) (b : Fin 256) (n : Fin 161) :
    k0_pay73 (F := Ideal) v0 v532 LANES v670 (ix2 b n)
      = v532 (ix2 b n) + chunkTerm v670 8192 (v0 (ix2 b (6 : Fin 10))).toNat n :=
  step_apply 6 slices_S256x10_o0_6_S256x1 6 rfl 8192 (by norm_num) v0 v532 v670 b n

theorem pay74_apply (v0 : Vec Ideal S256x10 .i32) (v546 : FVec Ideal S256x161 .f32) (v684 : Vec Ideal S1x161x2048 .bf16) (b : Fin 256) (n : Fin 161) :
    k0_pay74 (F := Ideal) v0 v546 LANES v684 (ix2 b n)
      = v546 (ix2 b n) + chunkTerm v684 8192 (v0 (ix2 b (7 : Fin 10))).toNat n :=
  step_apply 7 slices_S256x10_o0_7_S256x1 7 rfl 8192 (by norm_num) v0 v546 v684 b n

theorem pay75_apply (v0 : Vec Ideal S256x10 .i32) (v560 : FVec Ideal S256x161 .f32) (v698 : Vec Ideal S1x161x2048 .bf16) (b : Fin 256) (n : Fin 161) :
    k0_pay75 (F := Ideal) v0 v560 LANES v698 (ix2 b n)
      = v560 (ix2 b n) + chunkTerm v698 8192 (v0 (ix2 b (8 : Fin 10))).toNat n :=
  step_apply 8 slices_S256x10_o0_8_S256x1 8 rfl 8192 (by norm_num) v0 v560 v698 b n

theorem pay76_apply (v0 : Vec Ideal S256x10 .i32) (v574 : FVec Ideal S256x161 .f32) (v712 : Vec Ideal S1x161x2048 .bf16) (b : Fin 256) (n : Fin 161) :
    k0_pay76 (F := Ideal) v0 v574 LANES v712 (ix2 b n)
      = v574 (ix2 b n) + chunkTerm v712 8192 (v0 (ix2 b (9 : Fin 10))).toNat n :=
  step_apply 9 slices_S256x10_o0_9_S256x1 9 rfl 8192 (by norm_num) v0 v574 v712 b n

/-! ## The five chunks of a field add up to the slab entry -/

/-- For a value below `10240` exactly one of the five chunks holds it, and there the chunk's slice is the slab at the
    value's lane: the five chunk terms add up to the slab entry. -/
theorem chunks_collapse (w : SW.Idx → EReal) (i : Fin 10) (n : Fin 161) (xv : ℕ) (hxv : xv < 10240)
    (s0 s1 s2 s3 s4 : SWL.Idx → EReal)
    (h0 : ∀ (n : Fin 161) (k : Fin 2048), s0 (ix3 (0 : Fin 1) n k) = w (ix3 i n ⟨k.val, by have := k.isLt; omega⟩))
    (h1 : ∀ (n : Fin 161) (k : Fin 2048), s1 (ix3 (0 : Fin 1) n k) = w (ix3 i n ⟨2048 + k.val, by have := k.isLt; omega⟩))
    (h2 : ∀ (n : Fin 161) (k : Fin 2048), s2 (ix3 (0 : Fin 1) n k) = w (ix3 i n ⟨4096 + k.val, by have := k.isLt; omega⟩))
    (h3 : ∀ (n : Fin 161) (k : Fin 2048), s3 (ix3 (0 : Fin 1) n k) = w (ix3 i n ⟨6144 + k.val, by have := k.isLt; omega⟩))
    (h4 : ∀ (n : Fin 161) (k : Fin 2048), s4 (ix3 (0 : Fin 1) n k) = w (ix3 i n ⟨8192 + k.val, by have := k.isLt; omega⟩)) :
    chunkTerm s0 0 xv n + chunkTerm s1 2048 xv n + chunkTerm s2 4096 xv n + chunkTerm s3 6144 xv n
        + chunkTerm s4 8192 xv n = w (ix3 i n (lane xv)) := by
  have hl : ∀ (m : ℕ) (hm : m < 10240), m = xv → w (ix3 i n ⟨m, hm⟩) = w (ix3 i n (lane xv)) := by
    intro m hm e
    subst e
    exact congrArg (fun l => w (ix3 i n l)) (Fin.ext (lane_val hxv).symm)
  by_cases c0 : xv < 2048
  · rw [chunkTerm_of_mem s0 0 xv n ⟨by omega, by omega⟩, chunkTerm_of_not_mem s1 2048 xv n (by omega),
      chunkTerm_of_not_mem s2 4096 xv n (by omega), chunkTerm_of_not_mem s3 6144 xv n (by omega),
      chunkTerm_of_not_mem s4 8192 xv n (by omega), h0, add_zero, add_zero, add_zero, add_zero]
    exact hl _ _ (by show xv - 0 = xv; omega)
  by_cases c1 : xv < 4096
  · rw [chunkTerm_of_not_mem s0 0 xv n (by omega), chunkTerm_of_mem s1 2048 xv n ⟨by omega, by omega⟩,
      chunkTerm_of_not_mem s2 4096 xv n (by omega), chunkTerm_of_not_mem s3 6144 xv n (by omega),
      chunkTerm_of_not_mem s4 8192 xv n (by omega), h1, zero_add, add_zero, add_zero, add_zero]
    exact hl _ _ (by show 2048 + (xv - 2048) = xv; omega)
  by_cases c2 : xv < 6144
  · rw [chunkTerm_of_not_mem s0 0 xv n (by omega), chunkTerm_of_not_mem s1 2048 xv n (by omega),
      chunkTerm_of_mem s2 4096 xv n ⟨by omega, by omega⟩, chunkTerm_of_not_mem s3 6144 xv n (by omega),
      chunkTerm_of_not_mem s4 8192 xv n (by omega), h2, zero_add, zero_add, add_zero, add_zero]
    exact hl _ _ (by show 4096 + (xv - 4096) = xv; omega)
  by_cases c3 : xv < 8192
  · rw [chunkTerm_of_not_mem s0 0 xv n (by omega), chunkTerm_of_not_mem s1 2048 xv n (by omega),
      chunkTerm_of_not_mem s2 4096 xv n (by omega), chunkTerm_of_mem s3 6144 xv n ⟨by omega, by omega⟩,
      chunkTerm_of_not_mem s4 8192 xv n (by omega), h3, zero_add, zero_add, zero_add, add_zero]
    exact hl _ _ (by show 6144 + (xv - 6144) = xv; omega)
  · rw [chunkTerm_of_not_mem s0 0 xv n (by omega), chunkTerm_of_not_mem s1 2048 xv n (by omega),
      chunkTerm_of_not_mem s2 4096 xv n (by omega), chunkTerm_of_not_mem s3 6144 xv n (by omega),
      chunkTerm_of_mem s4 8192 xv n ⟨by omega, by omega⟩, h4, zero_add, zero_add, zero_add, zero_add]
    exact hl _ _ (by show 8192 + (xv - 8192) = xv; omega)

/-- The same as the accumulation leaves it, begun from the zero accumulator. -/
theorem chunks_collapse_zero (w : SW.Idx → EReal) (i : Fin 10) (n : Fin 161) (xv : ℕ) (hxv : xv < 10240)
    (s0 s1 s2 s3 s4 : SWL.Idx → EReal)
    (h0 : ∀ (n : Fin 161) (k : Fin 2048), s0 (ix3 (0 : Fin 1) n k) = w (ix3 i n ⟨k.val, by have := k.isLt; omega⟩))
    (h1 : ∀ (n : Fin 161) (k : Fin 2048), s1 (ix3 (0 : Fin 1) n k) = w (ix3 i n ⟨2048 + k.val, by have := k.isLt; omega⟩))
    (h2 : ∀ (n : Fin 161) (k : Fin 2048), s2 (ix3 (0 : Fin 1) n k) = w (ix3 i n ⟨4096 + k.val, by have := k.isLt; omega⟩))
    (h3 : ∀ (n : Fin 161) (k : Fin 2048), s3 (ix3 (0 : Fin 1) n k) = w (ix3 i n ⟨6144 + k.val, by have := k.isLt; omega⟩))
    (h4 : ∀ (n : Fin 161) (k : Fin 2048), s4 (ix3 (0 : Fin 1) n k) = w (ix3 i n ⟨8192 + k.val, by have := k.isLt; omega⟩)) :
    0 + chunkTerm s0 0 xv n + chunkTerm s1 2048 xv n + chunkTerm s2 4096 xv n + chunkTerm s3 6144 xv n
        + chunkTerm s4 8192 xv n = w (ix3 i n (lane xv)) := by
  rw [zero_add]
  exact chunks_collapse w i n xv hxv s0 s1 s2 s3 s4 h0 h1 h2 h3 h4

end Cert.FFM.Body

end
-- ==== Proof.BodyTail.lean ====
/- # The last part of the kernel body: the linear total and the pair total

From ten accumulators (one per field; 256 batch rows by 161 slab rows each) the body forms, for each
batch row, the sum of the accumulators' entries at slab row 160 (the linear part), and the sum over
the pairs of fields i < j of the inner product over the 16 coordinates d of accumulator i at slab row
16 j + d with accumulator j at slab row 16 i + d (the pair part), and stores their sum. Here each
piece of that computation is read at one batch row, and the pieces are put together. Everything is an
extended real: sums are finite sums in a commutative monoid. -/
import proofs.«419980_j22007412425277_3_alg».proof.Proof.Gen.KernelIdeal.Skeleton
import proofs.«419980_j22007412425277_3_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.FFM.Body

open Idealize.ShloMosaic Idealize.ShloMosaic.ValueIdx
open Cert.KernelIdeal Cert.KernelIdeal.Gen

/-! ## The three non-pointwise steps, read at one batch row -/

/-- A block of 16 columns starting at column `o`, read at row `b` and column `d`, is the source at
    column `k = o + d`. -/
theorem cols16_apply (o : Nat) (A : FVec Ideal S256x161 .f32) (h : S256x161.Slices ![0, o] S256x16)
    (b : Fin 256) (d : Fin 16) (k : Fin 161) (hk : k.val = o + d.val) :
    extractStridedSlice S256x16 ![0, o] A h (ix2 b d) = A (ix2 b k) :=
  slice2_axis1_apply o A h b d k hk

/-- The reduced index `b` with lane `d` put back is `(b, d)`. -/
theorem lift_row (h : S256x16.Reduces [1] S256) (b : Fin 256) (k : Fin (S256x16.size 1)) :
    h.lift (ix1 b) k = ix2 b (⟨k.val, k.isLt⟩ : Fin 16) := by
  funext c; apply Fin.ext
  fin_cases c <;> rfl

/-- Column 160 alone, as a vector over the rows, read at row `b`. -/
theorem col160_apply (A : FVec Ideal S256x161 .f32) (h : S256x161.Slices ![0, 160] S256x1)
    (hc : S256x1.ShapeCasts S256) (b : Fin 256) :
    shapeCast S256 (extractStridedSlice S256x1 ![0, 160] A h) hc (ix1 b) = A (ix2 b Cert.FFM.lrow) := by
  refine (shapeCast_apply _ hc (ix1 b) (ix2 b (0 : Fin 1)) (by
    rw [Shape.rowMajor_val_two, Shape.rowMajor_val_one]; show b.val * 1 + 0 = b.val; omega)).trans ?_
  exact slice2_axis1_apply 160 A h b (0 : Fin 1) Cert.FFM.lrow rfl

/-- The lane sum of a product of two 256 by 16 blocks, read at row `b`. -/
theorem red_mul_apply (P Q : FVec Ideal S256x16 .f32) (hr : S256x16.Reduces [1] S256)
    (hacc : (0x00000000#32 : BitVec 32) = 0x00000000#32) (b : Fin 256) :
    multiReduction (F := Ideal) .add [1] S256 (mulf P Q) 0x00000000#32 hr (.inl rfl) hacc (ix1 b)
      = ∑ d : Fin 16, P (ix2 b d) * Q (ix2 b d) := by
  refine (Ideal.multiReduction_add_single _ 0x00000000#32 hr (.inl rfl) hacc (ix1 b)).trans ?_
  refine Finset.sum_congr rfl fun d _ => ?_
  rw [lift_row hr b d, mulf_apply]
  rfl

/-- The pair term of fields `i < j` at batch row `b`, from the accumulator `X` of field `i` and the
    accumulator `Y` of field `j`: rows `16 j + d` of `X` against rows `16 i + d` of `Y`. -/
def pairAt (X Y : FVec Ideal S256x161 .f32) (i j : Fin 10) (b : Fin 256) : EReal :=
  ∑ d : Fin 16, X (ix2 b (Cert.FFM.prow j d)) * Y (ix2 b (Cert.FFM.prow i d))

/-- The same with the first factor already cut out as a 256 by 16 block `c`. -/
def carryAt (c : FVec Ideal S256x16 .f32) (Y : FVec Ideal S256x161 .f32) (i : Fin 10) (b : Fin 256) : EReal :=
  ∑ d : Fin 16, c (ix2 b d) * Y (ix2 b (Cert.FFM.prow i d))

/-- One pair term as the kernel computes it: the lane sum of the product of the block of 16 columns of
    `X` from column `16 j` with the block of `Y` from column `16 i`. -/
theorem pair_apply (i j : Fin 10) (oi oj : Nat) (hi : oi = 16 * i.val) (hj : oj = 16 * j.val)
    (X Y : FVec Ideal S256x161 .f32)
    (hX : S256x161.Slices ![0, oj] S256x16) (hY : S256x161.Slices ![0, oi] S256x16)
    (hr : S256x16.Reduces [1] S256) (hacc : (0x00000000#32 : BitVec 32) = 0x00000000#32) (b : Fin 256) :
    multiReduction (F := Ideal) .add [1] S256
        (mulf (extractStridedSlice S256x16 ![0, oj] X hX) (extractStridedSlice S256x16 ![0, oi] Y hY))
        0x00000000#32 hr (.inl rfl) hacc (ix1 b)
      = pairAt X Y i j b := by
  refine (red_mul_apply _ _ hr hacc b).trans ?_
  refine Finset.sum_congr rfl fun d _ => ?_
  rw [cols16_apply oj X hX b d (Cert.FFM.prow j d) (by show 16 * j.val + d.val = oj + d.val; omega),
      cols16_apply oi Y hY b d (Cert.FFM.prow i d) (by show 16 * i.val + d.val = oi + d.val; omega)]

/-- The same when the first block was cut out earlier. -/
theorem carry_apply (i : Fin 10) (oi : Nat) (hi : oi = 16 * i.val)
    (c : FVec Ideal S256x16 .f32) (Y : FVec Ideal S256x161 .f32)
    (hY : S256x161.Slices ![0, oi] S256x16)
    (hr : S256x16.Reduces [1] S256) (hacc : (0x00000000#32 : BitVec 32) = 0x00000000#32) (b : Fin 256) :
    multiReduction (F := Ideal) .add [1] S256
        (mulf c (extractStridedSlice S256x16 ![0, oi] Y hY))
        0x00000000#32 hr (.inl rfl) hacc (ix1 b)
      = carryAt c Y i b := by
  refine (red_mul_apply _ _ hr hacc b).trans ?_
  refine Finset.sum_congr rfl fun d _ => ?_
  rw [cols16_apply oi Y hY b d (Cert.FFM.prow i d) (by show 16 * i.val + d.val = oi + d.val; omega)]

/-- A block cut out earlier from columns `16 j …` of `X` gives the pair term of `X`. -/
theorem carry_of_cols (c : FVec Ideal S256x16 .f32) (X Y : FVec Ideal S256x161 .f32) (i j : Fin 10) (b : Fin 256)
    (hc : ∀ d : Fin 16, c (ix2 b d) = X (ix2 b (Cert.FFM.prow j d))) : carryAt c Y i b = pairAt X Y i j b :=
  Finset.sum_congr rfl fun d _ => by rw [hc d]

/-- The zero the running sums start from. -/
theorem zero_splat : (Scalar.ofBits .f32 0x00000000#32 : Ideal .f32) = 0 := Ideal.ofBits_zero_f32

/-! ## The pieces of the body, each read at one batch row -/

theorem pay79_apply (A0 : FVec Ideal S256x161 .f32) (b : Fin 256) (d : Fin 16) :
    k0_pay79 A0 (ix2 b d) = A0 (ix2 b (Cert.FFM.prow 2 d)) := by
  unfold k0_pay79
  exact cols16_apply 32 A0 _ b d _ (by show 16 * 2 + d.val = 32 + d.val; omega)

theorem pay78_apply (A0 A1 : FVec Ideal S256x161 .f32) (b : Fin 256) :
    k0_pay78 A0 A1 (ix1 b) = pairAt A0 A1 0 1 b := by
  unfold k0_pay78
  simp only [addf_apply, broadcast_apply]
  rw [zero_splat, zero_add]
  exact pair_apply 0 1 0 16 (by decide) (by decide) A0 A1 _ _ _ _ b

theorem pay80_apply (A0 A1 A2 A3 A4 A5 A6 A7 A8 A9 : FVec Ideal S256x161 .f32) (s : FVec Ideal S256 .f32)
    (c : FVec Ideal S256x16 .f32) (b : Fin 256) :
    k0_pay80 A0 A1 A2 A3 A4 A5 A6 A7 A8 A9 s c (ix1 b)
      = s (ix1 b) + carryAt c A2 0 b + pairAt A0 A3 0 3 b + pairAt A0 A4 0 4 b + pairAt A0 A5 0 5 b
        + pairAt A0 A6 0 6 b + pairAt A0 A7 0 7 b + pairAt A0 A8 0 8 b + pairAt A0 A9 0 9 b
        + pairAt A1 A2 1 2 b + pairAt A1 A3 1 3 b := by
  unfold k0_pay80
  simp only [addf_apply]
  rw [carry_apply 0 0 (by decide) c A2,
      pair_apply 0 3 0 48 (by decide) (by decide) A0 A3,
      pair_apply 0 4 0 64 (by decide) (by decide) A0 A4,
      pair_apply 0 5 0 80 (by decide) (by decide) A0 A5,
      pair_apply 0 6 0 96 (by decide) (by decide) A0 A6,
      pair_apply 0 7 0 112 (by decide) (by decide) A0 A7,
      pair_apply 0 8 0 128 (by decide) (by decide) A0 A8,
      pair_apply 0 9 0 144 (by decide) (by decide) A0 A9,
      pair_apply 1 2 16 32 (by decide) (by decide) A1 A2,
      pair_apply 1 3 16 48 (by decide) (by decide) A1 A3]

theorem pay77_apply (v0 : Vec Ideal S256x10 .i32) (v574 : FVec Ideal S256x161 .f32) (v575 : IVec S256x2048 32)
    (A0 A1 A2 A3 A4 A5 A6 A7 A8 : FVec Ideal S256x161 .f32) (v712 : Vec Ideal S1x161x2048 .bf16) (b : Fin 256) :
    k0_pay77 v0 v574 v575 A0 A1 A2 A3 A4 A5 A6 A7 A8 v712 (ix1 b)
      = A0 (ix2 b Cert.FFM.lrow) + A1 (ix2 b Cert.FFM.lrow) + A2 (ix2 b Cert.FFM.lrow) + A3 (ix2 b Cert.FFM.lrow)
        + A4 (ix2 b Cert.FFM.lrow) + A5 (ix2 b Cert.FFM.lrow) + A6 (ix2 b Cert.FFM.lrow) + A7 (ix2 b Cert.FFM.lrow)
        + A8 (ix2 b Cert.FFM.lrow) + k0_pay76 v0 v574 v575 v712 (ix2 b Cert.FFM.lrow) := by
  unfold k0_pay77
  simp only [addf_apply, broadcast_apply, col160_apply]
  rw [zero_splat, zero_add]

theorem pay81_apply (A1 : FVec Ideal S256x161 .f32) (b : Fin 256) (d : Fin 16) :
    k0_pay81 A1 (ix2 b d) = A1 (ix2 b (Cert.FFM.prow 4 d)) := by
  unfold k0_pay81
  exact cols16_apply 64 A1 _ b d _ (by show 16 * 4 + d.val = 64 + d.val; omega)

theorem pay82_apply (A1 A2 A3 A4 A5 A6 A7 A8 A9 : FVec Ideal S256x161 .f32) (s : FVec Ideal S256 .f32)
    (c : FVec Ideal S256x16 .f32) (b : Fin 256) :
    k0_pay82 A1 A2 A3 A4 A5 A6 A7 A8 A9 s c (ix1 b)
      = s (ix1 b) + carryAt c A4 1 b + pairAt A1 A5 1 5 b + pairAt A1 A6 1 6 b + pairAt A1 A7 1 7 b
        + pairAt A1 A8 1 8 b + pairAt A1 A9 1 9 b + pairAt A2 A3 2 3 b + pairAt A2 A4 2 4 b
        + pairAt A2 A5 2 5 b + pairAt A2 A6 2 6 b := by
  unfold k0_pay82
  simp only [addf_apply]
  rw [carry_apply 1 16 (by decide) c A4,
      pair_apply 1 5 16 80 (by decide) (by decide) A1 A5,
      pair_apply 1 6 16 96 (by decide) (by decide) A1 A6,
      pair_apply 1 7 16 112 (by decide) (by decide) A1 A7,
      pair_apply 1 8 16 128 (by decide) (by decide) A1 A8,
      pair_apply 1 9 16 144 (by decide) (by decide) A1 A9,
      pair_apply 2 3 32 48 (by decide) (by decide) A2 A3,
      pair_apply 2 4 32 64 (by decide) (by decide) A2 A4,
      pair_apply 2 5 32 80 (by decide) (by decide) A2 A5,
      pair_apply 2 6 32 96 (by decide) (by decide) A2 A6]

theorem pay83_apply (A2 : FVec Ideal S256x161 .f32) (b : Fin 256) (d : Fin 16) :
    k0_pay83 A2 (ix2 b d) = A2 (ix2 b (Cert.FFM.prow 7 d)) := by
  unfold k0_pay83
  exact cols16_apply 112 A2 _ b d _ (by show 16 * 7 + d.val = 112 + d.val; omega)

theorem pay84_apply (A2 A3 A4 A5 A6 A7 A8 A9 : FVec Ideal S256x161 .f32) (s : FVec Ideal S256 .f32)
    (c : FVec Ideal S256x16 .f32) (b : Fin 256) :
    k0_pay84 A2 A3 A4 A5 A6 A7 A8 A9 s c (ix1 b)
      = s (ix1 b) + carryAt c A7 2 b + pairAt A2 A8 2 8 b + pairAt A2 A9 2 9 b + pairAt A3 A4 3 4 b
        + pairAt A3 A5 3 5 b + pairAt A3 A6 3 6 b + pairAt A3 A7 3 7 b + pairAt A3 A8 3 8 b
        + pairAt A3 A9 3 9 b + pairAt A4 A5 4 5 b := by
  unfold k0_pay84
  simp only [addf_apply]
  rw [carry_apply 2 32 (by decide) c A7,
      pair_apply 2 8 32 128 (by decide) (by decide) A2 A8,
      pair_apply 2 9 32 144 (by decide) (by decide) A2 A9,
      pair_apply 3 4 48 64 (by decide) (by decide) A3 A4,
      pair_apply 3 5 48 80 (by decide) (by decide) A3 A5,
      pair_apply 3 6 48 96 (by decide) (by decide) A3 A6,
      pair_apply 3 7 48 112 (by decide) (by decide) A3 A7,
      pair_apply 3 8 48 128 (by decide) (by decide) A3 A8,
      pair_apply 3 9 48 144 (by decide) (by decide) A3 A9,
      pair_apply 4 5 64 80 (by decide) (by decide) A4 A5]

theorem pay85_apply (A4 : FVec Ideal S256x161 .f32) (b : Fin 256) (d : Fin 16) :
    k0_pay85 A4 (ix2 b d) = A4 (ix2 b (Cert.FFM.prow 6 d)) := by
  unfold k0_pay85
  exact cols16_apply 96 A4 _ b d _ (by show 16 * 6 + d.val = 96 + d.val; omega)

theorem pay86_apply (A4 A5 A6 A7 A8 A9 : FVec Ideal S256x161 .f32) (s : FVec Ideal S256 .f32)
    (c : FVec Ideal S256x16 .f32) (b : Fin 256) :
    k0_pay86 A4 A5 A6 A7 A8 A9 s c (ix1 b)
      = s (ix1 b) + carryAt c A6 4 b + pairAt A4 A7 4 7 b + pairAt A4 A8 4 8 b + pairAt A4 A9 4 9 b
        + pairAt A5 A6 5 6 b + pairAt A5 A7 5 7 b + pairAt A5 A8 5 8 b + pairAt A5 A9 5 9 b
        + pairAt A6 A7 6 7 b + pairAt A6 A8 6 8 b := by
  unfold k0_pay86
  simp only [addf_apply]
  rw [carry_apply 4 64 (by decide) c A6,
      pair_apply 4 7 64 112 (by decide) (by decide) A4 A7,
      pair_apply 4 8 64 128 (by decide) (by decide) A4 A8,
      pair_apply 4 9 64 144 (by decide) (by decide) A4 A9,
      pair_apply 5 6 80 96 (by decide) (by decide) A5 A6,
      pair_apply 5 7 80 112 (by decide) (by decide) A5 A7,
      pair_apply 5 8 80 128 (by decide) (by decide) A5 A8,
      pair_apply 5 9 80 144 (by decide) (by decide) A5 A9,
      pair_apply 6 7 96 112 (by decide) (by decide) A6 A7,
      pair_apply 6 8 96 128 (by decide) (by decide) A6 A8]

theorem pay87_apply (A6 : FVec Ideal S256x161 .f32) (b : Fin 256) (d : Fin 16) :
    k0_pay87 A6 (ix2 b d) = A6 (ix2 b (Cert.FFM.prow 9 d)) := by
  unfold k0_pay87
  exact cols16_apply 144 A6 _ b d _ (by show 16 * 9 + d.val = 144 + d.val; omega)

/-- The stored vector: the linear total `l` plus the pair total, whose last four terms are formed here. -/
theorem pay1_apply (A7 A8 A9 : FVec Ideal S256x161 .f32) (l s : FVec Ideal S256 .f32)
    (c : FVec Ideal S256x16 .f32) (b : Fin 256) :
    k0_pay1 A7 A8 A9 l s c (ix1 b)
      = l (ix1 b) + (s (ix1 b) + carryAt c A9 6 b + pairAt A7 A8 7 8 b + pairAt A7 A9 7 9 b + pairAt A8 A9 8 9 b) := by
  unfold k0_pay1
  simp only [addf_apply]
  rw [carry_apply 6 96 (by decide) c A9,
      pair_apply 7 8 112 128 (by decide) (by decide) A7 A8,
      pair_apply 7 9 112 144 (by decide) (by decide) A7 A9,
      pair_apply 8 9 128 144 (by decide) (by decide) A8 A9]

/-! ## The pieces put together -/

/-- A sum over the ten fields, written out. -/
theorem sum_fin10 {M : Type*} [AddCommMonoid M] (f : Fin 10 → M) :
    ∑ i : Fin 10, f i = f 0 + f 1 + f 2 + f 3 + f 4 + f 5 + f 6 + f 7 + f 8 + f 9 := by
  simp only [Fin.sum_univ_succ, Fin.sum_univ_zero, add_zero, ← add_assoc]
  rfl

/-- The order in which the body adds things up (fields in order; pairs of fields in lexicographic order)
    against the sums over the fields and over the pairs of fields: addition of extended reals is
    associative and zero is neutral, and the two orders are the same. -/
theorem sums_eq (A : Fin 10 → FVec Ideal S256x161 .f32) (b : Fin 256) :
    (A 0 (ix2 b Cert.FFM.lrow) + A 1 (ix2 b Cert.FFM.lrow) + A 2 (ix2 b Cert.FFM.lrow) + A 3 (ix2 b Cert.FFM.lrow) + A 4 (ix2 b Cert.FFM.lrow)
        + A 5 (ix2 b Cert.FFM.lrow) + A 6 (ix2 b Cert.FFM.lrow) + A 7 (ix2 b Cert.FFM.lrow) + A 8 (ix2 b Cert.FFM.lrow) + A 9 (ix2 b Cert.FFM.lrow))
      + (pairAt (A 0) (A 1) 0 1 b + pairAt (A 0) (A 2) 0 2 b + pairAt (A 0) (A 3) 0 3 b + pairAt (A 0) (A 4) 0 4 b
        + pairAt (A 0) (A 5) 0 5 b + pairAt (A 0) (A 6) 0 6 b + pairAt (A 0) (A 7) 0 7 b + pairAt (A 0) (A 8) 0 8 b
        + pairAt (A 0) (A 9) 0 9 b
        + pairAt (A 1) (A 2) 1 2 b + pairAt (A 1) (A 3) 1 3 b + pairAt (A 1) (A 4) 1 4 b + pairAt (A 1) (A 5) 1 5 b
        + pairAt (A 1) (A 6) 1 6 b + pairAt (A 1) (A 7) 1 7 b + pairAt (A 1) (A 8) 1 8 b + pairAt (A 1) (A 9) 1 9 b
        + pairAt (A 2) (A 3) 2 3 b + pairAt (A 2) (A 4) 2 4 b + pairAt (A 2) (A 5) 2 5 b + pairAt (A 2) (A 6) 2 6 b
        + pairAt (A 2) (A 7) 2 7 b + pairAt (A 2) (A 8) 2 8 b + pairAt (A 2) (A 9) 2 9 b
        + pairAt (A 3) (A 4) 3 4 b + pairAt (A 3) (A 5) 3 5 b + pairAt (A 3) (A 6) 3 6 b + pairAt (A 3) (A 7) 3 7 b
        + pairAt (A 3) (A 8) 3 8 b + pairAt (A 3) (A 9) 3 9 b
        + pairAt (A 4) (A 5) 4 5 b + pairAt (A 4) (A 6) 4 6 b + pairAt (A 4) (A 7) 4 7 b + pairAt (A 4) (A 8) 4 8 b
        + pairAt (A 4) (A 9) 4 9 b
        + pairAt (A 5) (A 6) 5 6 b + pairAt (A 5) (A 7) 5 7 b + pairAt (A 5) (A 8) 5 8 b + pairAt (A 5) (A 9) 5 9 b
        + pairAt (A 6) (A 7) 6 7 b + pairAt (A 6) (A 8) 6 8 b + pairAt (A 6) (A 9) 6 9 b
        + pairAt (A 7) (A 8) 7 8 b + pairAt (A 7) (A 9) 7 9 b
        + pairAt (A 8) (A 9) 8 9 b)
      = (∑ i : Fin 10, A i (ix2 b Cert.FFM.lrow))
        + ∑ i : Fin 10, ∑ j : Fin 10,
            if i < j then ∑ d : Fin 16, A i (ix2 b (Cert.FFM.prow j d)) * A j (ix2 b (Cert.FFM.prow i d)) else 0 := by
  unfold pairAt
  simp only [sum_fin10, Fin.reduceLT, ↓reduceIte, add_zero, zero_add]
  simp only [add_assoc]

/-- The stored vector at batch row `b`, with the tenth accumulator a variable equal to the value the body
    computes for it. The ten accumulators are taken as the function `![A0, …, A9]` of the field. -/
theorem tail_apply_of (v0 : Vec Ideal S256x10 .i32) (v574 : FVec Ideal S256x161 .f32) (v575 : IVec S256x2048 32)
    (v712 : Vec Ideal S1x161x2048 .bf16)
    (A0 A1 A2 A3 A4 A5 A6 A7 A8 A9 : FVec Ideal S256x161 .f32) (h9 : A9 = k0_pay76 v0 v574 v575 v712) (b : Fin 256) :
    k0_pay1 A7 A8 A9 (k0_pay77 v0 v574 v575 A0 A1 A2 A3 A4 A5 A6 A7 A8 v712)
        (k0_pay86 A4 A5 A6 A7 A8 A9
          (k0_pay84 A2 A3 A4 A5 A6 A7 A8 A9
            (k0_pay82 A1 A2 A3 A4 A5 A6 A7 A8 A9
              (k0_pay80 A0 A1 A2 A3 A4 A5 A6 A7 A8 A9 (k0_pay78 A0 A1) (k0_pay79 A0))
              (k0_pay81 A1))
            (k0_pay83 A2))
          (k0_pay85 A4))
        (k0_pay87 A6) (ix1 b)
      = (∑ i : Fin 10, (![A0, A1, A2, A3, A4, A5, A6, A7, A8, A9] : Fin 10 → FVec Ideal S256x161 .f32) i (ix2 b Cert.FFM.lrow))
        + ∑ i : Fin 10, ∑ j : Fin 10,
            if i < j then ∑ d : Fin 16,
              (![A0, A1, A2, A3, A4, A5, A6, A7, A8, A9] : Fin 10 → FVec Ideal S256x161 .f32) i (ix2 b (Cert.FFM.prow j d))
                * (![A0, A1, A2, A3, A4, A5, A6, A7, A8, A9] : Fin 10 → FVec Ideal S256x161 .f32) j (ix2 b (Cert.FFM.prow i d))
            else 0 := by
  subst h9
  rw [pay1_apply, pay86_apply, pay84_apply, pay82_apply, pay80_apply, pay78_apply, pay77_apply]
  rw [carry_of_cols _ A6 _ 6 9 b (pay87_apply A6 b), carry_of_cols _ A4 _ 4 6 b (pay85_apply A4 b),
      carry_of_cols _ A2 _ 2 7 b (pay83_apply A2 b), carry_of_cols _ A1 _ 1 4 b (pay81_apply A1 b),
      carry_of_cols _ A0 _ 0 2 b (pay79_apply A0 b)]
  exact sums_eq ![A0, A1, A2, A3, A4, A5, A6, A7, A8, k0_pay76 v0 v574 v575 v712] b

/-- The stored vector at batch row `b`: the sum over the ten fields of the accumulators' row 160, plus the sum over
    the pairs of fields `i < j` of the inner products of rows `16 j …` of accumulator `i` with rows `16 i …` of
    accumulator `j`. The ten accumulators are the function `![A0, …, A8, A9]` of the field, the tenth being the value
    the body computes for it. -/
theorem tail_apply (v0 : Vec Ideal S256x10 .i32) (v574 : FVec Ideal S256x161 .f32) (v575 : IVec S256x2048 32)
    (v712 : Vec Ideal S1x161x2048 .bf16)
    (A0 A1 A2 A3 A4 A5 A6 A7 A8 : FVec Ideal S256x161 .f32) (b : Fin 256) :
    let A9 : FVec Ideal S256x161 .f32 := k0_pay76 v0 v574 v575 v712
    let A : Fin 10 → FVec Ideal S256x161 .f32 := ![A0, A1, A2, A3, A4, A5, A6, A7, A8, A9]
    k0_pay1 A7 A8 A9 (k0_pay77 v0 v574 v575 A0 A1 A2 A3 A4 A5 A6 A7 A8 v712)
        (k0_pay86 A4 A5 A6 A7 A8 A9
          (k0_pay84 A2 A3 A4 A5 A6 A7 A8 A9
            (k0_pay82 A1 A2 A3 A4 A5 A6 A7 A8 A9
              (k0_pay80 A0 A1 A2 A3 A4 A5 A6 A7 A8 A9 (k0_pay78 A0 A1) (k0_pay79 A0))
              (k0_pay81 A1))
            (k0_pay83 A2))
          (k0_pay85 A4))
        (k0_pay87 A6) (ix1 b)
      = (∑ i : Fin 10, A i (ix2 b Cert.FFM.lrow))
        + ∑ i : Fin 10, ∑ j : Fin 10,
            if i < j then ∑ d : Fin 16, A i (ix2 b (Cert.FFM.prow j d)) * A j (ix2 b (Cert.FFM.prow i d)) else 0 :=
  tail_apply_of v0 v574 v575 v712 A0 A1 A2 A3 A4 A5 A6 A7 A8 _ rfl b

end Cert.FFM.Body

end
-- ==== Proof.BodyValue.lean ====
/- # The law of the kernel body

On a block of categorical values that are lane numbers of the weight slab, the score the body leaves for a batch
row is the slab score of the row's ten values. The body keeps one accumulator per field; over the five chunks of
lanes the accumulator of field `f` gathers, for every slab row, the slab entry at the lane of the row's value of
field `f` (exactly one chunk holds that lane). The last part of the body adds the accumulators' linear rows and
the pair products, which is the slab score. -/
import proofs.«419980_j22007412425277_3_alg».proof.Proof.ValueIdeal
import proofs.«419980_j22007412425277_3_alg».proof.Proof.BodyPiece
import proofs.«419980_j22007412425277_3_alg».proof.Proof.BodyAcc
import proofs.«419980_j22007412425277_3_alg».proof.Proof.BodyTail

set_option maxRecDepth 16384

noncomputable section

namespace Cert.FFM.Body

open Idealize.ShloMosaic Idealize.ShloMosaic.ValueIdx
open Cert.KernelIdeal Cert.KernelIdeal.Gen Cert.KernelIdeal.Hand Cert.FFM

/-- The lane numbers `0 … 2047` along the second axis of a `256 × 2048` block. -/
local notation "LANES" => (iota Kind.tc S256x2048 32 [1] iota_S256x2048_d1_w32 : IVec S256x2048 32)

/-- The slice of the slab `x1` the body reads for field `i` from lane `k`: all 161 rows, 2048 lanes. -/
abbrev sl (x1 : Vec Ideal S10x161x10240 .bf16) (i k : ℕ)
    (h : ∀ a, (![i, 0, k] : Fin 3 → Nat) a + S1x161x2048.size a ≤ S10x161x10240.size a) : Vec Ideal S1x161x2048 .bf16 :=
  View.ld x1 (Rect.unit (s := S10x161x10240) ![i, 0, k] S1x161x2048.size h)

/-! ## The ten accumulators after the five chunks -/

/-- Field 0's accumulator. -/
def acc0 (x0 : Vec Ideal S256x10 .i32) (x1 : Vec Ideal S10x161x10240 .bf16) : FVec Ideal S256x161 .f32 :=
  k0_pay64 x0 (k0_pay51 (k0_pay38 (k0_pay24 x0 (k0_pay11 x0 (sl x1 0 0 inb_S10x161x10240_S1x161x2048_0_0_0)) (sl x1 0 2048 inb_S10x161x10240_S1x161x2048_0_0_2048))
    (k0_pay37 x0) (sl x1 0 4096 inb_S10x161x10240_S1x161x2048_0_0_4096)) LANES (k0_pay50 x0) (sl x1 0 6144 inb_S10x161x10240_S1x161x2048_0_0_6144)) (sl x1 0 8192 inb_S10x161x10240_S1x161x2048_0_0_8192)

/-- Field 1's accumulator. -/
def acc1 (x0 : Vec Ideal S256x10 .i32) (x1 : Vec Ideal S10x161x10240 .bf16) : FVec Ideal S256x161 .f32 :=
  k0_pay65 x0 (k0_pay52 x0 (k0_pay39 x0 (k0_pay26 (k0_pay14 (k0_pay2 (F := Ideal)) (k0_pay12 x0) (k0_pay13 (sl x1 1 0 inb_S10x161x10240_S1x161x2048_1_0_0)))
    LANES (k0_pay25 x0) (sl x1 1 2048 inb_S10x161x10240_S1x161x2048_1_0_2048)) LANES (sl x1 1 4096 inb_S10x161x10240_S1x161x2048_1_0_4096)) LANES (sl x1 1 6144 inb_S10x161x10240_S1x161x2048_1_0_6144)) (sl x1 1 8192 inb_S10x161x10240_S1x161x2048_1_0_8192)

/-- Field 2's accumulator. -/
def acc2 (x0 : Vec Ideal S256x10 .i32) (x1 : Vec Ideal S10x161x10240 .bf16) : FVec Ideal S256x161 .f32 :=
  k0_pay67 (k0_pay53 x0 (k0_pay40 x0 (k0_pay27 x0 (k0_pay15 x0 (k0_pay3 (F := Ideal)) LANES (sl x1 2 0 inb_S10x161x10240_S1x161x2048_2_0_0))
    LANES (sl x1 2 2048 inb_S10x161x10240_S1x161x2048_2_0_2048)) LANES (sl x1 2 4096 inb_S10x161x10240_S1x161x2048_2_0_4096)) LANES (sl x1 2 6144 inb_S10x161x10240_S1x161x2048_2_0_6144)) (k0_pay66 x0) (sl x1 2 8192 inb_S10x161x10240_S1x161x2048_2_0_8192)

/-- Field 3's accumulator. -/
def acc3 (x0 : Vec Ideal S256x10 .i32) (x1 : Vec Ideal S10x161x10240 .bf16) : FVec Ideal S256x161 .f32 :=
  k0_pay68 x0 (k0_pay55 (k0_pay43 (k0_pay28 x0 (k0_pay16 x0 (k0_pay4 (F := Ideal)) LANES (sl x1 3 0 inb_S10x161x10240_S1x161x2048_3_0_0))
    LANES (sl x1 3 2048 inb_S10x161x10240_S1x161x2048_3_0_2048)) (k0_pay41 x0 LANES) (k0_pay42 (sl x1 3 4096 inb_S10x161x10240_S1x161x2048_3_0_4096))) LANES (k0_pay54 x0) (sl x1 3 6144 inb_S10x161x10240_S1x161x2048_3_0_6144)) LANES (sl x1 3 8192 inb_S10x161x10240_S1x161x2048_3_0_8192)

/-- Field 4's accumulator. -/
def acc4 (x0 : Vec Ideal S256x10 .i32) (x1 : Vec Ideal S10x161x10240 .bf16) : FVec Ideal S256x161 .f32 :=
  k0_pay69 x0 (k0_pay56 x0 (k0_pay44 x0 (k0_pay30 (k0_pay17 x0 (k0_pay5 (F := Ideal)) LANES (sl x1 4 0 inb_S10x161x10240_S1x161x2048_4_0_0))
    (k0_pay29 x0 LANES) (sl x1 4 2048 inb_S10x161x10240_S1x161x2048_4_0_2048)) LANES (sl x1 4 4096 inb_S10x161x10240_S1x161x2048_4_0_4096)) LANES (sl x1 4 6144 inb_S10x161x10240_S1x161x2048_4_0_6144)) LANES (sl x1 4 8192 inb_S10x161x10240_S1x161x2048_4_0_8192)

/-- Field 5's accumulator. -/
def acc5 (x0 : Vec Ideal S256x10 .i32) (x1 : Vec Ideal S10x161x10240 .bf16) : FVec Ideal S256x161 .f32 :=
  k0_pay72 (k0_pay57 x0 (k0_pay45 x0 (k0_pay31 x0 (k0_pay18 x0 (k0_pay6 (F := Ideal)) LANES (sl x1 5 0 inb_S10x161x10240_S1x161x2048_5_0_0))
    LANES (sl x1 5 2048 inb_S10x161x10240_S1x161x2048_5_0_2048)) LANES (sl x1 5 4096 inb_S10x161x10240_S1x161x2048_5_0_4096)) LANES (sl x1 5 6144 inb_S10x161x10240_S1x161x2048_5_0_6144)) (k0_pay70 x0 LANES) (k0_pay71 (sl x1 5 8192 inb_S10x161x10240_S1x161x2048_5_0_8192))

/-- Field 6's accumulator. -/
def acc6 (x0 : Vec Ideal S256x10 .i32) (x1 : Vec Ideal S10x161x10240 .bf16) : FVec Ideal S256x161 .f32 :=
  k0_pay73 x0 (k0_pay59 (k0_pay46 x0 (k0_pay32 x0 (k0_pay19 x0 (k0_pay7 (F := Ideal)) LANES (sl x1 6 0 inb_S10x161x10240_S1x161x2048_6_0_0))
    LANES (sl x1 6 2048 inb_S10x161x10240_S1x161x2048_6_0_2048)) LANES (sl x1 6 4096 inb_S10x161x10240_S1x161x2048_6_0_4096)) (k0_pay58 x0 LANES) (sl x1 6 6144 inb_S10x161x10240_S1x161x2048_6_0_6144)) LANES (sl x1 6 8192 inb_S10x161x10240_S1x161x2048_6_0_8192)

/-- Field 7's accumulator. -/
def acc7 (x0 : Vec Ideal S256x10 .i32) (x1 : Vec Ideal S10x161x10240 .bf16) : FVec Ideal S256x161 .f32 :=
  k0_pay74 x0 (k0_pay60 x0 (k0_pay47 x0 (k0_pay34 (k0_pay20 x0 (k0_pay8 (F := Ideal)) LANES (sl x1 7 0 inb_S10x161x10240_S1x161x2048_7_0_0))
    (k0_pay33 x0 LANES) (sl x1 7 2048 inb_S10x161x10240_S1x161x2048_7_0_2048)) LANES (sl x1 7 4096 inb_S10x161x10240_S1x161x2048_7_0_4096)) LANES (sl x1 7 6144 inb_S10x161x10240_S1x161x2048_7_0_6144)) LANES (sl x1 7 8192 inb_S10x161x10240_S1x161x2048_7_0_8192)

/-- Field 8's accumulator. -/
def acc8 (x0 : Vec Ideal S256x10 .i32) (x1 : Vec Ideal S10x161x10240 .bf16) : FVec Ideal S256x161 .f32 :=
  k0_pay75 x0 (k0_pay61 x0 (k0_pay48 x0 (k0_pay35 x0 (k0_pay22 (k0_pay9 (F := Ideal)) LANES (k0_pay21 x0) 0#32 (sl x1 8 0 inb_S10x161x10240_S1x161x2048_8_0_0))
    LANES (sl x1 8 2048 inb_S10x161x10240_S1x161x2048_8_0_2048)) LANES (sl x1 8 4096 inb_S10x161x10240_S1x161x2048_8_0_4096)) LANES (sl x1 8 6144 inb_S10x161x10240_S1x161x2048_8_0_6144)) LANES (sl x1 8 8192 inb_S10x161x10240_S1x161x2048_8_0_8192)

/-- Field 9's accumulator after four chunks. -/
def acc9pre (x0 : Vec Ideal S256x10 .i32) (x1 : Vec Ideal S10x161x10240 .bf16) : FVec Ideal S256x161 .f32 :=
  k0_pay63 (k0_pay49 x0 (k0_pay36 x0 (k0_pay23 x0 (k0_pay10 (F := Ideal)) LANES (sl x1 9 0 inb_S10x161x10240_S1x161x2048_9_0_0))
    LANES (sl x1 9 2048 inb_S10x161x10240_S1x161x2048_9_0_2048)) LANES (sl x1 9 4096 inb_S10x161x10240_S1x161x2048_9_0_4096)) (k0_pay62 x0 LANES) (sl x1 9 6144 inb_S10x161x10240_S1x161x2048_9_0_6144)

/-- Field 9's accumulator. -/
def acc9 (x0 : Vec Ideal S256x10 .i32) (x1 : Vec Ideal S10x161x10240 .bf16) : FVec Ideal S256x161 .f32 :=
  k0_pay76 x0 (acc9pre x0 x1) LANES (sl x1 9 8192 inb_S10x161x10240_S1x161x2048_9_0_8192)

/-- The ten accumulators as a function of the field. -/
def accs (x0 : Vec Ideal S256x10 .i32) (x1 : Vec Ideal S10x161x10240 .bf16) : Fin 10 → FVec Ideal S256x161 .f32 :=
  ![acc0 x0 x1, acc1 x0 x1, acc2 x0 x1, acc3 x0 x1, acc4 x0 x1, acc5 x0 x1, acc6 x0 x1, acc7 x0 x1, acc8 x0 x1, acc9 x0 x1]

/-! ## What each accumulator holds -/

/-- The five chunk terms of field `I`, begun from zero, add up to the slab entry at the value's lane: each slice is the
    slab over its chunk of lanes, and exactly one chunk holds a value below `10240`. -/
theorem field_collapse (x1 : Vec Ideal S10x161x10240 .bf16) (I : ℕ) (hI : I < 10) (xv : ℕ) (hxv : xv < 10240) (n : Fin 161)
    (h0 : ∀ a, (![I, 0, 0] : Fin 3 → Nat) a + S1x161x2048.size a ≤ S10x161x10240.size a)
    (h1 : ∀ a, (![I, 0, 2048] : Fin 3 → Nat) a + S1x161x2048.size a ≤ S10x161x10240.size a)
    (h2 : ∀ a, (![I, 0, 4096] : Fin 3 → Nat) a + S1x161x2048.size a ≤ S10x161x10240.size a)
    (h3 : ∀ a, (![I, 0, 6144] : Fin 3 → Nat) a + S1x161x2048.size a ≤ S10x161x10240.size a)
    (h4 : ∀ a, (![I, 0, 8192] : Fin 3 → Nat) a + S1x161x2048.size a ≤ S10x161x10240.size a) :
    0 + chunkTerm (sl x1 I 0 h0) 0 xv n + chunkTerm (sl x1 I 2048 h1) 2048 xv n + chunkTerm (sl x1 I 4096 h2) 4096 xv n
        + chunkTerm (sl x1 I 6144 h3) 6144 xv n + chunkTerm (sl x1 I 8192 h4) 8192 xv n
      = x1 (ix3 (⟨I, hI⟩ : Fin 10) n (lane xv)) :=
  chunks_collapse_zero x1 ⟨I, hI⟩ n xv hxv _ _ _ _ _
    (fun n k => (ld_slice_apply x1 I 0 hI (by omega) h0 n k).trans
      (congrArg (fun l => x1 (ix3 (⟨I, hI⟩ : Fin 10) n l)) (Fin.ext (Nat.zero_add k.val))))
    (fun n k => ld_slice_apply x1 I 2048 hI (by omega) h1 n k)
    (fun n k => ld_slice_apply x1 I 4096 hI (by omega) h2 n k)
    (fun n k => ld_slice_apply x1 I 6144 hI (by omega) h3 n k)
    (fun n k => ld_slice_apply x1 I 8192 hI (by omega) h4 n k)

theorem acc0_apply (x0 : Vec Ideal S256x10 .i32) (x1 : Vec Ideal S10x161x10240 .bf16) (b : Fin 256)
    (hxv : (x0 (ix2 b (0 : Fin 10))).toNat < 10240) (n : Fin 161) :
    acc0 x0 x1 (ix2 b n) = x1 (ix3 (0 : Fin 10) n (lane (x0 (ix2 b (0 : Fin 10))).toNat)) := by
  unfold acc0
  rw [pay64_apply, pay51_apply, pay38_apply, pay24_apply, pay11_apply]
  exact field_collapse x1 0 (by omega) _ hxv n _ _ _ _ _

theorem acc1_apply (x0 : Vec Ideal S256x10 .i32) (x1 : Vec Ideal S10x161x10240 .bf16) (b : Fin 256)
    (hxv : (x0 (ix2 b (1 : Fin 10))).toNat < 10240) (n : Fin 161) :
    acc1 x0 x1 (ix2 b n) = x1 (ix3 (1 : Fin 10) n (lane (x0 (ix2 b (1 : Fin 10))).toNat)) := by
  unfold acc1
  rw [pay65_apply, pay52_apply, pay39_apply, pay26_apply, pay14_apply, pay2_apply]
  exact field_collapse x1 1 (by omega) _ hxv n _ _ _ _ _

theorem acc2_apply (x0 : Vec Ideal S256x10 .i32) (x1 : Vec Ideal S10x161x10240 .bf16) (b : Fin 256)
    (hxv : (x0 (ix2 b (2 : Fin 10))).toNat < 10240) (n : Fin 161) :
    acc2 x0 x1 (ix2 b n) = x1 (ix3 (2 : Fin 10) n (lane (x0 (ix2 b (2 : Fin 10))).toNat)) := by
  unfold acc2
  rw [pay67_apply, pay53_apply, pay40_apply, pay27_apply, pay15_apply, pay3_apply]
  exact field_collapse x1 2 (by omega) _ hxv n _ _ _ _ _

theorem acc3_apply (x0 : Vec Ideal S256x10 .i32) (x1 : Vec Ideal S10x161x10240 .bf16) (b : Fin 256)
    (hxv : (x0 (ix2 b (3 : Fin 10))).toNat < 10240) (n : Fin 161) :
    acc3 x0 x1 (ix2 b n) = x1 (ix3 (3 : Fin 10) n (lane (x0 (ix2 b (3 : Fin 10))).toNat)) := by
  unfold acc3
  rw [pay68_apply, pay55_apply, pay43_apply, pay28_apply, pay16_apply, pay4_apply]
  exact field_collapse x1 3 (by omega) _ hxv n _ _ _ _ _

theorem acc4_apply (x0 : Vec Ideal S256x10 .i32) (x1 : Vec Ideal S10x161x10240 .bf16) (b : Fin 256)
    (hxv : (x0 (ix2 b (4 : Fin 10))).toNat < 10240) (n : Fin 161) :
    acc4 x0 x1 (ix2 b n) = x1 (ix3 (4 : Fin 10) n (lane (x0 (ix2 b (4 : Fin 10))).toNat)) := by
  unfold acc4
  rw [pay69_apply, pay56_apply, pay44_apply, pay30_apply, pay17_apply, pay5_apply]
  exact field_collapse x1 4 (by omega) _ hxv n _ _ _ _ _

theorem acc5_apply (x0 : Vec Ideal S256x10 .i32) (x1 : Vec Ideal S10x161x10240 .bf16) (b : Fin 256)
    (hxv : (x0 (ix2 b (5 : Fin 10))).toNat < 10240) (n : Fin 161) :
    acc5 x0 x1 (ix2 b n) = x1 (ix3 (5 : Fin 10) n (lane (x0 (ix2 b (5 : Fin 10))).toNat)) := by
  unfold acc5
  rw [pay72_apply, pay57_apply, pay45_apply, pay31_apply, pay18_apply, pay6_apply]
  exact field_collapse x1 5 (by omega) _ hxv n _ _ _ _ _

theorem acc6_apply (x0 : Vec Ideal S256x10 .i32) (x1 : Vec Ideal S10x161x10240 .bf16) (b : Fin 256)
    (hxv : (x0 (ix2 b (6 : Fin 10))).toNat < 10240) (n : Fin 161) :
    acc6 x0 x1 (ix2 b n) = x1 (ix3 (6 : Fin 10) n (lane (x0 (ix2 b (6 : Fin 10))).toNat)) := by
  unfold acc6
  rw [pay73_apply, pay59_apply, pay46_apply, pay32_apply, pay19_apply, pay7_apply]
  exact field_collapse x1 6 (by omega) _ hxv n _ _ _ _ _

theorem acc7_apply (x0 : Vec Ideal S256x10 .i32) (x1 : Vec Ideal S10x161x10240 .bf16) (b : Fin 256)
    (hxv : (x0 (ix2 b (7 : Fin 10))).toNat < 10240) (n : Fin 161) :
    acc7 x0 x1 (ix2 b n) = x1 (ix3 (7 : Fin 10) n (lane (x0 (ix2 b (7 : Fin 10))).toNat)) := by
  unfold acc7
  rw [pay74_apply, pay60_apply, pay47_apply, pay34_apply, pay20_apply, pay8_apply]
  exact field_collapse x1 7 (by omega) _ hxv n _ _ _ _ _

theorem acc8_apply (x0 : Vec Ideal S256x10 .i32) (x1 : Vec Ideal S10x161x10240 .bf16) (b : Fin 256)
    (hxv : (x0 (ix2 b (8 : Fin 10))).toNat < 10240) (n : Fin 161) :
    acc8 x0 x1 (ix2 b n) = x1 (ix3 (8 : Fin 10) n (lane (x0 (ix2 b (8 : Fin 10))).toNat)) := by
  unfold acc8
  rw [pay75_apply, pay61_apply, pay48_apply, pay35_apply, pay22_apply, pay9_apply]
  exact field_collapse x1 8 (by omega) _ hxv n _ _ _ _ _

theorem acc9_apply (x0 : Vec Ideal S256x10 .i32) (x1 : Vec Ideal S10x161x10240 .bf16) (b : Fin 256)
    (hxv : (x0 (ix2 b (9 : Fin 10))).toNat < 10240) (n : Fin 161) :
    acc9 x0 x1 (ix2 b n) = x1 (ix3 (9 : Fin 10) n (lane (x0 (ix2 b (9 : Fin 10))).toNat)) := by
  unfold acc9 acc9pre
  rw [pay76_apply, pay63_apply, pay49_apply, pay36_apply, pay23_apply, pay10_apply]
  exact field_collapse x1 9 (by omega) _ hxv n _ _ _ _ _

/-- Every accumulator, at every slab row, holds the slab entry at the lane of its field's value. -/
theorem accs_apply (x0 : Vec Ideal S256x10 .i32) (x1 : Vec Ideal S10x161x10240 .bf16) (b : Fin 256)
    (hx : ∀ f : Fin 10, (x0 (ix2 b f)).toNat < 10240) (f : Fin 10) (n : Fin 161) :
    accs x0 x1 f (ix2 b n) = x1 (ix3 f n (lane (x0 (ix2 b f)).toNat)) := by
  match f with
  | ⟨0, _⟩ => exact acc0_apply x0 x1 b (hx 0) n
  | ⟨1, _⟩ => exact acc1_apply x0 x1 b (hx 1) n
  | ⟨2, _⟩ => exact acc2_apply x0 x1 b (hx 2) n
  | ⟨3, _⟩ => exact acc3_apply x0 x1 b (hx 3) n
  | ⟨4, _⟩ => exact acc4_apply x0 x1 b (hx 4) n
  | ⟨5, _⟩ => exact acc5_apply x0 x1 b (hx 5) n
  | ⟨6, _⟩ => exact acc6_apply x0 x1 b (hx 6) n
  | ⟨7, _⟩ => exact acc7_apply x0 x1 b (hx 7) n
  | ⟨8, _⟩ => exact acc8_apply x0 x1 b (hx 8) n
  | ⟨9, _⟩ => exact acc9_apply x0 x1 b (hx 9) n

/-! ## The stored vector -/

/-- The stored vector at batch row `b` is the linear rows of the ten accumulators plus their pair products: the value
    the body stores is the last part of the body applied to the ten accumulators. -/
theorem bodyVal_tail (x0 : Vec Ideal S256x10 .i32) (x1 : Vec Ideal S10x161x10240 .bf16) (b : Fin 256) :
    bodyVal (F := Ideal) x0 x1 (ix1 b)
      = (∑ i : Fin 10, accs x0 x1 i (ix2 b lrow))
        + ∑ i : Fin 10, ∑ j : Fin 10,
            if i < j then ∑ d : Fin 16, accs x0 x1 i (ix2 b (prow j d)) * accs x0 x1 j (ix2 b (prow i d)) else 0 :=
  tail_apply_of x0 (acc9pre x0 x1) LANES (sl x1 9 8192 inb_S10x161x10240_S1x161x2048_9_0_8192)
    (acc0 x0 x1) (acc1 x0 x1) (acc2 x0 x1) (acc3 x0 x1) (acc4 x0 x1) (acc5 x0 x1) (acc6 x0 x1) (acc7 x0 x1) (acc8 x0 x1)
    (acc9 x0 x1) rfl b

/-- THE LAW OF THE BODY. -/
theorem bodyLaw : Cert.KernelIdeal.HandValue.BodyLaw := by
  intro c i arg1 harg1 arg2 harg2 arg3 harg3 x0 x1 hx b
  rw [outBlock_eq, bodyVal_tail]
  unfold slabScore
  simp only [accs_apply x0 x1 b (hx b)]

end Cert.FFM.Body

end
-- ==== Proof.lean ====
/- The certificate of a field-aware factorization machine scored by a one-hot-matmul kernel.

Ten categorical fields of 10000 values each share a vocabulary of 100000 embedding rows; field `i` of batch row `b`
selects row `x[b,i] + offsets[i]`. The reference gathers the rows and sums, over pairs `i < j`, the inner products of
field `i`'s row in table `j` with field `j`'s row in table `i`, adds the selected linear weights and the bias.
The kernel program first cuts, for every field, the field's 10000 rows out of every table (and out of the linear
weights) into a slab of 161 rows by 10240 lanes (zero beyond lane 10000), and its kernel selects lane `x[b,i]` of the
slab by multiplying a one-hot row into it, 2048 lanes at a time; the products and sums that follow are the
reference's. Over the extended reals a one-hot row times a column is the selected entry (zero times anything is
zero), so under the stated ranges — `0 ≤ x < 10000`, `0 ≤ offsets ≤ 90000`, which keep every selected row inside its
field's block and the block inside the vocabulary — both programs compute `Cert.FFM.G` (Proof/Spec.lean).
The three frames: the two kernel programs run to the end whatever the inputs (Proof/FrameBits.lean,
Proof/FrameIdeal.lean); the reference is a host program whose run is read back operation by operation. -/
import proofs.«419980_j22007412425277_3_alg».proof.Defs
import proofs.«419980_j22007412425277_3_alg».proof.Proof.Gen.Kernel
import proofs.«419980_j22007412425277_3_alg».proof.Proof.Gen.KernelIdeal
import proofs.«419980_j22007412425277_3_alg».proof.Proof.Gen.ReferenceIdeal
import proofs.«419980_j22007412425277_3_alg».proof.Proof.Gen.Pre_finite_inputs
import proofs.«419980_j22007412425277_3_alg».proof.Proof.FrameBits
import proofs.«419980_j22007412425277_3_alg».proof.Proof.ValueIdeal
import proofs.«419980_j22007412425277_3_alg».proof.Proof.RefValue
import proofs.«419980_j22007412425277_3_alg».proof.Proof.PreRanges
import proofs.«419980_j22007412425277_3_alg».proof.Proof.SpecAlgebra
import proofs.«419980_j22007412425277_3_alg».proof.Proof.HostW
import proofs.«419980_j22007412425277_3_alg».proof.Proof.BodyValue

noncomputable section

namespace Cert.Proof

open Idealize.ShloMosaic Idealize.SL.Sem Idealize.ShloMosaic.ValueIdx

/-- The word-level kernel program terminates without a fault and leaves its arguments unchanged, for every input. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing in this kernel. -/
theorem preserves : Cert.preserves_Kernel_KernelIdeal := trivial

/-- Both idealized programs end with `Cert.FFM.G` of the arguments. Kernel side: the launch's result is the slab
    score of each batch row (the body's law over the 64 blocks), the slab is `catW` of the arguments (the host
    operations before the launch, under the range of `offsets`), and the slab score of `catW` plus the bias is `G`
    (under the range of `x`). Reference side: its run read back under the same ranges. -/
theorem algebraic : Cert.algebraic_KernelIdeal_ReferenceIdeal := by
  intro m ρ m' ρ' hpre hagree
  have hr : ∀ c : Dev Cert.KernelIdeal.nD,
      Cert.FFM.XRange (m ((c.tc : Thread Cert.KernelIdeal.nD Cert.KernelIdeal.τ).loc Cert.KernelIdeal.main_arg0))
      ∧ Cert.FFM.ORange (m ((c.tc : Thread Cert.KernelIdeal.nD Cert.KernelIdeal.τ).loc Cert.KernelIdeal.main_arg1)) :=
    fun c => Cert.FFM.ranges_of_pre _ _ _ _ _ (hpre c)
  refine ⟨fun c => Cert.FFM.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩)
      (Cert.KernelIdeal.HandValue.run_scores m ρ Cert.FFM.Body.bodyLaw (fun c r f => lt_trans ((hr c).1 r f) (by norm_num)))
    funext i
    refine Eq.trans ?_ (Cert.FFM.G_eq (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (hr c).1 i).symm
    have hslab : (Cert.KernelIdeal.Hand.V (F := Ideal) m c Cert.KernelIdeal.main_v162 : Cert.KernelIdeal.S10x161x10240.Idx → EReal)
        = fun j => Cert.FFM.catW (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3)) (j 0) (j 1) (j 2) := by
      funext j
      obtain ⟨a, n, v, rfl⟩ : ∃ (a : Fin 10) (n : Fin 161) (v : Fin 10240), j = ix3 a n v := ⟨j 0, j 1, j 2, eq_ix3 j⟩
      exact Cert.FFM.HostW.slab_apply m c (hr c).2 a n v
    unfold Cert.KernelIdeal.HandValue.scores Cert.KernelIdeal.HandValue.biasArr
    rw [hslab, Cert.KernelIdeal.Hand.V_arg m c Cert.KernelIdeal.main_arg0 (Or.inl rfl)]
    rfl
  · refine (θ_run Cert.ReferenceIdeal.defs _ _).mono (fun r h c => ?_)
      (Cert.FFM.Ref.run m' ρ' (fun c => by rw [(hagree c).1]; exact (hr c).1) (fun c => by rw [(hagree c).2.1]; exact (hr c).2))
    obtain ⟨h0, h1⟩ := h c
    refine ⟨h0.trans ?_, h1⟩
    rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
